-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4095x512 : Shape := ⟨2, ![4095, 512]⟩
abbrev S4095 : Shape := ⟨1, ![4095]⟩
abbrev S4096 : Shape := ⟨1, ![4096]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4095x512 : S_.BroadcastsInDim S4095x512 (![] : Fin 0 → Fin S4095x512.rank)
  reducesTo_S4095x512_S_d0_1 : S4095x512.ReducesTo [0, 1] S_
  bcast_S_S4095 : S_.BroadcastsInDim S4095 (![] : Fin 0 → Fin S4095.rank)
  reducesTo_S4095_S_d0 : S4095.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4095 1) : IVec S_ 1 :=
  let main_c_5 : IVec S_ 1 := constantI S_ 1 1#1
  let main_v17 : IVec S_ 1 := (fun x v => Host.reduce IntOp.andi x v reducesTo_S4095_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S16384x512 .f32) (main_arg1 : FVec F S4095x512 .f32) (main_arg2 : FVec F S4095 .f32) (main_arg3 : FVec F S4095 .f32) (main_arg4 : FVec F S4096 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4095x512 .f32 := Host.absf main_arg1
  let main_cst_0 : FVec F S_ .f32 := constant S_ .f32 0x7F800000#32
  let main_v5 : FVec F S4095x512 .f32 := broadcastInDim S4095x512 ![] bcast_S_S4095x512 main_cst_0
  let main_v6 : IVec S4095x512 1 := cmpf .olt main_v4 main_v5
  let main_c_1 : IVec S_ 1 := constantI S_ 1 1#1
  let main_v7 : IVec S_ 1 := (fun x v => Host.reduce IntOp.andi x v reducesTo_S4095x512_S_d0_1 h_S_) main_v6 main_c_1
  let main_v8 : IVec S_ 1 := andi main_v3 main_v7
  let main_v9 : FVec F S4095 .f32 := Host.absf main_arg2
  let main_cst_2 : FVec F S_ .f32 := constant S_ .f32 0x7F800000#32
  let main_v10 : FVec F S4095 .f32 := broadcastInDim S4095 ![] bcast_S_S4095 main_cst_2
  let main_v11 : IVec S4095 1 := cmpf .olt main_v9 main_v10
  let main_c_3 : IVec S_ 1 := constantI S_ 1 1#1
  let main_v12 : IVec S_ 1 := (fun x v => Host.reduce IntOp.andi x v reducesTo_S4095_S_d0 h_S_) main_v11 main_c_3
  let main_v13 : IVec S_ 1 := andi main_v8 main_v12
  let main_v14 : FVec F S4095 .f32 := Host.absf main_arg3
  let main_cst_4 : FVec F S_ .f32 := constant S_ .f32 0x7F800000#32
  let main_v15 : FVec F S4095 .f32 := broadcastInDim S4095 ![] bcast_S_S4095 main_cst_4
  let main_v16 : IVec S4095 1 := cmpf .olt main_v14 main_v15
  fn_part1 (F := F) main_arg4 main_v13 main_v16
-- ==== Kernel.lean ====
abbrev S16384x512 : Shape := ⟨2, ![16384, 512]⟩
abbrev S4095x512 : Shape := ⟨2, ![4095, 512]⟩
abbrev S4095 : Shape := ⟨1, ![4095]⟩
abbrev S4096 : Shape := ⟨1, ![4096]⟩
abbrev S_ : Shape := ⟨0, ![]⟩
abbrev S4095x1 : Shape := ⟨2, ![4095, 1]⟩
abbrev S4096x1 : Shape := ⟨2, ![4096, 1]⟩
abbrev S1x512 : Shape := ⟨2, ![1, 512]⟩
abbrev S4096x512 : Shape := ⟨2, ![4096, 512]⟩
abbrev S1 : Shape := ⟨1, ![1]⟩
abbrev S1x4096 : Shape := ⟨2, ![1, 4096]⟩
abbrev S16384 : Shape := ⟨1, ![16384]⟩
abbrev S256x512 : Shape := ⟨2, ![256, 512]⟩
abbrev S256 : Shape := ⟨1, ![256]⟩
abbrev S256x4096 : Shape := ⟨2, ![256, 4096]⟩
abbrev S256x2048 : Shape := ⟨2, ![256, 2048]⟩
abbrev S1x2048 : Shape := ⟨2, ![1, 2048]⟩
abbrev S256x1024 : Shape := ⟨2, ![256, 1024]⟩
abbrev S256x256 : Shape := ⟨2, ![256, 256]⟩
abbrev S256x128 : Shape := ⟨2, ![256, 128]⟩
abbrev S256x64 : Shape := ⟨2, ![256, 64]⟩
abbrev S256x32 : Shape := ⟨2, ![256, 32]⟩
abbrev S256x16 : Shape := ⟨2, ![256, 16]⟩
abbrev S256x8 : Shape := ⟨2, ![256, 8]⟩
abbrev S256x4 : Shape := ⟨2, ![256, 4]⟩
abbrev S256x2 : Shape := ⟨2, ![256, 2]⟩
abbrev S256x1 : Shape := ⟨2, ![256, 1]⟩

abbrev nBuf : Space → Nat
  | .hbm => 50
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S4095x512, .f32⟩
  | .hbm, ⟨2, _⟩ => ⟨S4095, .f32⟩
  | .hbm, ⟨3, _⟩ => ⟨S4095, .f32⟩
  | .hbm, ⟨4, _⟩ => ⟨S4096, .f32⟩
  | .hbm, ⟨5, _⟩ => ⟨S4095, .i32⟩
  | .hbm, ⟨6, _⟩ => ⟨S4095, .i1⟩
  | .hbm, ⟨7, _⟩ => ⟨S4095, .i1⟩
  | .hbm, ⟨8, _⟩ => ⟨S4095, .i1⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4095, .i32⟩
  | .hbm, ⟨13, _⟩ => ⟨S4095, .i32⟩
  | .hbm, ⟨14, _⟩ => ⟨S4095, .i32⟩
  | .hbm, ⟨15, _⟩ => ⟨S4095x1, .i32⟩
  | .hbm, ⟨16, _⟩ => ⟨S4095x512, .f32⟩
  | .hbm, ⟨17, _⟩ => ⟨S_, .i32⟩
  | .hbm, ⟨18, _⟩ => ⟨S4095, .i32⟩
  | .hbm, ⟨19, _⟩ => ⟨S4095, .i32⟩
  | .hbm, ⟨20, _⟩ => ⟨S4095, .i32⟩
  | .hbm, ⟨21, _⟩ => ⟨S4095x1, .i32⟩
  | .hbm, ⟨22, _⟩ => ⟨S4095, .f32⟩
  | .hbm, ⟨23, _⟩ => ⟨S_, .i32⟩
  | .hbm, ⟨24, _⟩ => ⟨S4095, .i32⟩
  | .hbm, ⟨25, _⟩ => ⟨S4095, .i32⟩
  | .hbm, ⟨26, _⟩ => ⟨S4095, .i32⟩
  | .hbm, ⟨27, _⟩ => ⟨S4095x1, .i32⟩
  | .hbm, ⟨28, _⟩ => ⟨S4095, .f32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096, .f32⟩
  | .hbm, ⟨35, _⟩ => ⟨S_, .f32⟩
  | .hbm, ⟨36, _⟩ => ⟨S1x512, .f32⟩
  | .hbm, ⟨37, _⟩ => ⟨S4096x512, .f32⟩
  | .hbm, ⟨38, _⟩ => ⟨S_, .f32⟩
  | .hbm, ⟨39, _⟩ => ⟨S1, .f32⟩
  | .hbm, ⟨40, _⟩ => ⟨S4096, .f32⟩
  | .hbm, ⟨41, _⟩ => ⟨S_, .f32⟩
  | .hbm, ⟨42, _⟩ => ⟨S1, .f32⟩
  | .hbm, ⟨43, _⟩ => ⟨S4096, .f32⟩
  | .hbm, ⟨44, _⟩ => ⟨S16384x512, .bf16⟩
  | .hbm, ⟨45, _⟩ => ⟨S4096x512, .bf16⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S16384, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S256, .f32⟩
  | .local _ .vmem, ⟨7, _⟩ => ⟨S256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_6 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_7 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_8 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_9 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4095 : S_.BroadcastsInDim S4095 (![] : Fin 0 → Fin S4095.rank)
  bcast_S4095_S4095x1_0 : S4095.BroadcastsInDim S4095x1 (![0] : Fin 1 → Fin S4095x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S1x512 : S_.BroadcastsInDim S1x512 (![] : Fin 0 → Fin S1x512.rank)
  concatenates_S4095x512_S1x512_S4096x512_d0 : Shape.Concatenates [S4095x512, S1x512] S4096x512 0
  bcast_S_S1 : S_.BroadcastsInDim S1 (![] : Fin 0 → Fin S1.rank)
  concatenates_S4095_S1_S4096_d0 : Shape.Concatenates [S4095, S1] S4096 0
  bitsLt_bf16_f32 : FTy.bits .bf16 < FTy.bits .f32
  shapeCasts_S4096_S1x4096 : S4096.ShapeCasts S1x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_2047_S256x2048 : S256x4096.Slices ![0, 2047] S256x2048
  slices_S1x4096_o0_0_S1x2048 : S1x4096.Slices ![0, 0] S1x2048
  slices_S1x4096_o0_2048_S1x2048 : S1x4096.Slices ![0, 2048] S1x2048
  broadcasts_S1x2048_S256x2048 : S1x2048.Broadcasts S256x2048
  slices_S256x4096_o0_1023_S256x1024 : S256x4096.Slices ![0, 1023] S256x1024
  slices_S256x2048_o0_0_S256x1024 : S256x2048.Slices ![0, 0] S256x1024
  slices_S256x2048_o0_1024_S256x1024 : S256x2048.Slices ![0, 1024] S256x1024
  slices_S256x4096_o0_511_S256x512 : S256x4096.Slices ![0, 511] S256x512
  slices_S256x1024_o0_0_S256x512 : S256x1024.Slices ![0, 0] S256x512
  slices_S256x1024_o0_512_S256x512 : S256x1024.Slices ![0, 512] S256x512
  slices_S256x4096_o0_255_S256x256 : S256x4096.Slices ![0, 255] S256x256
  slices_S256x512_o0_0_S256x256 : S256x512.Slices ![0, 0] S256x256
  slices_S256x512_o0_256_S256x256 : S256x512.Slices ![0, 256] S256x256
  slices_S256x4096_o0_127_S256x128 : S256x4096.Slices ![0, 127] S256x128
  slices_S256x256_o0_0_S256x128 : S256x256.Slices ![0, 0] S256x128
  slices_S256x256_o0_128_S256x128 : S256x256.Slices ![0, 128] S256x128
  slices_S256x4096_o0_63_S256x64 : S256x4096.Slices ![0, 63] S256x64
  slices_S256x128_o0_0_S256x64 : S256x128.Slices ![0, 0] S256x64
  slices_S256x128_o0_64_S256x64 : S256x128.Slices ![0, 64] S256x64
  slices_S256x4096_o0_31_S256x32 : S256x4096.Slices ![0, 31] S256x32
  slices_S256x64_o0_0_S256x32 : S256x64.Slices ![0, 0] S256x32
  slices_S256x64_o0_32_S256x32 : S256x64.Slices ![0, 32] S256x32
  slices_S256x4096_o0_15_S256x16 : S256x4096.Slices ![0, 15] S256x16
  slices_S256x32_o0_0_S256x16 : S256x32.Slices ![0, 0] S256x16
  slices_S256x32_o0_16_S256x16 : S256x32.Slices ![0, 16] S256x16
  slices_S256x4096_o0_7_S256x8 : S256x4096.Slices ![0, 7] S256x8
  slices_S256x16_o0_0_S256x8 : S256x16.Slices ![0, 0] S256x8
  slices_S256x16_o0_8_S256x8 : S256x16.Slices ![0, 8] S256x8
  slices_S256x4096_o0_3_S256x4 : S256x4096.Slices ![0, 3] S256x4
  slices_S256x8_o0_0_S256x4 : S256x8.Slices ![0, 0] S256x4
  slices_S256x8_o0_4_S256x4 : S256x8.Slices ![0, 4] S256x4
  slices_S256x4096_o0_1_S256x2 : S256x4096.Slices ![0, 1] S256x2
  slices_S256x4_o0_0_S256x2 : S256x4.Slices ![0, 0] S256x2
  slices_S256x4_o0_2_S256x2 : S256x4.Slices ![0, 2] S256x2
  slices_S256x4096_o0_0_S256x1 : S256x4096.Slices ![0, 0] S256x1
  slices_S256x2_o0_0_S256x1 : S256x2.Slices ![0, 0] S256x1
  slices_S256x2_o0_1_S256x1 : S256x2.Slices ![0, 1] S256x1
  shapeCasts_S256x1_S256 : S256x1.ShapeCasts S256
  inb_S256_S256_0 : ∀ a, (![0] : Fin 1 → Nat) a + S256.size a ≤ S256.size a
  h_S256 : 0 < S256.numel
  gather_S4095x512_S4095x1_S4095x512_1_0_n_n_0_1_1512_wf : GatherDims.WF S4095x512 S4095x1 S4095x512 [1] [0] [] [0] [] 1 ![1, 512]
  gather_S4095_S4095x1_S4095_n_0_n_n_0_1_1_wf : GatherDims.WF S4095 S4095x1 S4095 [] [0] [] [0] [] 1 ![1]
  gather_S4096_S4096x1_S4096_n_0_n_n_0_1_1_wf : GatherDims.WF S4096 S4096x1 S4096 [] [0] [] [0] [] 1 ![1]
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S16384.size a
  hwx0_5 : ∀ i : grid0.Coords, EltTy.bits .f32 = 32 ∨ (Rect.block (s := S16384) S256.size (cc0_transform_5 i) (hinb0_5 i)).WholeWords (EltTy.packing .f32)

variable [Facts₀]

def gather_S4095x512_S4095x1_S4095x512_1_0_n_n_0_1_1512 : GatherDims S4095x512 S4095x1 S4095x512 where
  offsetDims := [1]
  collapsedSliceDims := [0]
  operandBatchingDims := []
  startIndicesBatchingDims := []
  startIndexMap := [0]
  indexVectorDim := 1
  sliceSizes := ![1, 512]
  wf := gather_S4095x512_S4095x1_S4095x512_1_0_n_n_0_1_1512_wf
def gather_S4095_S4095x1_S4095_n_0_n_n_0_1_1 : GatherDims S4095 S4095x1 S4095 where
  offsetDims := []
  collapsedSliceDims := [0]
  operandBatchingDims := []
  startIndicesBatchingDims := []
  startIndexMap := [0]
  indexVectorDim := 1
  sliceSizes := ![1]
  wf := gather_S4095_S4095x1_S4095_n_0_n_n_0_1_1_wf
def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v26) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S4095x512 : Shape := ⟨2, ![4095, 512]⟩
abbrev S4095 : Shape := ⟨1, ![4095]⟩
abbrev S4096 : Shape := ⟨1, ![4096]⟩
abbrev S512x4095 : Shape := ⟨2, ![512, 4095]⟩
abbrev S16384x4095 : Shape := ⟨2, ![16384, 4095]⟩
abbrev S1x4095 : Shape := ⟨2, ![1, 4095]⟩
abbrev S_ : Shape := ⟨0, ![]⟩
abbrev S16384x1 : Shape := ⟨2, ![16384, 1]⟩
abbrev S16384x1x1 : Shape := ⟨3, ![16384, 1, 1]⟩
abbrev S16384x1x2 : Shape := ⟨3, ![16384, 1, 2]⟩
abbrev S16384x2 : Shape := ⟨2, ![16384, 2]⟩
abbrev S16384x2x1 : Shape := ⟨3, ![16384, 2, 1]⟩
abbrev S16384x2x2 : Shape := ⟨3, ![16384, 2, 2]⟩
abbrev S16384x4 : Shape := ⟨2, ![16384, 4]⟩
abbrev S16384x4x1 : Shape := ⟨3, ![16384, 4, 1]⟩
abbrev S16384x4x2 : Shape := ⟨3, ![16384, 4, 2]⟩
abbrev S16384x8 : Shape := ⟨2, ![16384, 8]⟩
abbrev S16384x8x1 : Shape := ⟨3, ![16384, 8, 1]⟩
abbrev S16384x8x2 : Shape := ⟨3, ![16384, 8, 2]⟩
abbrev S16384x16 : Shape := ⟨2, ![16384, 16]⟩
abbrev S16384x16x1 : Shape := ⟨3, ![16384, 16, 1]⟩
abbrev S16384x16x2 : Shape := ⟨3, ![16384, 16, 2]⟩
abbrev S16384x32 : Shape := ⟨2, ![16384, 32]⟩
abbrev S16384x32x1 : Shape := ⟨3, ![16384, 32, 1]⟩
abbrev S16384x32x2 : Shape := ⟨3, ![16384, 32, 2]⟩
abbrev S16384x64 : Shape := ⟨2, ![16384, 64]⟩
abbrev S16384x64x1 : Shape := ⟨3, ![16384, 64, 1]⟩
abbrev S16384x64x2 : Shape := ⟨3, ![16384, 64, 2]⟩
abbrev S16384x128 : Shape := ⟨2, ![16384, 128]⟩
abbrev S16384x128x1 : Shape := ⟨3, ![16384, 128, 1]⟩
abbrev S16384x128x2 : Shape := ⟨3, ![16384, 128, 2]⟩
abbrev S16384x256 : Shape := ⟨2, ![16384, 256]⟩
abbrev S16384x256x1 : Shape := ⟨3, ![16384, 256, 1]⟩
abbrev S16384x256x2 : Shape := ⟨3, ![16384, 256, 2]⟩
abbrev S16384x512x1 : Shape := ⟨3, ![16384, 512, 1]⟩
abbrev S16384x512x2 : Shape := ⟨3, ![16384, 512, 2]⟩
abbrev S16384x1024 : Shape := ⟨2, ![16384, 1024]⟩
abbrev S16384x1024x1 : Shape := ⟨3, ![16384, 1024, 1]⟩
abbrev S16384x1024x2 : Shape := ⟨3, ![16384, 1024, 2]⟩
abbrev S16384x2048 : Shape := ⟨2, ![16384, 2048]⟩
abbrev S16384x2048x1 : Shape := ⟨3, ![16384, 2048, 1]⟩
abbrev S16384x2048x2 : Shape := ⟨3, ![16384, 2048, 2]⟩
abbrev S16384x4096 : Shape := ⟨2, ![16384, 4096]⟩
abbrev S1x4096 : Shape := ⟨2, ![1, 4096]⟩
abbrev S16384 : Shape := ⟨1, ![16384]⟩

abbrev nBuf : Space → Nat
  | .hbm => 156
  | .vmem => 0
  | .smem => 0
  | _ => 0

abbrev hbmTy0_0 (i : Nat) : BufTy := match i % 128 with
  | 0 => ⟨S16384x512, .f32⟩
  | 1 => ⟨S4095x512, .f32⟩
  | 2 => ⟨S4095, .f32⟩
  | 3 => ⟨S4095, .f32⟩
  | 4 => ⟨S4096, .f32⟩
  | 5 => ⟨S512x4095, .f32⟩
  | 6 => ⟨S16384x4095, .f32⟩
  | 7 => ⟨S1x4095, .f32⟩
  | 8 => ⟨S16384x4095, .f32⟩
  | 9 => ⟨S16384x4095, .f32⟩
  | 10 => ⟨S1x4095, .f32⟩
  | 11 => ⟨S16384x4095, .f32⟩
  | 12 => ⟨S16384x4095, .f32⟩
  | 13 => ⟨S16384x4095, .f32⟩
  | 14 => ⟨S16384x4095, .f32⟩
  | 15 => ⟨S_, .f32⟩
  | 16 => ⟨S16384x4095, .f32⟩
  | 17 => ⟨S16384x4095, .f32⟩
  | 18 => ⟨S_, .f32⟩
  | 19 => ⟨S16384x4095, .f32⟩
  | 20 => ⟨S16384x4095, .f32⟩
  | 21 => ⟨S_, .f32⟩
  | 22 => ⟨S16384x1, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S16384x1, .f32⟩
  | 29 => ⟨S16384x1x1, .f32⟩
  | 30 => ⟨S16384x1x1, .f32⟩
  | 31 => ⟨S16384x1x2, .f32⟩
  | 32 => ⟨S16384x2, .f32⟩
  | 33 => ⟨S16384x2, .f32⟩
  | 34 => ⟨S16384x2, .f32⟩
  | 35 => ⟨S_, .f32⟩
  | 36 => ⟨S16384x2, .f32⟩
  | 37 => ⟨S16384x2, .f32⟩
  | 38 => ⟨S16384x2, .f32⟩
  | 39 => ⟨S16384x2x1, .f32⟩
  | 40 => ⟨S16384x2x1, .f32⟩
  | 41 => ⟨S16384x2x2, .f32⟩
  | 42 => ⟨S16384x4, .f32⟩
  | 43 => ⟨S16384x4, .f32⟩
  | 44 => ⟨S16384x4, .f32⟩
  | 45 => ⟨S_, .f32⟩
  | 46 => ⟨S16384x4, .f32⟩
  | 47 => ⟨S16384x4, .f32⟩
  | 48 => ⟨S16384x4, .f32⟩
  | 49 => ⟨S16384x4x1, .f32⟩
  | 50 => ⟨S16384x4x1, .f32⟩
  | 51 => ⟨S16384x4x2, .f32⟩
  | 52 => ⟨S16384x8, .f32⟩
  | 53 => ⟨S16384x8, .f32⟩
  | 54 => ⟨S16384x8, .f32⟩
  | 55 => ⟨S_, .f32⟩
  | 56 => ⟨S16384x8, .f32⟩
  | 57 => ⟨S16384x8, .f32⟩
  | 58 => ⟨S16384x8, .f32⟩
  | 59 => ⟨S16384x8x1, .f32⟩
  | 60 => ⟨S16384x8x1, .f32⟩
  | 61 => ⟨S16384x8x2, .f32⟩
  | 62 => ⟨S16384x16, .f32⟩
  | 63 => ⟨S16384x16, .f32⟩
  | 64 => ⟨S16384x16, .f32⟩
  | 65 => ⟨S_, .f32⟩
  | 66 => ⟨S16384x16, .f32⟩
  | 67 => ⟨S16384x16, .f32⟩
  | 68 => ⟨S16384x16, .f32⟩
  | 69 => ⟨S16384x16x1, .f32⟩
  | 70 => ⟨S16384x16x1, .f32⟩
  | 71 => ⟨S16384x16x2, .f32⟩
  | 72 => ⟨S16384x32, .f32⟩
  | 73 => ⟨S16384x32, .f32⟩
  | 74 => ⟨S16384x32, .f32⟩
  | 75 => ⟨S_, .f32⟩
  | 76 => ⟨S16384x32, .f32⟩
  | 77 => ⟨S16384x32, .f32⟩
  | 78 => ⟨S16384x32, .f32⟩
  | 79 => ⟨S16384x32x1, .f32⟩
  | 80 => ⟨S16384x32x1, .f32⟩
  | 81 => ⟨S16384x32x2, .f32⟩
  | 82 => ⟨S16384x64, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S16384x64, .f32⟩
  | 89 => ⟨S16384x64x1, .f32⟩
  | 90 => ⟨S16384x64x1, .f32⟩
  | 91 => ⟨S16384x64x2, .f32⟩
  | 92 => ⟨S16384x128, .f32⟩
  | 93 => ⟨S16384x128, .f32⟩
  | 94 => ⟨S16384x128, .f32⟩
  | 95 => ⟨S_, .f32⟩
  | 96 => ⟨S16384x128, .f32⟩
  | 97 => ⟨S16384x128, .f32⟩
  | 98 => ⟨S16384x128, .f32⟩
  | 99 => ⟨S16384x128x1, .f32⟩
  | 100 => ⟨S16384x128x1, .f32⟩
  | 101 => ⟨S16384x128x2, .f32⟩
  | 102 => ⟨S16384x256, .f32⟩
  | 103 => ⟨S16384x256, .f32⟩
  | 104 => ⟨S16384x256, .f32⟩
  | 105 => ⟨S_, .f32⟩
  | 106 => ⟨S16384x256, .f32⟩
  | 107 => ⟨S16384x256, .f32⟩
  | 108 => ⟨S16384x256, .f32⟩
  | 109 => ⟨S16384x256x1, .f32⟩
  | 110 => ⟨S16384x256x1, .f32⟩
  | 111 => ⟨S16384x256x2, .f32⟩
  | 112 => ⟨S16384x512, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S16384x512, .f32⟩
  | 119 => ⟨S16384x512x1, .f32⟩
  | 120 => ⟨S16384x512x1, .f32⟩
  | 121 => ⟨S16384x512x2, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x512, .f32⟩

abbrev hbmTy0_1 (i : Nat) : BufTy := match i % 128 with
  | 0 => ⟨S16384x1024, .f32⟩
  | 1 => ⟨S16384x1024x1, .f32⟩
  | 2 => ⟨S16384x1024x1, .f32⟩
  | 3 => ⟨S16384x1024x2, .f32⟩
  | 4 => ⟨S16384x2048, .f32⟩
  | 5 => ⟨S16384x2048, .f32⟩
  | 6 => ⟨S16384x2048, .f32⟩
  | 7 => ⟨S_, .f32⟩
  | 8 => ⟨S16384x2048, .f32⟩
  | 9 => ⟨S16384x2048, .f32⟩
  | 10 => ⟨S16384x2048, .f32⟩
  | 11 => ⟨S16384x2048x1, .f32⟩
  | 12 => ⟨S16384x2048x1, .f32⟩
  | 13 => ⟨S16384x2048x2, .f32⟩
  | 14 => ⟨S16384x4096, .f32⟩
  | 15 => ⟨S4096, .f32⟩
  | 16 => ⟨S4096, .f32⟩
  | 17 => ⟨S_, .f32⟩
  | 18 => ⟨S4096, .f32⟩
  | 19 => ⟨S4096, .f32⟩
  | 20 => ⟨S_, .f32⟩
  | 21 => ⟨S4096, .f32⟩
  | 22 => ⟨S4096, .f32⟩
  | 23 => ⟨S1x4096, .f32⟩
  | 24 => ⟨S16384x4096, .f32⟩
  | 25 => ⟨S16384x4096, .f32⟩
  | 26 => ⟨S_, .f32⟩
  | 27 => ⟨S16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_cst_11 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_12 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_v126 : Ref sig .tc := ⟨.hbm, 147, rfl⟩
abbrev main_cst_15 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_16 : Ref sig .tc := ⟨.hbm, 154, rfl⟩
abbrev main_v132 : Ref sig .tc := ⟨.hbm, 155, rfl⟩

abbrev nD : Nat := 1
abbrev τ : Topo := Topo.v7x

variable {F : FTy → Type} [FloatOps F]

class Facts₀ : Prop where
  transposes_S4095x512_S512x4095_1_0 : S4095x512.Transposes [1, 0] S512x4095
  bcast_S4095_S1x4095_1 : S4095.BroadcastsInDim S1x4095 (![1] : Fin 1 → Fin S1x4095.rank)
  bcast_S1x4095_S16384x4095_0_1 : S1x4095.BroadcastsInDim S16384x4095 (![0, 1] : Fin 2 → Fin S16384x4095.rank)
  bcast_S_S16384x4095 : S_.BroadcastsInDim S16384x4095 (![] : Fin 0 → Fin S16384x4095.rank)
  bcast_S_S16384x1 : S_.BroadcastsInDim S16384x1 (![] : Fin 0 → Fin S16384x1.rank)
  slices_S16384x4095_S16384x1_0_0 : S16384x4095.Slices ![0, 0] S16384x1
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1x2_S16384x2 : S16384x1x2.ShapeCasts S16384x2
  slices_S16384x4095_S16384x2_0_1 : S16384x4095.Slices ![0, 1] S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  concatenates_S16384x2x1_S16384x2x1_S16384x2x2_d2 : Shape.Concatenates [S16384x2x1, S16384x2x1] S16384x2x2 2
  shapeCasts_S16384x2x2_S16384x4 : S16384x2x2.ShapeCasts S16384x4
  slices_S16384x4095_S16384x4_0_3 : S16384x4095.Slices ![0, 3] S16384x4
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  concatenates_S16384x4x1_S16384x4x1_S16384x4x2_d2 : Shape.Concatenates [S16384x4x1, S16384x4x1] S16384x4x2 2
  shapeCasts_S16384x4x2_S16384x8 : S16384x4x2.ShapeCasts S16384x8
  slices_S16384x4095_S16384x8_0_7 : S16384x4095.Slices ![0, 7] S16384x8
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  shapeCasts_S16384x8x2_S16384x16 : S16384x8x2.ShapeCasts S16384x16
  slices_S16384x4095_S16384x16_0_15 : S16384x4095.Slices ![0, 15] S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x2_S16384x32 : S16384x16x2.ShapeCasts S16384x32
  slices_S16384x4095_S16384x32_0_31 : S16384x4095.Slices ![0, 31] S16384x32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  slices_S16384x4095_S16384x64_0_63 : S16384x4095.Slices ![0, 63] S16384x64
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  shapeCasts_S16384x64x2_S16384x128 : S16384x64x2.ShapeCasts S16384x128
  slices_S16384x4095_S16384x128_0_127 : S16384x4095.Slices ![0, 127] S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  concatenates_S16384x128x1_S16384x128x1_S16384x128x2_d2 : Shape.Concatenates [S16384x128x1, S16384x128x1] S16384x128x2 2
  shapeCasts_S16384x128x2_S16384x256 : S16384x128x2.ShapeCasts S16384x256
  slices_S16384x4095_S16384x256_0_255 : S16384x4095.Slices ![0, 255] S16384x256
  bcast_S_S16384x256 : S_.BroadcastsInDim S16384x256 (![] : Fin 0 → Fin S16384x256.rank)
  bcast_S16384x256_S16384x256x1_0_1 : S16384x256.BroadcastsInDim S16384x256x1 (![0, 1] : Fin 2 → Fin S16384x256x1.rank)
  concatenates_S16384x256x1_S16384x256x1_S16384x256x2_d2 : Shape.Concatenates [S16384x256x1, S16384x256x1] S16384x256x2 2
  shapeCasts_S16384x256x2_S16384x512 : S16384x256x2.ShapeCasts S16384x512
  slices_S16384x4095_S16384x512_0_511 : S16384x4095.Slices ![0, 511] S16384x512
  bcast_S_S16384x512 : S_.BroadcastsInDim S16384x512 (![] : Fin 0 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  slices_S16384x4095_S16384x1024_0_1023 : S16384x4095.Slices ![0, 1023] S16384x1024
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  shapeCasts_S16384x1024x2_S16384x2048 : S16384x1024x2.ShapeCasts S16384x2048
  slices_S16384x4095_S16384x2048_0_2047 : S16384x4095.Slices ![0, 2047] S16384x2048
  bcast_S_S16384x2048 : S_.BroadcastsInDim S16384x2048 (![] : Fin 0 → Fin S16384x2048.rank)
  bcast_S16384x2048_S16384x2048x1_0_1 : S16384x2048.BroadcastsInDim S16384x2048x1 (![0, 1] : Fin 2 → Fin S16384x2048x1.rank)
  concatenates_S16384x2048x1_S16384x2048x1_S16384x2048x2_d2 : Shape.Concatenates [S16384x2048x1, S16384x2048x1] S16384x2048x2 2
  shapeCasts_S16384x2048x2_S16384x4096 : S16384x2048x2.ShapeCasts S16384x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  dot_S16384x512_S512x4095_S16384x4095_1_0_0_1_n_n_wf : DotDims.WF S16384x512 S512x4095 S16384x4095 [1] [0] [0] [1] [] []

variable [Facts₀]

def dot_S16384x512_S512x4095_S16384x4095_1_0_0_1_n_n : DotDims S16384x512 S512x4095 S16384x4095 where
  lhsContracting := [1]
  rhsContracting := [0]
  lhsNonContracting := [0]
  rhsNonContracting := [1]
  lhsBatch := []
  rhsBatch := []
  wf := dot_S16384x512_S512x4095_S16384x4095_1_0_0_1_n_n_wf

class Facts : Prop extends Facts₀ where

variable [Facts]
-- ==== Proof.TreeMath.lean ====
/-
  The mathematics of the tree product, over the real numbers and natural-number indices, with no program in sight.

  A complete binary tree of depth `D` has `2^d` nodes at level `d` (`d < D`), node `n` carrying a number `p d n`,
  and `2^D` leaves carrying `L j`.  The children of node `n` at level `d` are the nodes (or leaves) `2n` and `2n+1`
  one level down; going left multiplies by `p d n`, going right by `1 - p d n`.

  * `pathProd p d j` is the product along the path from the root to position `j` of level `d` (built top-down, the way
    a level-by-level interleave builds it), and the quantity of interest is `∑ j < 2^D, L j * pathProd p D j`.
  * `sub D p L r n` is the value of the subtree that hangs `r` levels above the leaves at position `n`:
    `p·(left subtree) + (1-p)·(right subtree)`.  Distributing level by level, the sum above is `sub D p L D 0`
    (`sum_pathProd_mul`).
  * `fold D P Lp r k` is the bottom-up fold by contiguous halves: a row of width `2^(d+1)` is cut into its two halves
    of width `2^d`, combined entrywise with the level's numbers `P d k`.  If the fold's rows are the tree's levels
    re-ordered by maps `ρ d` that send `k` and `k + 2^d` (one level down) to the two children `2·ρ d k` and
    `2·ρ d k + 1`, the fold computes the subtree values in that order (`fold_eq_sub`), hence the same sum
    (`fold_eq_sum`).  Bit reversal is such a family of maps; nothing here needs to know that.
-/
import Mathlib.Algebra.BigOperators.Intervals
import Mathlib.Data.Real.Basic
import Mathlib.Tactic.Ring
import Mathlib.Tactic.Linarith

namespace Cert.TreeMath

open Finset

/-- Product of the branch factors along the path from the root to position `j` of level `d`. -/
def pathProd (p : ℕ → ℕ → ℝ) : ℕ → ℕ → ℝ
  | 0, _ => 1
  | d + 1, j => pathProd p d (j / 2) * (if j % 2 = 0 then p d (j / 2) else 1 - p d (j / 2))

/-- Value of the subtree rooted `r` levels above the leaves, at position `n` of level `D - r`. -/
def sub (D : ℕ) (p : ℕ → ℕ → ℝ) (L : ℕ → ℝ) : ℕ → ℕ → ℝ
  | 0, n => L n
  | r + 1, n => p (D - (r + 1)) n * sub D p L r (2 * n) + (1 - p (D - (r + 1)) n) * sub D p L r (2 * n + 1)

/-- The bottom-up fold by contiguous halves: after `r` steps the row has width `2^(D-r)`. -/
def fold (D : ℕ) (P : ℕ → ℕ → ℝ) (Lp : ℕ → ℝ) : ℕ → ℕ → ℝ
  | 0, k => Lp k
  | r + 1, k => P (D - (r + 1)) k * fold D P Lp r k + (1 - P (D - (r + 1)) k) * fold D P Lp r (k + 2 ^ (D - (r + 1)))

theorem pathProd_even (p : ℕ → ℕ → ℝ) (d n : ℕ) : pathProd p (d + 1) (2 * n) = pathProd p d n * p d n := by
  have h1 : 2 * n / 2 = n := by omega
  have h2 : 2 * n % 2 = 0 := by omega
  simp only [pathProd, h1, h2, if_true]

theorem pathProd_odd (p : ℕ → ℕ → ℝ) (d n : ℕ) : pathProd p (d + 1) (2 * n + 1) = pathProd p d n * (1 - p d n) := by
  have h1 : (2 * n + 1) / 2 = n := by omega
  have h2 : ¬ ((2 * n + 1) % 2 = 0) := by omega
  simp only [pathProd, h1, h2, if_false]

/-- A sum over `2m` consecutive numbers, taken two at a time. -/
theorem sum_range_two_mul' (f : ℕ → ℝ) (m : ℕ) :
    ∑ j ∈ range (2 * m), f j = ∑ n ∈ range m, (f (2 * n) + f (2 * n + 1)) := by
  induction m with
  | zero => simp
  | succ m ih =>
    have h : 2 * (m + 1) = 2 * m + 1 + 1 := by ring
    rw [h, sum_range_succ, sum_range_succ, ih, sum_range_succ]
    ring

/-- Distributing the last `r` levels: the leaf-weighted sum of path products is the sum, over level `D - r`,
    of path product times subtree value. -/
theorem sum_pathProd_mul (D : ℕ) (p : ℕ → ℕ → ℝ) (L : ℕ → ℝ) :
    ∀ r, r ≤ D → ∑ j ∈ range (2 ^ D), pathProd p D j * L j
      = ∑ n ∈ range (2 ^ (D - r)), pathProd p (D - r) n * sub D p L r n := by
  intro r
  induction r with
  | zero => intro _; simp only [Nat.sub_zero, sub]
  | succ r ih =>
    intro hr
    rw [ih (by omega)]
    obtain ⟨d, hd⟩ : ∃ d, D - (r + 1) = d := ⟨_, rfl⟩
    have hd1 : D - r = d + 1 := by omega
    rw [hd1, hd, pow_succ, mul_comm (2 ^ d) 2, sum_range_two_mul']
    refine sum_congr rfl fun n _ => ?_
    rw [pathProd_even, pathProd_odd]
    simp only [sub, hd]
    ring

/-- The whole sum is the value of the whole tree. -/
theorem sum_eq_sub (D : ℕ) (p : ℕ → ℕ → ℝ) (L : ℕ → ℝ) :
    ∑ j ∈ range (2 ^ D), pathProd p D j * L j = sub D p L D 0 := by
  rw [sum_pathProd_mul D p L D le_rfl]
  simp [pathProd]

/-- If the maps `ρ d` send the two halves of a row to the two children, the fold's rows are the subtree values
    in the order `ρ` gives. -/
theorem fold_eq_sub (D : ℕ) (p : ℕ → ℕ → ℝ) (L : ℕ → ℝ) (ρ : ℕ → ℕ → ℕ)
    (hl : ∀ d, d < D → ∀ k, k < 2 ^ d → ρ (d + 1) k = 2 * ρ d k)
    (hr : ∀ d, d < D → ∀ k, k < 2 ^ d → ρ (d + 1) (k + 2 ^ d) = 2 * ρ d k + 1)
    (P : ℕ → ℕ → ℝ) (Lp : ℕ → ℝ)
    (hP : ∀ d, d < D → ∀ k, k < 2 ^ d → P d k = p d (ρ d k))
    (hLp : ∀ k, k < 2 ^ D → Lp k = L (ρ D k)) :
    ∀ r, r ≤ D → ∀ k, k < 2 ^ (D - r) → fold D P Lp r k = sub D p L r (ρ (D - r) k) := by
  intro r
  induction r with
  | zero => intro _ k hk; simpa only [fold, sub, Nat.sub_zero] using hLp k hk
  | succ r ih =>
    intro hrD k hk
    obtain ⟨d, hd⟩ : ∃ d, D - (r + 1) = d := ⟨_, rfl⟩
    have hd1 : D - r = d + 1 := by omega
    have hdD : d < D := by omega
    rw [hd] at hk
    have hk1 : k < 2 ^ (D - r) := by rw [hd1, pow_succ]; omega
    have hk2 : k + 2 ^ d < 2 ^ (D - r) := by rw [hd1, pow_succ]; omega
    simp only [fold, sub, hd]
    rw [ih (by omega) k hk1, ih (by omega) (k + 2 ^ d) hk2, hd1, hl d hdD k hk, hr d hdD k hk, hP d hdD k hk]

/-- The fold's last entry is the leaf-weighted sum of path products. -/
theorem fold_eq_sum (D : ℕ) (p : ℕ → ℕ → ℝ) (L : ℕ → ℝ) (ρ : ℕ → ℕ → ℕ)
    (h0 : ρ 0 0 = 0)
    (hl : ∀ d, d < D → ∀ k, k < 2 ^ d → ρ (d + 1) k = 2 * ρ d k)
    (hr : ∀ d, d < D → ∀ k, k < 2 ^ d → ρ (d + 1) (k + 2 ^ d) = 2 * ρ d k + 1)
    (P : ℕ → ℕ → ℝ) (Lp : ℕ → ℝ)
    (hP : ∀ d, d < D → ∀ k, k < 2 ^ d → P d k = p d (ρ d k))
    (hLp : ∀ k, k < 2 ^ D → Lp k = L (ρ D k)) :
    fold D P Lp D 0 = ∑ j ∈ range (2 ^ D), L j * pathProd p D j := by
  have h := fold_eq_sub D p L ρ hl hr P Lp hP hLp D le_rfl 0 (by simp)
  rw [Nat.sub_self, h0] at h
  rw [h, ← sum_eq_sub]
  exact sum_congr rfl fun j _ => mul_comm _ _

end Cert.TreeMath
-- ==== Proof.Spec.lean ====
/-
  What both programs compute, as one function of the five argument arrays, over the real numbers.

  For a batch row `i`, node `n` of the tree (the `4095` internal nodes listed level by level, level `d` at positions
  `2^d - 1 … 2^(d+1) - 2`) carries the number `σ((⟨x_i, W_n⟩ + b_n) · s_n)`, `σ` the logistic function; leaf `q` carries
  `σ(leaves_q)`.  The result at `i` is the sum over the `4096` leaves of the leaf's number times the product of the
  branch factors along its path (`TreeMath.pathProd`): going left at a node multiplies by its number, going right by one
  minus it.

  The arrays hold extended reals; under the precondition every entry is a real number, and the specification reads an
  entry through `EReal.toReal` (`nat1`, `nat2`: an array read at natural-number coordinates, `0` outside its extent).
-/
import Idealize.ShloMosaic.Lib.ValueIdx
import Idealize.ShloMosaic.PureOps.Ideal
import Mathlib.Analysis.SpecialFunctions.Exp
import proofs.«407249_j24060406792344_3_alg».proof.Proof.TreeMath

noncomputable section

namespace Cert.Spec

open Idealize.ShloMosaic Idealize.ShloMosaic.ValueIdx

/-- A matrix of extended reals read at natural-number coordinates, as a real; `0` outside the matrix. -/
def nat2 {m n : ℕ} (X : (⟨2, ![m, n]⟩ : Shape).Idx → EReal) (i k : ℕ) : ℝ :=
  if h : i < m ∧ k < n then (X (ix2 ⟨i, h.1⟩ ⟨k, h.2⟩)).toReal else 0

/-- A vector of extended reals read at a natural-number coordinate, as a real; `0` outside the vector. -/
def nat1 {n : ℕ} (X : (⟨1, ![n]⟩ : Shape).Idx → EReal) (k : ℕ) : ℝ :=
  if h : k < n then (X (ix1 ⟨k, h⟩)).toReal else 0

theorem nat2_of_lt {m n : ℕ} (X : (⟨2, ![m, n]⟩ : Shape).Idx → EReal) (i : Fin m) (k : Fin n) :
    nat2 X i.val k.val = (X (ix2 i k)).toReal := by
  unfold nat2; rw [dif_pos ⟨i.isLt, k.isLt⟩]

theorem nat1_of_lt {n : ℕ} (X : (⟨1, ![n]⟩ : Shape).Idx → EReal) (k : Fin n) :
    nat1 X k.val = (X (ix1 k)).toReal := by
  unfold nat1; rw [dif_pos k.isLt]

/-- The logistic function. -/
def sig (r : ℝ) : ℝ := (1 + Real.exp (-r))⁻¹

/-- Row `i`'s pre-activation at node `n`: `(⟨x_i, W_n⟩ + b_n) · s_n`. -/
def logit (x : (⟨2, ![16384, 512]⟩ : Shape).Idx → EReal) (W : (⟨2, ![4095, 512]⟩ : Shape).Idx → EReal)
    (b s : (⟨1, ![4095]⟩ : Shape).Idx → EReal) (i n : ℕ) : ℝ :=
  ((∑ k ∈ Finset.range 512, nat2 x i k * nat2 W n k) + nat1 b n) * nat1 s n

/-- Row `i`'s number at position `n` of level `d` of the tree. -/
def pnode (x : (⟨2, ![16384, 512]⟩ : Shape).Idx → EReal) (W : (⟨2, ![4095, 512]⟩ : Shape).Idx → EReal)
    (b s : (⟨1, ![4095]⟩ : Shape).Idx → EReal) (i : ℕ) (d n : ℕ) : ℝ :=
  sig (logit x W b s i (2 ^ d - 1 + n))

/-- Leaf `q`'s number. -/
def leaf (L : (⟨1, ![4096]⟩ : Shape).Idx → EReal) (q : ℕ) : ℝ := sig (nat1 L q)

/-- The result array: at row `i`, the leaf-weighted sum of path products. -/
def G (x : (⟨2, ![16384, 512]⟩ : Shape).Idx → EReal) (W : (⟨2, ![4095, 512]⟩ : Shape).Idx → EReal)
    (b s : (⟨1, ![4095]⟩ : Shape).Idx → EReal) (L : (⟨1, ![4096]⟩ : Shape).Idx → EReal) :
    (⟨1, ![16384]⟩ : Shape).Idx → EReal :=
  fun j => ((∑ q ∈ Finset.range (2 ^ 12), leaf L q * TreeMath.pathProd (pnode x W b s (j 0).val) 12 q : ℝ) : EReal)

/-- Every entry of the five argument arrays is a real number. -/
structure Finite (x : (⟨2, ![16384, 512]⟩ : Shape).Idx → EReal) (W : (⟨2, ![4095, 512]⟩ : Shape).Idx → EReal)
    (b s : (⟨1, ![4095]⟩ : Shape).Idx → EReal) (L : (⟨1, ![4096]⟩ : Shape).Idx → EReal) : Prop where
  x : ∀ j, x j = ((x j).toReal : EReal)
  W : ∀ j, W j = ((W j).toReal : EReal)
  b : ∀ j, b j = ((b j).toReal : EReal)
  s : ∀ j, s j = ((s j).toReal : EReal)
  L : ∀ j, L j = ((L j).toReal : EReal)

end Cert.Spec

end
-- ==== Proof.Finite.lean ====
/-
  From the precondition to real entries: `finite_inputs` says of each of the five argument arrays that every entry's
  absolute value is below `+∞`; an extended real with that property is a real number.
-/
import proofs.«407249_j24060406792344_3_alg».proof.Pre_finite_inputs
import proofs.«407249_j24060406792344_3_alg».proof.Proof.Gen.Pre_finite_inputs
import proofs.«407249_j24060406792344_3_alg».proof.Proof.Spec
import Idealize.ShloMosaic.Lib.ReduceAll

noncomputable section

namespace Cert.FiniteInputs

open Idealize.ShloMosaic Idealize.ShloMosaic.ValueIdx

/-- The rank-0 shape has one index. -/
instance : Subsingleton Cert.Pre_finite_inputs.S_.Idx := ⟨fun a b => funext fun d => d.elim0⟩

/-- An extended real whose absolute value `max a (-a)` is strictly below `⊤` is a real number. -/
theorem real_of_abs_lt_top (a : EReal) (h : max a (-a) < ⊤) : a = ((a.toReal : ℝ) : EReal) := by
  induction a using EReal.rec with
  | bot => simp at h
  | coe r => rw [EReal.toReal_coe]
  | top => simp at h

/-- One entry of the comparison `|a| < +∞` being the one bit says that the entry of `a` is a real number. -/
theorem entry_real {sh : Shape} (hb : Cert.Pre_finite_inputs.S_.BroadcastsInDim sh (![] : Fin 0 → Fin sh.rank))
    (a : sh.Idx → EReal) (j : sh.Idx)
    (h : cmpf (F := Ideal) .olt (Host.absf (F := Ideal) (φ := .f32) a)
      (broadcastInDim sh ![] hb (constant (F := Ideal) Cert.Pre_finite_inputs.S_ .f32 0x7F800000#32)) j = 1#1) :
    a j = (((a j).toReal : ℝ) : EReal) := by
  have h2 : Ideal.cmp .olt (max (a j) (-(a j))) (Ideal.ofBits .f32 0x7F800000#32) = 1#1 := h
  have htop : Ideal.ofBits .f32 0x7F800000#32 = (⊤ : EReal) := by simp [Ideal.ofBits, Ideal.ieee]
  rw [htop] at h2
  have h3 : BitVec.ofBool (decide (max (a j) (-(a j)) < (⊤ : EReal))) = 1#1 := h2
  refine real_of_abs_lt_top _ ?_
  by_contra hn
  rw [decide_eq_false hn] at h3
  exact absurd h3 (by decide)

theorem finite_of_pre [hPre : Cert.Pre_finite_inputs.Facts]
    (x : (⟨2, ![16384, 512]⟩ : Shape).Idx → EReal) (W : (⟨2, ![4095, 512]⟩ : Shape).Idx → EReal)
    (b s : (⟨1, ![4095]⟩ : Shape).Idx → EReal) (L : (⟨1, ![4096]⟩ : Shape).Idx → EReal)
    (h : Cert.Pre_finite_inputs.fn (F := Ideal) x W b s L = fun _ => 1#1) :
    Cert.Spec.Finite x W b s L := by
  have h0 := congrFun h ValueIdx.ix0
  dsimp only [Cert.Pre_finite_inputs.fn, Cert.Pre_finite_inputs.fn_part1] at h0
  obtain ⟨h1, hL⟩ := IntOp.andi_eq_one.1 h0
  obtain ⟨h2, hs⟩ := IntOp.andi_eq_one.1 h1
  obtain ⟨h3, hb⟩ := IntOp.andi_eq_one.1 h2
  obtain ⟨hx, hW⟩ := IntOp.andi_eq_one.1 h3
  exact ⟨fun j => entry_real _ x j (Host.reduce_andi_all _ _ _ _ _ hx j),
    fun j => entry_real _ W j (Host.reduce_andi_all _ _ _ _ _ hW j),
    fun j => entry_real _ b j (Host.reduce_andi_all _ _ _ _ _ hb j),
    fun j => entry_real _ s j (Host.reduce_andi_all _ _ _ _ _ hs j),
    fun j => entry_real _ L j (Host.reduce_andi_all _ _ _ _ _ hL j)⟩

end Cert.FiniteInputs

end
-- ==== Proof.Tables.lean ====
/-
  The two re-orderings the kernel applies before its fold, read off the program's constant tables.

  `rowPerm n` is the node row the kernel puts at position `n` of its weight, bias and steepness arrays, `leafPerm q` the
  leaf it puts at position `q` (each table entry read as a signed integer and clamped into the source's extent, as a
  gather reads it).  `rho d k` is position `k` of level `d` of the kernel's order, as a position of the tree's own level
  `d` (`d < 12`; level `12` is the leaves).  The facts below say that the two halves `k` and `k + 2^d` of the level
  below are the two children of `rho d k`: every one of them is a finite check over the tables' entries.
-/
import proofs.«407249_j24060406792344_3_alg».proof.KernelIdeal

namespace Cert.Tables

open Cert.KernelIdeal

/-- The node row at position `n` of the kernel's re-ordered node arrays. -/
def rowPerm (n : ℕ) : ℕ := min (lit0t n).toInt.toNat 4094

/-- The leaf at position `q` of the kernel's re-ordered leaf array. -/
def leafPerm (q : ℕ) : ℕ := min (lit1t q).toInt.toNat 4095

/-- Position `k` of the kernel's level `d`, as a position of the tree's level `d`. -/
def rho (d k : ℕ) : ℕ := if d < 12 then rowPerm (2 ^ d - 1 + k) - (2 ^ d - 1) else leafPerm k

theorem rowPerm_lt (n : ℕ) : rowPerm n < 4095 := by unfold rowPerm; omega

theorem leafPerm_lt (q : ℕ) : leafPerm q < 4096 := by unfold leafPerm; omega

/-! ### The finite check

For a node at position `k` of level `d` of the kernel's order, let `p` be the entry the node table holds there.  The
three facts wanted are: `p` lies in level `d` of the tree (`2 ^ d - 1 ≤ p`), and the entries at positions `k` and
`k + 2 ^ d` of the level below are, as positions of the tree's level `d + 1`, twice `p - (2 ^ d - 1)` and that plus
one.  `chkAt` says so as a Boolean; `chk` reads `p` off the table first (by recursion on the entry, so that the
entry is computed once and the three comparisons see its value). -/

/-- The three facts at position `k` of level `d`, given the entry `p` of the node table there. -/
def chkAt (d k p : ℕ) : Bool :=
  decide (2 ^ d - 1 ≤ p) &&
    (rho (d + 1) k == 2 * (p - (2 ^ d - 1)) && rho (d + 1) (k + 2 ^ d) == 2 * (p - (2 ^ d - 1)) + 1)

/-- `chkAt` at the entry the node table holds at position `k` of level `d`. -/
def chk (d k : ℕ) : Bool :=
  Nat.rec (chkAt d k 0) (fun p _ => chkAt d k (p + 1)) (rowPerm (2 ^ d - 1 + k))

theorem chk_eq (d k : ℕ) : chk d k = chkAt d k (rowPerm (2 ^ d - 1 + k)) := by
  unfold chk
  cases rowPerm (2 ^ d - 1 + k) <;> rfl

/-- `p` holds at every number of `[a, b)`. -/
def allOn (a b : ℕ) (p : ℕ → Bool) : Bool := (List.range (b - a)).all fun i => p (a + i)

theorem allOn_spec {a b : ℕ} {p : ℕ → Bool} (h : allOn a b p = true) {k : ℕ} (ha : a ≤ k) (hb : k < b) :
    p k = true := by
  have h' := List.all_eq_true.mp h (k - a) (List.mem_range.mpr (by omega))
  rwa [Nat.add_sub_cancel' ha] at h'

/-- Levels `0` to `9`: `1023` nodes. -/
theorem chk_low : ((List.range 10).all fun d => allOn 0 (2 ^ d) (chk d)) = true := by decide +kernel

/-- Level `10`: `1024` nodes. -/
theorem chk_ten : allOn 0 (2 ^ 10) (chk 10) = true := by decide +kernel

/-- Level `11`, first half: its children are leaves. -/
theorem chk_eleven_lo : allOn 0 (2 ^ 10) (chk 11) = true := by decide +kernel

/-- Level `11`, second half. -/
theorem chk_eleven_hi : allOn (2 ^ 10) (2 ^ 11) (chk 11) = true := by decide +kernel

theorem chk_true : ∀ d, d < 12 → ∀ k, k < 2 ^ d → chk d k = true := by
  intro d hd k hk
  by_cases h10 : d < 10
  · exact allOn_spec (List.all_eq_true.mp chk_low d (List.mem_range.mpr h10)) (Nat.zero_le k) hk
  · by_cases h11 : d = 10
    · subst h11
      exact allOn_spec chk_ten (Nat.zero_le k) hk
    · have h : d = 11 := by omega
      subst h
      by_cases hk' : k < 2 ^ 10
      · exact allOn_spec chk_eleven_lo (Nat.zero_le k) hk'
      · exact allOn_spec chk_eleven_hi (Nat.le_of_not_lt hk') hk

/-- The three facts at every node. -/
theorem facts {d k : ℕ} (hd : d < 12) (hk : k < 2 ^ d) :
    2 ^ d - 1 ≤ rowPerm (2 ^ d - 1 + k) ∧ rho d k = rowPerm (2 ^ d - 1 + k) - (2 ^ d - 1) ∧
      rho (d + 1) k = 2 * rho d k ∧ rho (d + 1) (k + 2 ^ d) = 2 * rho d k + 1 := by
  have h := chk_true d hd k hk
  rw [chk_eq, chkAt, Bool.and_eq_true, Bool.and_eq_true, decide_eq_true_eq, beq_iff_eq, beq_iff_eq] at h
  have hr : rho d k = rowPerm (2 ^ d - 1 + k) - (2 ^ d - 1) := by unfold rho; rw [if_pos hd]
  exact ⟨h.1, hr, hr ▸ h.2.1, hr ▸ h.2.2⟩

theorem rho_zero : rho 0 0 = 0 := by decide +kernel

theorem rho_left : ∀ d, d < 12 → ∀ k, k < 2 ^ d → rho (d + 1) k = 2 * rho d k :=
  fun _ hd _ hk => (facts hd hk).2.2.1

theorem rho_right : ∀ d, d < 12 → ∀ k, k < 2 ^ d → rho (d + 1) (k + 2 ^ d) = 2 * rho d k + 1 :=
  fun _ hd _ hk => (facts hd hk).2.2.2

theorem rowPerm_eq : ∀ d, d < 12 → ∀ k, k < 2 ^ d → rowPerm (2 ^ d - 1 + k) = 2 ^ d - 1 + rho d k := by
  intro d hd k hk
  obtain ⟨h1, h2, -, -⟩ := facts hd hk
  omega

theorem rho_twelve (k : ℕ) : rho 12 k = leafPerm k := by unfold rho; simp

end Cert.Tables
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibVecGather.lean ====
/-
  A vector gather read at an index.

  jnp's `x[idx]` of a vector `x : [N]` at a vector of positions lowers to a `stablehlo.gather` whose start indices
  are the column `[n, 1]` of positions: the operand's one axis is collapsed and is the one start-indexed axis, the
  result has no offset axis (slice sizes `[1]`), and its one axis is the batch axis that runs over the column's rows.
  Result element `k` is then `x` at the position `idx[k, 0]` read as a signed integer and clamped into
  `[0, N - 1]`: a vector gather never reads outside the operand, a negative position reads element 0 and one past the
  end reads the last element.
-/
import Idealize.ShloMosaic.Lib.ValueIdx

noncomputable section

namespace Idealize.ShloMosaic.VecGather

open Idealize.ShloMosaic Idealize.ShloMosaic.ValueIdx

variable {α : Type}

/-- The dimension numbers of a gather from a vector `[N]` by a column `[n, 1]` of positions into `[n]`; their
    conditions `wf` are decided on a program's literal shapes. -/
abbrev vecDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE VECTOR GATHER READ AT `k`: the operand at the position `idx[k, 0]`, read signed and clamped into
    `[0, N - 1]`. On the operand's one axis the start is the clamped position and nothing is added to it: the axis is
    collapsed (offset coordinate zero) and there is no batching axis (batching coordinate zero). -/
theorem gather_vec_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (k : Fin n) :
    Host.gather (vecDims N n wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (vecDims N n wf).start (ix1 k) idx 0 + (vecDims N n wf).batchCoord (ix1 k) 0
      + (vecDims N n wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N n wf).startIndexMap from List.mem_singleton.mpr rfl)]
  have hsi : (vecDims N n wf).siIdx (ix1 k) ⟨List.idxOf (0 : Fin 1) (vecDims N n wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

end Idealize.ShloMosaic.VecGather

end
-- ==== Proof.KernelHost.lean ====
/-
  The arrays the kernel's one region finds, read at an index, in terms of the five argument arrays.

  Before the region the program re-orders the node rows of `W`, `b` and `s` by the constant table `rowPerm` and the
  leaves by `leafPerm` (four gathers), pads the node axis from 4095 to 4096 (a zero row of `W`, a zero of `b`, a one
  of `s`), changes the float format of `x` and `W` (the identity on extended reals) and views the three vectors as
  one-row matrices.
-/
import proofs.«407249_j24060406792344_3_alg».proof.Proof.Gen.KernelIdeal.Frame
import proofs.«407249_j24060406792344_3_alg».proof.Proof.Tables
import proofs.«407249_j24060406792344_3_alg».proof.Proof.LibRowGather
import proofs.«407249_j24060406792344_3_alg».proof.Proof.LibVecGather
import Idealize.ShloMosaic.Lib.ValueIdx
import Idealize.ShloMosaic.Lib.ValueLayout
import Idealize.ShloMosaic.Lib.IdealHost
import Idealize.ShloMosaic.Lib.Pipeline.Value

noncomputable section

namespace Cert.KernelIdeal.KHost

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The five argument arrays of core `c`, at their literal types. -/
abbrev argX (c : Dev nD) : (⟨2, ![16384, 512]⟩ : Shape).Idx → EReal := m ((c : Thread nD τ).loc main_arg0)
abbrev argW (c : Dev nD) : (⟨2, ![4095, 512]⟩ : Shape).Idx → EReal := m ((c : Thread nD τ).loc main_arg1)
abbrev argB (c : Dev nD) : (⟨1, ![4095]⟩ : Shape).Idx → EReal := m ((c : Thread nD τ).loc main_arg2)
abbrev argS (c : Dev nD) : (⟨1, ![4095]⟩ : Shape).Idx → EReal := m ((c : Thread nD τ).loc main_arg3)
abbrev argL (c : Dev nD) : (⟨1, ![4096]⟩ : Shape).Idx → EReal := m ((c : Thread nD τ).loc main_arg4)

/-! ## The index tables and the column of positions a gather reads -/

/-- A table entry is the table's word at the entry's number. -/
theorem lit0_eq (x : Fin 4095) : lit0 x = lit0t x.val := rfl
theorem lit1_eq (x : Fin 4096) : lit1 x = lit1t x.val := rfl

/-- The two index tables as vectors, read at a position. -/
theorem tab0_apply (n : Fin 4095) : lit0 (S4095.rowMajor (ix1 n)) = lit0t n.val :=
  (lit0_eq _).trans (congrArg lit0t (Shape.rowMajor_val_one _))
theorem tab1_apply (q : Fin 4096) : lit1 (S4096.rowMajor (ix1 q)) = lit1t q.val :=
  (lit1_eq _).trans (congrArg lit1t (Shape.rowMajor_val_one _))

/-- The column of positions a gather is given: the wrap of negative positions is switched off by an all-false mask, so
    the column's row `k` is the table's entry `k`, whatever the wrapped positions `z` are. -/
theorem col_apply {n : Nat} (T z : IVec ⟨1, ![n]⟩ 32)
    (hb : (⟨1, ![n]⟩ : Shape).BroadcastsInDim ⟨2, ![n, 1]⟩ (![0] : Fin 1 → Fin 2)) (k : Fin n) :
    broadcastInDim ⟨2, ![n, 1]⟩ ![0] hb (select (constantI ⟨1, ![n]⟩ 1 0#1) z T) (ix2 k (0 : Fin 1)) = T (ix1 k) := by
  refine (broadcastInDim_apply ![0] hb _ (ix2 k (0 : Fin 1)) (ix1 k) ?_).trans ?_
  · intro a
    match a with
    | ⟨0, _⟩ =>
      show k.val = if n = 1 then 0 else k.val
      split
      · omega
      · rfl
  · exact (select_apply _ _ _ _).trans (select_zero _ _)

/-! ## A re-ordered array with one more row behind it -/

/-- A re-ordered vector with one more element behind it, viewed as a one-row matrix, read at a position: below the
    vector's length the vector at the clamped table entry, at the last position the added element. -/
theorem vecpad_apply (x : S4095.Idx → EReal) (T z : IVec S4095 32) (pv : S1.Idx → EReal) (n : Fin 4096) :
    shapeCast S1x4096 (concatenate S4096 0
        [⟨S4095, Host.gather gather_S4095_S4095x1_S4095_n_0_n_n_0_1_1 x
            (broadcastInDim S4095x1 ![0] bcast_S4095_S4095x1_0 (select (constantI S4095 1 0#1) z T))⟩,
         ⟨S1, pv⟩] concatenates_S4095_S1_S4096_d0) shapeCasts_S4096_S1x4096 (ix2 (0 : Fin 1) n)
      = if h : n.val < 4095 then x (ix1 ⟨min (T (ix1 ⟨n.val, h⟩)).toInt.toNat 4094, by omega⟩)
        else pv (ix1 (0 : Fin 1)) := by
  refine (shapeCast_a_1a_apply _ _ (0 : Fin 1) n).trans ?_
  by_cases h : n.val < 4095
  · rw [dif_pos h]
    refine (concatenate_pair_apply_left (t := S4096) (s₁ := S4095) (s₂ := S1) (0 : Fin 1) _ _
      concatenates_S4095_S1_S4096_d0 (ix1 n) rfl (ix1 (⟨n.val, h⟩ : Fin 4095)) ?_).trans ?_
    · intro b
      match b with
      | ⟨0, _⟩ => rfl
    refine (VecGather.gather_vec_apply (N := 4095) (n := 4095) (by omega) gather_S4095_S4095x1_S4095_n_0_n_n_0_1_1_wf _ _ _).trans ?_
    refine congrArg (fun z => x (ix1 z)) (Fin.ext ?_)
    show min (_ : BitVec 32).toInt.toNat (4095 - 1) = _
    rw [col_apply]
  · rw [dif_neg h]
    refine concatenate_pair_apply_right (t := S4096) (s₁ := S4095) (s₂ := S1) (0 : Fin 1) _ _
      concatenates_S4095_S1_S4096_d0 (ix1 n) rfl rfl (ix1 (0 : Fin 1)) ?_ ?_
    · intro b hb
      match b with
      | ⟨0, _⟩ => exact absurd rfl hb
    · show 0 + 4095 = n.val
      omega

/-- A matrix with its rows re-ordered and one more row behind them, read at an entry: below the matrix's height the
    matrix at the row the clamped table entry names, in the last row the added row. -/
theorem matpad_apply (x : S4095x512.Idx → EReal) (T z : IVec S4095 32) (pv : S1x512.Idx → EReal) (n : Fin 4096)
    (k : Fin 512) :
    concatenate S4096x512 0
        [⟨S4095x512, Host.gather gather_S4095x512_S4095x1_S4095x512_1_0_n_n_0_1_1512 x
            (broadcastInDim S4095x1 ![0] bcast_S4095_S4095x1_0 (select (constantI S4095 1 0#1) z T))⟩,
         ⟨S1x512, pv⟩] concatenates_S4095x512_S1x512_S4096x512_d0 (ix2 n k)
      = if h : n.val < 4095 then x (ix2 ⟨min (T (ix1 ⟨n.val, h⟩)).toInt.toNat 4094, by omega⟩ k)
        else pv (ix2 (0 : Fin 1) k) := by
  by_cases h : n.val < 4095
  · rw [dif_pos h]
    refine (concatenate_pair_apply_left (t := S4096x512) (s₁ := S4095x512) (s₂ := S1x512) (0 : Fin 2) _ _
      concatenates_S4095x512_S1x512_S4096x512_d0 (ix2 n k) rfl (ix2 (⟨n.val, h⟩ : Fin 4095) k) ?_).trans ?_
    · intro b
      match b with
      | ⟨0, _⟩ => rfl
      | ⟨1, _⟩ => rfl
    refine (RowGather.gather_rows_apply (N := 4095) (C := 512) (n := 4095) (by omega)
      gather_S4095x512_S4095x1_S4095x512_1_0_n_n_0_1_1512_wf _ _ _ k).trans ?_
    refine congrArg (fun z => x (ix2 z k)) (Fin.ext ?_)
    show min (_ : BitVec 32).toInt.toNat (4095 - 1) = _
    rw [col_apply]
  · rw [dif_neg h]
    refine concatenate_pair_apply_right (t := S4096x512) (s₁ := S4095x512) (s₂ := S1x512) (0 : Fin 2) _ _
      concatenates_S4095x512_S1x512_S4096x512_d0 (ix2 n k) rfl rfl (ix2 (0 : Fin 1) k) ?_ ?_
    · intro b hb
      match b with
      | ⟨0, _⟩ => exact absurd rfl hb
      | ⟨1, _⟩ => rfl
    · show 0 + 4095 = n.val
      omega

/-! ## The five windows' arrays as terms over the argument arrays -/

/-- Window 0's array is `x` in the narrower float format. -/
theorem eX (c : Dev nD) :
    (V (F := Ideal) m c main_v26 : (⟨2, ![16384, 512]⟩ : Shape).Idx → EReal)
      = (truncf .bf16 (argX m c : FVec Ideal S16384x512 .f32) bitsLt_bf16_f32 : FVec Ideal S16384x512 .bf16) := by
  dsimp only [Gen.V, Gen.hostOps0]; after_results_simp; try rfl

/-- Window 4's array is the leaves gathered at the column of the leaf table, as one row. -/
theorem eL (c : Dev nD) :
    (V (F := Ideal) m c main_v30 : (⟨2, ![1, 4096]⟩ : Shape).Idx → EReal)
      = shapeCast S1x4096 (Host.gather gather_S4096_S4096x1_S4096_n_0_n_n_0_1_1 (argL m c)
          (broadcastInDim S4096x1 ![0] bcast_S4096_S4096x1_0
            (select (constantI S4096 1 0#1)
              (addi (fun i => lit1 (S4096.rowMajor i)) (broadcastInDim S4096 ![] bcast_S_S4096 (constantI S_ 32 4096#32)))
              (fun i => lit1 (S4096.rowMajor i))))) shapeCasts_S4096_S1x4096 := by
  dsimp only [Gen.V, Gen.hostOps0]; after_results_simp; try rfl

/-- Window 2's array is the biases gathered at the column of the row table, a zero behind them, as one row. -/
theorem eB (c : Dev nD) :
    (V (F := Ideal) m c main_v28 : (⟨2, ![1, 4096]⟩ : Shape).Idx → EReal)
      = shapeCast S1x4096 (concatenate S4096 0
        [⟨S4095, Host.gather gather_S4095_S4095x1_S4095_n_0_n_n_0_1_1 (argB m c)
            (broadcastInDim S4095x1 ![0] bcast_S4095_S4095x1_0 (select (constantI S4095 1 0#1)
              (addi (fun i => lit0 (S4095.rowMajor i)) (broadcastInDim S4095 ![] bcast_S_S4095 (constantI S_ 32 4095#32)))
              (fun i => lit0 (S4095.rowMajor i))))⟩,
         ⟨S1, broadcastInDim S1 ![] bcast_S_S1 (constant (F := Ideal) S_ .f32 0x00000000#32)⟩]
        concatenates_S4095_S1_S4096_d0) shapeCasts_S4096_S1x4096 := by
  dsimp only [Gen.V, Gen.hostOps0]; after_results_simp
  refine congrArg₂ (fun (a : S4095.Idx → EReal) (b : S1.Idx → EReal) =>
    shapeCast S1x4096 (concatenate S4096 0 [⟨S4095, a⟩, ⟨S1, b⟩] concatenates_S4095_S1_S4096_d0) shapeCasts_S4096_S1x4096) ?_ ?_
  · after_results_simp; try rfl
  · after_results_simp; try rfl

/-- Window 3's array is the steepnesses gathered at the column of the row table, a one behind them, as one row. -/
theorem eS (c : Dev nD) :
    (V (F := Ideal) m c main_v29 : (⟨2, ![1, 4096]⟩ : Shape).Idx → EReal)
      = shapeCast S1x4096 (concatenate S4096 0
        [⟨S4095, Host.gather gather_S4095_S4095x1_S4095_n_0_n_n_0_1_1 (argS m c)
            (broadcastInDim S4095x1 ![0] bcast_S4095_S4095x1_0 (select (constantI S4095 1 0#1)
              (addi (fun i => lit0 (S4095.rowMajor i)) (broadcastInDim S4095 ![] bcast_S_S4095 (constantI S_ 32 4095#32)))
              (fun i => lit0 (S4095.rowMajor i))))⟩,
         ⟨S1, broadcastInDim S1 ![] bcast_S_S1 (constant (F := Ideal) S_ .f32 0x3F800000#32)⟩]
        concatenates_S4095_S1_S4096_d0) shapeCasts_S4096_S1x4096 := by
  dsimp only [Gen.V, Gen.hostOps0]; after_results_simp
  refine congrArg₂ (fun (a : S4095.Idx → EReal) (b : S1.Idx → EReal) =>
    shapeCast S1x4096 (concatenate S4096 0 [⟨S4095, a⟩, ⟨S1, b⟩] concatenates_S4095_S1_S4096_d0) shapeCasts_S4096_S1x4096) ?_ ?_
  · after_results_simp; try rfl
  · after_results_simp; try rfl

/-- Window 1's array is the rows of `W` gathered at the column of the row table, a zero row behind them, in the
    narrower float format. -/
theorem eW (c : Dev nD) :
    (V (F := Ideal) m c main_v27 : (⟨2, ![4096, 512]⟩ : Shape).Idx → EReal)
      = (truncf .bf16 (concatenate S4096x512 0
        [⟨S4095x512, Host.gather gather_S4095x512_S4095x1_S4095x512_1_0_n_n_0_1_1512 (argW m c)
            (broadcastInDim S4095x1 ![0] bcast_S4095_S4095x1_0 (select (constantI S4095 1 0#1)
              (addi (fun i => lit0 (S4095.rowMajor i)) (broadcastInDim S4095 ![] bcast_S_S4095 (constantI S_ 32 4095#32)))
              (fun i => lit0 (S4095.rowMajor i))))⟩,
         ⟨S1x512, broadcastInDim S1x512 ![] bcast_S_S1x512 (constant (F := Ideal) S_ .f32 0x00000000#32)⟩]
        concatenates_S4095x512_S1x512_S4096x512_d0 : FVec Ideal S4096x512 .f32) bitsLt_bf16_f32 : FVec Ideal S4096x512 .bf16) := by
  dsimp only [Gen.V, Gen.hostOps0]; after_results_simp
  refine congrArg₂ (fun (a : S4095x512.Idx → EReal) (b : S1x512.Idx → EReal) =>
    (truncf .bf16 (concatenate S4096x512 0 [⟨S4095x512, a⟩, ⟨S1x512, b⟩]
      concatenates_S4095x512_S1x512_S4096x512_d0 : FVec Ideal S4096x512 .f32) bitsLt_bf16_f32 : FVec Ideal S4096x512 .bf16)) ?_ ?_
  · after_results_simp; try rfl
  · after_results_simp; try rfl

/-! ## The five windows' arrays read at an index -/

/-- Window 0's array: `x` itself. -/
theorem V_x (c : Dev nD) (i : Fin 16384) (k : Fin 512) :
    (V (F := Ideal) m c main_v26 : (⟨2, ![16384, 512]⟩ : Shape).Idx → EReal) (ix2 i k) = argX m c (ix2 i k) :=
  (congrFun (eX m c) _).trans (truncf_apply _ _ _)

/-- Window 1's array: the node rows of `W` re-ordered, then a zero row. -/
theorem V_w (c : Dev nD) (n : Fin 4096) (k : Fin 512) :
    (V (F := Ideal) m c main_v27 : (⟨2, ![4096, 512]⟩ : Shape).Idx → EReal) (ix2 n k)
      = if n.val < 4095 then argW m c (ix2 ⟨Cert.Tables.rowPerm n.val, Cert.Tables.rowPerm_lt _⟩ k) else (0 : EReal) := by
  refine (congrFun (eW m c) _).trans ?_
  refine (truncf_apply (φ := .f32) (ψ := .bf16) _ bitsLt_bf16_f32 _).trans ?_
  refine (matpad_apply _ _ _ _ n k).trans ?_
  by_cases h : n.val < 4095
  · rw [dif_pos h, if_pos h]
    refine congrArg (fun z => argW m c (ix2 z k)) (Fin.ext ?_)
    exact congrArg (fun w : BitVec 32 => min w.toInt.toNat 4094) (tab0_apply ⟨n.val, h⟩)
  · rw [dif_neg h, if_neg h]
    refine (broadcastInDim_apply ![] bcast_S_S1x512 _ _ ix0 (fun a => a.elim0)).trans ?_
    exact (constant_apply _ _).trans Ideal.ofBits_zero_f32

/-- Window 2's array: the biases re-ordered, then a zero. -/
theorem V_b (c : Dev nD) (n : Fin 4096) :
    (V (F := Ideal) m c main_v28 : (⟨2, ![1, 4096]⟩ : Shape).Idx → EReal) (ix2 (0 : Fin 1) n)
      = if n.val < 4095 then argB m c (ix1 ⟨Cert.Tables.rowPerm n.val, Cert.Tables.rowPerm_lt _⟩) else (0 : EReal) := by
  refine (congrFun (eB m c) _).trans ?_
  refine (vecpad_apply _ _ _ _ n).trans ?_
  by_cases h : n.val < 4095
  · rw [dif_pos h, if_pos h]
    refine congrArg (fun z => argB m c (ix1 z)) (Fin.ext ?_)
    exact congrArg (fun w : BitVec 32 => min w.toInt.toNat 4094) (tab0_apply ⟨n.val, h⟩)
  · rw [dif_neg h, if_neg h]
    refine (broadcastInDim_apply ![] bcast_S_S1 _ _ ix0 (fun a => a.elim0)).trans ?_
    exact (constant_apply _ _).trans Ideal.ofBits_zero_f32

/-- Window 3's array: the steepnesses re-ordered, then a one. -/
theorem V_s (c : Dev nD) (n : Fin 4096) :
    (V (F := Ideal) m c main_v29 : (⟨2, ![1, 4096]⟩ : Shape).Idx → EReal) (ix2 (0 : Fin 1) n)
      = if n.val < 4095 then argS m c (ix1 ⟨Cert.Tables.rowPerm n.val, Cert.Tables.rowPerm_lt _⟩) else (1 : EReal) := by
  refine (congrFun (eS m c) _).trans ?_
  refine (vecpad_apply _ _ _ _ n).trans ?_
  by_cases h : n.val < 4095
  · rw [dif_pos h, if_pos h]
    refine congrArg (fun z => argS m c (ix1 z)) (Fin.ext ?_)
    exact congrArg (fun w : BitVec 32 => min w.toInt.toNat 4094) (tab0_apply ⟨n.val, h⟩)
  · rw [dif_neg h, if_neg h]
    refine (broadcastInDim_apply ![] bcast_S_S1 _ _ ix0 (fun a => a.elim0)).trans ?_
    exact (constant_apply _ _).trans Ideal.ofBits_one_f32

/-- Window 4's array: the leaves re-ordered. -/
theorem V_l (c : Dev nD) (q : Fin 4096) :
    (V (F := Ideal) m c main_v30 : (⟨2, ![1, 4096]⟩ : Shape).Idx → EReal) (ix2 (0 : Fin 1) q)
      = argL m c (ix1 ⟨Cert.Tables.leafPerm q.val, Cert.Tables.leafPerm_lt _⟩) := by
  refine (congrFun (eL m c) _).trans ?_
  refine (shapeCast_a_1a_apply _ _ (0 : Fin 1) q).trans ?_
  refine (VecGather.gather_vec_apply (N := 4096) (n := 4096) (by omega) gather_S4096_S4096x1_S4096_n_0_n_n_0_1_1_wf _ _ q).trans ?_
  refine congrArg (fun z => argL m c (ix1 z)) (Fin.ext ?_)
  show min (_ : BitVec 32).toInt.toNat (4096 - 1) = _
  rw [col_apply]
  exact congrArg (fun w : BitVec 32 => min w.toInt.toNat 4095) (tab1_apply q)

end Cert.KernelIdeal.KHost

end
-- ==== Proof.KernelFold.lean ====
/-
  One step of the bottom-up fold by contiguous halves, read at an index.

  A block of 256 batch rows carries a row of width `2w` per batch row; the step cuts it into its two halves of width
  `w` and combines them entrywise with the `w` node numbers of the level, which sit in columns `o … o + w - 1` of the
  block's table of node numbers: `new[a, k] = p[a, o + k] · old[a, k] + (1 - p[a, o + k]) · old[a, w + k]`.
  When every entry involved is a real number the extended-real operations are the real ones, and the step is the
  recursion of `TreeMath.fold`.  The first step starts from ONE row shared by all batch rows (the leaves' numbers),
  broadcast down the block.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal

noncomputable section

namespace Cert.KernelFold

open Idealize.ShloMosaic Idealize.ShloMosaic.ValueIdx

/-- The constant `1.0` the kernel splats. -/
theorem one_word : Scalar.ofBits (F := Ideal) .f32 0x3F800000#32 = (1 : EReal) := Ideal.ofBits_one_f32

/-- A halving step over a block whose previous row is per batch row. -/
theorem halve_apply {n W w : ℕ} (o : ℕ) (Pall : (⟨2, ![256, n]⟩ : Shape).Idx → EReal)
    (V : (⟨2, ![256, W]⟩ : Shape).Idx → EReal)
    (hP : (⟨2, ![256, n]⟩ : Shape).Slices ![0, o] ⟨2, ![256, w]⟩)
    (hL : (⟨2, ![256, W]⟩ : Shape).Slices ![0, 0] ⟨2, ![256, w]⟩)
    (hR : (⟨2, ![256, W]⟩ : Shape).Slices ![0, w] ⟨2, ![256, w]⟩)
    (pr vr : ℕ → ℕ → ℝ)
    (hPr : ∀ (a : Fin 256) (c : Fin n), Pall (ix2 a c) = ((pr a.val c.val : ℝ) : EReal))
    (hVr : ∀ (a : Fin 256) (k : Fin W), V (ix2 a k) = ((vr a.val k.val : ℝ) : EReal))
    (a : Fin 256) (k : Fin w) :
    (addf (F := Ideal) (φ := .f32)
        (mulf (F := Ideal) (φ := .f32) (extractStridedSlice ⟨2, ![256, w]⟩ ![0, o] Pall hP)
          (extractStridedSlice ⟨2, ![256, w]⟩ ![0, 0] V hL))
        (mulf (F := Ideal) (φ := .f32)
          (subf (F := Ideal) (φ := .f32) (broadcast ⟨2, ![256, w]⟩ (Scalar.ofBits (F := Ideal) .f32 0x3F800000#32))
            (extractStridedSlice ⟨2, ![256, w]⟩ ![0, o] Pall hP))
          (extractStridedSlice ⟨2, ![256, w]⟩ ![0, w] V hR))) (ix2 a k)
      = ((pr a.val (o + k.val) * vr a.val k.val + (1 - pr a.val (o + k.val)) * vr a.val (w + k.val) : ℝ) : EReal) := by
  rw [addf_apply, mulf_apply, mulf_apply, subf_apply, broadcast_apply, one_word,
    slice2_axis1_eq o Pall hP a k, slice2_axis1_eq 0 V hL a k, slice2_axis1_eq w V hR a k, hPr, hVr, hVr]
  simp only [Nat.zero_add, EReal.coe_add, EReal.coe_mul, EReal.coe_sub, EReal.coe_one]

/-- The first halving step: the previous row is one row shared by every batch row of the block. -/
theorem halve_row_apply {n W w : ℕ} (hw : 1 < w) (o : ℕ) (Pall : (⟨2, ![256, n]⟩ : Shape).Idx → EReal)
    (V : (⟨2, ![1, W]⟩ : Shape).Idx → EReal)
    (hP : (⟨2, ![256, n]⟩ : Shape).Slices ![0, o] ⟨2, ![256, w]⟩)
    (hL : (⟨2, ![1, W]⟩ : Shape).Slices ![0, 0] ⟨2, ![1, w]⟩)
    (hR : (⟨2, ![1, W]⟩ : Shape).Slices ![0, w] ⟨2, ![1, w]⟩)
    (hB : (⟨2, ![1, w]⟩ : Shape).Broadcasts ⟨2, ![256, w]⟩)
    (pr : ℕ → ℕ → ℝ) (vr : ℕ → ℝ)
    (hPr : ∀ (a : Fin 256) (c : Fin n), Pall (ix2 a c) = ((pr a.val c.val : ℝ) : EReal))
    (hVr : ∀ (k : Fin W), V (ix2 (0 : Fin 1) k) = ((vr k.val : ℝ) : EReal))
    (a : Fin 256) (k : Fin w) :
    (addf (F := Ideal) (φ := .f32)
        (mulf (F := Ideal) (φ := .f32) (extractStridedSlice ⟨2, ![256, w]⟩ ![0, o] Pall hP)
          (broadcastTo ⟨2, ![256, w]⟩ (extractStridedSlice ⟨2, ![1, w]⟩ ![0, 0] V hL) hB))
        (mulf (F := Ideal) (φ := .f32)
          (subf (F := Ideal) (φ := .f32) (broadcast ⟨2, ![256, w]⟩ (Scalar.ofBits (F := Ideal) .f32 0x3F800000#32))
            (extractStridedSlice ⟨2, ![256, w]⟩ ![0, o] Pall hP))
          (broadcastTo ⟨2, ![256, w]⟩ (extractStridedSlice ⟨2, ![1, w]⟩ ![0, w] V hR) hB))) (ix2 a k)
      = ((pr a.val (o + k.val) * vr k.val + (1 - pr a.val (o + k.val)) * vr (w + k.val) : ℝ) : EReal) := by
  have hb : ∀ (Y : (⟨2, ![1, w]⟩ : Shape).Idx → EReal),
      broadcastTo ⟨2, ![256, w]⟩ Y hB (ix2 a k) = Y (ix2 (0 : Fin 1) k) := fun Y =>
    broadcastTo_apply Y hB (ix2 a k) (ix2 (0 : Fin 1) k) (fun ax => by
      match ax with
      | ⟨0, _⟩ => exact (if_pos rfl).symm
      | ⟨1, _⟩ =>
        have h1 : ¬ ((⟨2, ![1, w]⟩ : Shape).size (1 : Fin 2) = 1) := by show ¬ (w = 1); omega
        exact (if_neg h1).symm)
  rw [addf_apply, mulf_apply, mulf_apply, subf_apply, broadcast_apply, one_word, hb, hb,
    slice2_axis1_eq o Pall hP a k, slice2_axis1_eq 0 V hL (0 : Fin 1) k, slice2_axis1_eq w V hR (0 : Fin 1) k, hPr, hVr, hVr]
  simp only [Nat.zero_add, EReal.coe_add, EReal.coe_mul, EReal.coe_sub, EReal.coe_one]

end Cert.KernelFold

end
-- ==== Proof.Sigmoid.lean ====
/-
  The two spellings of the logistic function agree on real numbers.

  The reference computes `1 / (1 + e^(-x))`.  The kernel splits on the sign of `x`: with `z = e^(-|x|)` it takes
  `1 / (1 + z)` for `x ≥ 0` and `z / (1 + z)` for `x < 0`.  For `x < 0`, `z = e^x` and
  `e^x / (1 + e^x) = 1 / (e^(-x) + 1)`.  Both are stated on the extended reals at a real argument, where the exact
  operations (`Ideal.exp`, `Ideal.div`, the order comparison) all stay among the reals.
-/
import Idealize.ShloMosaic.Lib.ValueIdx
import Idealize.ShloMosaic.PureOps.Ideal
import proofs.«407249_j24060406792344_3_alg».proof.Proof.Spec
import Mathlib.Tactic.FieldSimp
import Mathlib.Tactic.Positivity

noncomputable section

namespace Cert.Sigmoid

open Idealize.ShloMosaic Idealize.ShloMosaic.ValueIdx Cert.Spec

theorem one_add_exp_ne (t : ℝ) : ((1 + Real.exp t : ℝ) : EReal) ≠ 0 := by
  have : (0 : ℝ) < 1 + Real.exp t := by positivity
  exact_mod_cast this.ne'

/-- `1 / (1 + e^t)` on the extended reals, at a real `t`. -/
theorem div_one_add_exp (t : ℝ) :
    Ideal.div 1 (1 + Ideal.exp (t : EReal)) = (((1 + Real.exp t)⁻¹ : ℝ) : EReal) := by
  have h : (1 : EReal) + Ideal.exp (t : EReal) = ((1 + Real.exp t : ℝ) : EReal) := by
    rw [Ideal.exp_coe, ← EReal.coe_one, ← EReal.coe_add]
  rw [h, Ideal.div, if_neg (one_add_exp_ne t), one_mul, ← EReal.coe_inv]

/-- `e^t / (1 + e^t)` on the extended reals, at a real `t`. -/
theorem exp_div_one_add_exp (t : ℝ) :
    Ideal.div (Ideal.exp (t : EReal)) (1 + Ideal.exp (t : EReal)) = ((Real.exp t * (1 + Real.exp t)⁻¹ : ℝ) : EReal) := by
  have h : (1 : EReal) + Ideal.exp (t : EReal) = ((1 + Real.exp t : ℝ) : EReal) := by
    rw [Ideal.exp_coe, ← EReal.coe_one, ← EReal.coe_add]
  rw [h, Ideal.div, if_neg (one_add_exp_ne t), Ideal.exp_coe, ← EReal.coe_inv, ← EReal.coe_mul]

/-- The reference's spelling at a real argument. -/
theorem ref_form (r : ℝ) : Ideal.div 1 (1 + Ideal.exp (-(r : EReal))) = ((sig r : ℝ) : EReal) := by
  rw [← EReal.coe_neg, div_one_add_exp]; rfl

/-- The kernel's sign-split spelling at a real argument. -/
theorem kernel_form (r : ℝ) :
    Scalar.select (Ideal.cmp .oge (r : EReal) 0)
      (Ideal.div 1 (1 + Ideal.exp (Scalar.select (Ideal.cmp .oge (r : EReal) 0) (0 - (r : EReal)) (r : EReal))))
      (Ideal.div (Ideal.exp (Scalar.select (Ideal.cmp .oge (r : EReal) 0) (0 - (r : EReal)) (r : EReal)))
        (1 + Ideal.exp (Scalar.select (Ideal.cmp .oge (r : EReal) 0) (0 - (r : EReal)) (r : EReal))))
      = ((sig r : ℝ) : EReal) := by
  by_cases h : (0 : ℝ) ≤ r
  · have hc : Ideal.cmp .oge (r : EReal) 0 = 1#1 := by
      have : (0 : EReal) ≤ (r : EReal) := by exact_mod_cast h
      simp [Ideal.cmp, this]
    rw [hc, select_one, select_one, zero_sub, ← EReal.coe_neg, div_one_add_exp]; rfl
  · have hc : Ideal.cmp .oge (r : EReal) 0 = 0#1 := by
      have : ¬ (0 : EReal) ≤ (r : EReal) := by exact_mod_cast h
      simp [Ideal.cmp, this]
    rw [hc, select_zero, select_zero, exp_div_one_add_exp]
    congr 1
    unfold sig
    rw [Real.exp_neg]
    have he : Real.exp r ≠ 0 := (Real.exp_pos r).ne'
    have h1 : (1 + Real.exp r) ≠ 0 := by positivity
    have h2 : (1 + (Real.exp r)⁻¹) ≠ 0 := by positivity
    field_simp
    ring

end Cert.Sigmoid

end
-- ==== Proof.Matmul.lean ====
/-
  The two matrix products read at an index, on the extended reals: entry `(a, c)` is the sum over the 512 features of
  the products of the two operands' entries.  The kernel multiplies a block of 256 batch rows by the (padded) node rows,
  both contracted on their second axis, into a zero accumulator; the reference multiplies all batch rows by the
  transposed node rows, the first operand contracted on its second axis and the second on its first.
-/
import proofs.«407249_j24060406792344_3_alg».proof.Proof.Gen.KernelIdeal
import proofs.«407249_j24060406792344_3_alg».proof.Proof.Gen.ReferenceIdeal
import Idealize.ShloMosaic.Lib.ValueIdx
import Idealize.ShloMosaic.PureOps.Ideal.Laws

noncomputable section

namespace Cert.Matmul

open Idealize.ShloMosaic Idealize.ShloMosaic.ValueIdx

/-! ## The kernel's product: both operands contracted on axis 1 -/

/-- The left operand's row coordinate is the result's row coordinate. -/
theorem lhs_k_0 (i : Cert.KernelIdeal.S256x4096.Idx) (q : Cert.KernelIdeal.dot_S256x512_S4096x512_S256x4096_1_1_0_0_n_n.contr.Idx) :
    (Cert.KernelIdeal.dot_S256x512_S4096x512_S256x4096_1_1_0_0_n_n.lhsIdx i q 0).val = (i 0).val := by
  unfold DotDims.lhsIdx
  rw [dif_neg (show ¬(0 : Fin Cert.KernelIdeal.S256x512.rank) ∈ Cert.KernelIdeal.dot_S256x512_S4096x512_S256x4096_1_1_0_0_n_n.lhsBatch by decide),
    dif_pos (show (0 : Fin Cert.KernelIdeal.S256x512.rank) ∈ Cert.KernelIdeal.dot_S256x512_S4096x512_S256x4096_1_1_0_0_n_n.lhsNonContracting by decide)]
  rfl

/-- The left operand's column coordinate is the contraction position. -/
theorem lhs_k_1 (i : Cert.KernelIdeal.S256x4096.Idx) (q : Cert.KernelIdeal.dot_S256x512_S4096x512_S256x4096_1_1_0_0_n_n.contr.Idx) :
    (Cert.KernelIdeal.dot_S256x512_S4096x512_S256x4096_1_1_0_0_n_n.lhsIdx i q 1).val = (q ⟨0, by decide⟩).val :=
  Cert.KernelIdeal.dot_S256x512_S4096x512_S256x4096_1_1_0_0_n_n.lhsIdx_val_of_single rfl i q

/-- The right operand's row coordinate is the result's column coordinate. -/
theorem rhs_k_0 (i : Cert.KernelIdeal.S256x4096.Idx) (q : Cert.KernelIdeal.dot_S256x512_S4096x512_S256x4096_1_1_0_0_n_n.contr.Idx) :
    (Cert.KernelIdeal.dot_S256x512_S4096x512_S256x4096_1_1_0_0_n_n.rhsIdx i q 0).val = (i 1).val := by
  unfold DotDims.rhsIdx
  rw [dif_neg (show ¬(0 : Fin Cert.KernelIdeal.S4096x512.rank) ∈ Cert.KernelIdeal.dot_S256x512_S4096x512_S256x4096_1_1_0_0_n_n.rhsBatch by decide),
    dif_pos (show (0 : Fin Cert.KernelIdeal.S4096x512.rank) ∈ Cert.KernelIdeal.dot_S256x512_S4096x512_S256x4096_1_1_0_0_n_n.rhsNonContracting by decide)]
  rfl

/-- The right operand's column coordinate is the contraction position. -/
theorem rhs_k_1 (i : Cert.KernelIdeal.S256x4096.Idx) (q : Cert.KernelIdeal.dot_S256x512_S4096x512_S256x4096_1_1_0_0_n_n.contr.Idx) :
    (Cert.KernelIdeal.dot_S256x512_S4096x512_S256x4096_1_1_0_0_n_n.rhsIdx i q 1).val = (q ⟨0, by decide⟩).val :=
  Cert.KernelIdeal.dot_S256x512_S4096x512_S256x4096_1_1_0_0_n_n.rhsIdx_val_of_single rfl i q

/-- The kernel's product of a block of batch rows with the node rows. -/
theorem kernel_matmul_apply (l : FVec Ideal Cert.KernelIdeal.S256x512 .bf16) (r : FVec Ideal Cert.KernelIdeal.S4096x512 .bf16)
    (a : Fin 256) (c : Fin 4096) :
    matmul (F := Ideal) Cert.KernelIdeal.dot_S256x512_S4096x512_S256x4096_1_1_0_0_n_n none l r
        (constant Cert.KernelIdeal.S256x4096 .f32 0x00000000#32) (ix2 a c)
      = ∑ k : Fin 512, l (ix2 a k) * r (ix2 c k) := by
  simp only [matmul]
  rw [Ideal.matmul_constant_zero_apply,
    ← Equiv.sum_comp (contrEquiv1 Cert.KernelIdeal.dot_S256x512_S4096x512_S256x4096_1_1_0_0_n_n 512 rfl rfl).symm]
  refine Finset.sum_congr rfl fun k _ => ?_
  have hk := contrEquiv1_symm_val Cert.KernelIdeal.dot_S256x512_S4096x512_S256x4096_1_1_0_0_n_n 512 rfl rfl k
  have el : Cert.KernelIdeal.dot_S256x512_S4096x512_S256x4096_1_1_0_0_n_n.lhsIdx (ix2 a c)
      ((contrEquiv1 Cert.KernelIdeal.dot_S256x512_S4096x512_S256x4096_1_1_0_0_n_n 512 rfl rfl).symm k) = ix2 a k :=
    funext fun d => Fin.ext (by
      match d with
      | ⟨0, _⟩ => exact lhs_k_0 _ _
      | ⟨1, _⟩ => exact (lhs_k_1 _ _).trans hk)
  have er : Cert.KernelIdeal.dot_S256x512_S4096x512_S256x4096_1_1_0_0_n_n.rhsIdx (ix2 a c)
      ((contrEquiv1 Cert.KernelIdeal.dot_S256x512_S4096x512_S256x4096_1_1_0_0_n_n 512 rfl rfl).symm k) = ix2 c k :=
    funext fun d => Fin.ext (by
      match d with
      | ⟨0, _⟩ => exact rhs_k_0 _ _
      | ⟨1, _⟩ => exact (rhs_k_1 _ _).trans hk)
  rw [el, er]

/-! ## The reference's product: the left operand contracted on axis 1, the right on axis 0 -/

/-- The left operand's row coordinate is the result's row coordinate. -/
theorem lhs_r_0 (i : Cert.ReferenceIdeal.S16384x4095.Idx) (q : Cert.ReferenceIdeal.dot_S16384x512_S512x4095_S16384x4095_1_0_0_1_n_n.contr.Idx) :
    (Cert.ReferenceIdeal.dot_S16384x512_S512x4095_S16384x4095_1_0_0_1_n_n.lhsIdx i q 0).val = (i 0).val := by
  unfold DotDims.lhsIdx
  rw [dif_neg (show ¬(0 : Fin Cert.ReferenceIdeal.S16384x512.rank) ∈ Cert.ReferenceIdeal.dot_S16384x512_S512x4095_S16384x4095_1_0_0_1_n_n.lhsBatch by decide),
    dif_pos (show (0 : Fin Cert.ReferenceIdeal.S16384x512.rank) ∈ Cert.ReferenceIdeal.dot_S16384x512_S512x4095_S16384x4095_1_0_0_1_n_n.lhsNonContracting by decide)]
  rfl

/-- The left operand's column coordinate is the contraction position. -/
theorem lhs_r_1 (i : Cert.ReferenceIdeal.S16384x4095.Idx) (q : Cert.ReferenceIdeal.dot_S16384x512_S512x4095_S16384x4095_1_0_0_1_n_n.contr.Idx) :
    (Cert.ReferenceIdeal.dot_S16384x512_S512x4095_S16384x4095_1_0_0_1_n_n.lhsIdx i q 1).val = (q ⟨0, by decide⟩).val :=
  Cert.ReferenceIdeal.dot_S16384x512_S512x4095_S16384x4095_1_0_0_1_n_n.lhsIdx_val_of_single rfl i q

/-- The right operand's row coordinate is the contraction position. -/
theorem rhs_r_0 (i : Cert.ReferenceIdeal.S16384x4095.Idx) (q : Cert.ReferenceIdeal.dot_S16384x512_S512x4095_S16384x4095_1_0_0_1_n_n.contr.Idx) :
    (Cert.ReferenceIdeal.dot_S16384x512_S512x4095_S16384x4095_1_0_0_1_n_n.rhsIdx i q 0).val = (q ⟨0, by decide⟩).val :=
  Cert.ReferenceIdeal.dot_S16384x512_S512x4095_S16384x4095_1_0_0_1_n_n.rhsIdx_val_of_single rfl i q

/-- The right operand's column coordinate is the result's column coordinate. -/
theorem rhs_r_1 (i : Cert.ReferenceIdeal.S16384x4095.Idx) (q : Cert.ReferenceIdeal.dot_S16384x512_S512x4095_S16384x4095_1_0_0_1_n_n.contr.Idx) :
    (Cert.ReferenceIdeal.dot_S16384x512_S512x4095_S16384x4095_1_0_0_1_n_n.rhsIdx i q 1).val = (i 1).val := by
  unfold DotDims.rhsIdx
  rw [dif_neg (show ¬(1 : Fin Cert.ReferenceIdeal.S512x4095.rank) ∈ Cert.ReferenceIdeal.dot_S16384x512_S512x4095_S16384x4095_1_0_0_1_n_n.rhsBatch by decide),
    dif_pos (show (1 : Fin Cert.ReferenceIdeal.S512x4095.rank) ∈ Cert.ReferenceIdeal.dot_S16384x512_S512x4095_S16384x4095_1_0_0_1_n_n.rhsNonContracting by decide)]
  rfl

/-- The reference's product of the batch rows with the transposed node rows. -/
theorem ref_dot_apply (l : FVec Ideal Cert.ReferenceIdeal.S16384x512 .f32) (r : FVec Ideal Cert.ReferenceIdeal.S512x4095 .f32)
    (i : Fin 16384) (n : Fin 4095) :
    Host.dotGeneral (F := Ideal) Cert.ReferenceIdeal.dot_S16384x512_S512x4095_S16384x4095_1_0_0_1_n_n none l r (ix2 i n)
      = ∑ k : Fin 512, l (ix2 i k) * r (ix2 k n) := by
  simp only [Host.dotGeneral]
  rw [Ideal.dotGeneral_apply,
    ← Equiv.sum_comp (contrEquiv1 Cert.ReferenceIdeal.dot_S16384x512_S512x4095_S16384x4095_1_0_0_1_n_n 512 rfl rfl).symm]
  refine Finset.sum_congr rfl fun k _ => ?_
  have hk := contrEquiv1_symm_val Cert.ReferenceIdeal.dot_S16384x512_S512x4095_S16384x4095_1_0_0_1_n_n 512 rfl rfl k
  have el : Cert.ReferenceIdeal.dot_S16384x512_S512x4095_S16384x4095_1_0_0_1_n_n.lhsIdx (ix2 i n)
      ((contrEquiv1 Cert.ReferenceIdeal.dot_S16384x512_S512x4095_S16384x4095_1_0_0_1_n_n 512 rfl rfl).symm k) = ix2 i k :=
    funext fun d => Fin.ext (by
      match d with
      | ⟨0, _⟩ => exact lhs_r_0 _ _
      | ⟨1, _⟩ => exact (lhs_r_1 _ _).trans hk)
  have er : Cert.ReferenceIdeal.dot_S16384x512_S512x4095_S16384x4095_1_0_0_1_n_n.rhsIdx (ix2 i n)
      ((contrEquiv1 Cert.ReferenceIdeal.dot_S16384x512_S512x4095_S16384x4095_1_0_0_1_n_n 512 rfl rfl).symm k) = ix2 k n :=
    funext fun d => Fin.ext (by
      match d with
      | ⟨0, _⟩ => exact (rhs_r_0 _ _).trans hk
      | ⟨1, _⟩ => exact rhs_r_1 _ _)
  rw [el, er]

end Cert.Matmul

end
-- ==== Proof.KPayload.lean ====
/-
  The kernel body's arithmetic at an index, over a block of 256 batch rows.

  The body computes (1) the block's table of node numbers, `σ((⟨x_a, w_c⟩ + b_c) · s_c)` at batch row `a` and node
  position `c`, `σ` in its sign-split spelling; (2) the row of leaf numbers `σ(l_q)`; (3) twelve halving steps that
  fold the leaf row down to one number per batch row, each combining the two halves of the previous row with the node
  numbers of one level (`KernelFold.halve_apply`).  With real inputs every intermediate is a real number, and the
  last number is `TreeMath.fold` run for all twelve steps.
-/
import proofs.«407249_j24060406792344_3_alg».proof.Proof.Gen.KernelIdeal.Skeleton
import proofs.«407249_j24060406792344_3_alg».proof.Proof.KernelFold
import proofs.«407249_j24060406792344_3_alg».proof.Proof.Sigmoid
import proofs.«407249_j24060406792344_3_alg».proof.Proof.Matmul
import proofs.«407249_j24060406792344_3_alg».proof.Proof.TreeMath
import Idealize.ShloMosaic.Lib.Pipeline.Value

noncomputable section

namespace Cert.KernelIdeal.KPayload

open Idealize.ShloMosaic Idealize.ShloMosaic.ValueIdx Cert.KernelIdeal Cert.KernelIdeal.Gen

/-- The cast of a finite sum of reals is the sum of the casts. -/
theorem coe_sum {ι : Type} (t : Finset ι) (f : ι → ℝ) : ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The kernel's sign-split logistic function of a vector. -/
def kernelSig {s : Shape} (X : FVec Ideal s .f32) : FVec Ideal s .f32 :=
  select (cmpf .oge X (broadcast s (Scalar.ofBits (F := Ideal) .f32 0x00000000#32)))
    (divf (broadcast s (Scalar.ofBits (F := Ideal) .f32 0x3F800000#32))
      (addf (broadcast s (Scalar.ofBits (F := Ideal) .f32 0x3F800000#32))
        (exp (select (cmpf .oge X (broadcast s (Scalar.ofBits (F := Ideal) .f32 0x00000000#32)))
          (subf (broadcast s (Scalar.ofBits (F := Ideal) .f32 0x00000000#32)) X) X))))
    (divf (exp (select (cmpf .oge X (broadcast s (Scalar.ofBits (F := Ideal) .f32 0x00000000#32)))
          (subf (broadcast s (Scalar.ofBits (F := Ideal) .f32 0x00000000#32)) X) X))
      (addf (broadcast s (Scalar.ofBits (F := Ideal) .f32 0x3F800000#32))
        (exp (select (cmpf .oge X (broadcast s (Scalar.ofBits (F := Ideal) .f32 0x00000000#32)))
          (subf (broadcast s (Scalar.ofBits (F := Ideal) .f32 0x00000000#32)) X) X))))

/-- At an entry that holds a real `r` it is the logistic function of `r`. -/
theorem kernelSig_apply {s : Shape} (X : FVec Ideal s .f32) (i : s.Idx) (r : ℝ) (hX : X i = ((r : ℝ) : EReal)) :
    kernelSig X i = ((Cert.Spec.sig r : ℝ) : EReal) := by
  have h0 : Scalar.ofBits (F := Ideal) .f32 0x00000000#32 = (0 : EReal) := Ideal.ofBits_zero_f32
  have h1 : Scalar.ofBits (F := Ideal) .f32 0x3F800000#32 = (1 : EReal) := Ideal.ofBits_one_f32
  show Scalar.select (Ideal.cmp .oge (X i) (Scalar.ofBits (F := Ideal) .f32 0x00000000#32))
      (Ideal.div (Scalar.ofBits (F := Ideal) .f32 0x3F800000#32) (Scalar.ofBits (F := Ideal) .f32 0x3F800000#32
        + Ideal.exp (Scalar.select (Ideal.cmp .oge (X i) (Scalar.ofBits (F := Ideal) .f32 0x00000000#32))
            (Scalar.ofBits (F := Ideal) .f32 0x00000000#32 - X i) (X i))))
      (Ideal.div (Ideal.exp (Scalar.select (Ideal.cmp .oge (X i) (Scalar.ofBits (F := Ideal) .f32 0x00000000#32))
            (Scalar.ofBits (F := Ideal) .f32 0x00000000#32 - X i) (X i)))
        (Scalar.ofBits (F := Ideal) .f32 0x3F800000#32
          + Ideal.exp (Scalar.select (Ideal.cmp .oge (X i) (Scalar.ofBits (F := Ideal) .f32 0x00000000#32))
            (Scalar.ofBits (F := Ideal) .f32 0x00000000#32 - X i) (X i)))) = _
  rw [hX, h0, h1]
  exact Cert.Sigmoid.kernel_form r

/-- The block's table of node numbers at batch row `a` and node position `c`. -/
theorem ptable_apply (v0 : Vec Ideal S256x512 .bf16) (v2 : Vec Ideal S4096x512 .bf16) (v5 v9 : Vec Ideal S1x4096 .f32)
    (xr wr : ℕ → ℕ → ℝ) (br sr : ℕ → ℝ)
    (h0 : ∀ (a : Fin 256) (k : Fin 512), v0 (ix2 a k) = ((xr a.val k.val : ℝ) : EReal))
    (h2 : ∀ (c : Fin 4096) (k : Fin 512), v2 (ix2 c k) = ((wr c.val k.val : ℝ) : EReal))
    (h5 : ∀ (c : Fin 4096), v5 (ix2 (0 : Fin 1) c) = ((br c.val : ℝ) : EReal))
    (h9 : ∀ (c : Fin 4096), v9 (ix2 (0 : Fin 1) c) = ((sr c.val : ℝ) : EReal))
    (a : Fin 256) (c : Fin 4096) :
    k0_pay1 v0 v2 v5 v9 (ix2 a c)
      = ((Cert.Spec.sig (((∑ k : Fin 512, xr a.val k.val * wr c.val k.val) + br c.val) * sr c.val) : ℝ) : EReal) := by
  have hb : ∀ (Y : Vec Ideal S1x4096 .f32),
      broadcastTo S256x4096 Y broadcasts_S1x4096_S256x4096 (ix2 a c) = Y (ix2 (0 : Fin 1) c) := fun Y =>
    broadcastTo_apply Y broadcasts_S1x4096_S256x4096 (ix2 a c) (ix2 (0 : Fin 1) c) (fun ax => by
      match ax with
      | ⟨0, _⟩ => exact (if_pos rfl).symm
      | ⟨1, _⟩ => exact (if_neg (show ¬ (S1x4096.size (1 : Fin 2) = 1) by decide)).symm)
  refine kernelSig_apply _ (ix2 a c) _ ?_
  rw [mulf_apply, addf_apply, hb, hb, shapeCast_self, shapeCast_self, shapeCast_self, shapeCast_self,
    Cert.Matmul.kernel_matmul_apply, h5, h9]
  simp only [h0, h2]
  rw [EReal.coe_mul, EReal.coe_add, coe_sum]
  simp only [EReal.coe_mul]

/-- The leaf row at position `q`. -/
theorem leafrow_apply (v27 : Vec Ideal S1x4096 .f32) (lr : ℕ → ℝ)
    (h : ∀ (q : Fin 4096), v27 (ix2 (0 : Fin 1) q) = ((lr q.val : ℝ) : EReal)) (q : Fin 4096) :
    select (k0_pay3 v27) (k0_pay5 v27)
        (divf (k0_pay4 v27) (addf (broadcast S1x4096 (Scalar.ofBits (F := Ideal) .f32 0x3F800000#32)) (k0_pay4 v27)))
        (ix2 (0 : Fin 1) q)
      = ((Cert.Spec.sig (lr q.val) : ℝ) : EReal) := by
  refine kernelSig_apply _ (ix2 (0 : Fin 1) q) _ ?_
  show shapeCast S1x4096 v27 shapeCasts_S1x4096_S1x4096 (ix2 (0 : Fin 1) q) = _
  rw [shapeCast_self, h]

/-! ## The twelve halving steps -/

/-- Batch row `a`'s node numbers, level by level, in the block's order: level `d` sits at columns `2^d - 1 …`. -/
def levelP (pr : ℕ → ℕ → ℝ) (a : ℕ) : ℕ → ℕ → ℝ := fun d k => pr a (2 ^ d - 1 + k)

/-- One halving step is one step of `TreeMath.fold`: at step `r + 1` the level is `d = 12 - (r + 1)`, its node numbers
    start at column `o = 2^d - 1` and the half-width is `w = 2^d`. -/
theorem fold_step (Pf : ℕ → ℕ → ℝ) (Lf : ℕ → ℝ) (prow : ℕ → ℝ) (r d o w k : ℕ)
    (hd : 12 - (r + 1) = d) (ho : o = 2 ^ d - 1) (hw : w = 2 ^ d) (hp : ∀ c, Pf d c = prow (2 ^ d - 1 + c)) :
    prow (o + k) * Cert.TreeMath.fold 12 Pf Lf r k + (1 - prow (o + k)) * Cert.TreeMath.fold 12 Pf Lf r (w + k)
      = Cert.TreeMath.fold 12 Pf Lf (r + 1) k := by
  subst ho hw
  show _ = Pf (12 - (r + 1)) k * Cert.TreeMath.fold 12 Pf Lf r k
      + (1 - Pf (12 - (r + 1)) k) * Cert.TreeMath.fold 12 Pf Lf r (k + 2 ^ (12 - (r + 1)))
  rw [hd, hp, Nat.add_comm k (2 ^ d)]

section Fold

variable (v26 : FVec Ideal S256x4096 .f32) (pr : ℕ → ℕ → ℝ) (lr : ℕ → ℝ)

/-- After the first five steps (widths 2048, 1024, 512, 256, 128). -/
theorem pay6_apply (hP : ∀ (a : Fin 256) (c : Fin 4096), v26 (ix2 a c) = ((pr a.val c.val : ℝ) : EReal))
    (v30 : IVec S1x4096 1) (v34 v38 : FVec Ideal S1x4096 .f32)
    (hL : ∀ (q : Fin 4096), select v30 v38
        (divf v34 (addf (broadcast S1x4096 (Scalar.ofBits (F := Ideal) .f32 0x3F800000#32)) v34)) (ix2 (0 : Fin 1) q)
          = ((lr q.val : ℝ) : EReal))
    (a : Fin 256) (k : Fin 128) :
    k0_pay6 v26 v30 v34 v38 (ix2 a k) = ((Cert.TreeMath.fold 12 (levelP pr a.val) lr 5 k.val : ℝ) : EReal) := by
  delta k0_pay6
  refine (Cert.KernelFold.halve_apply 127 v26 _ _ _ _ pr (fun a k => Cert.TreeMath.fold 12 (levelP pr a) lr 4 k) hP
    (fun a k => ?_) a k).trans (congrArg _ (fold_step (levelP pr a.val) lr (pr a.val) 4 7 127 128 k.val rfl rfl rfl (fun _ => rfl)))
  refine (Cert.KernelFold.halve_apply 255 v26 _ _ _ _ pr (fun a k => Cert.TreeMath.fold 12 (levelP pr a) lr 3 k) hP
    (fun a k => ?_) a k).trans (congrArg _ (fold_step (levelP pr a.val) lr (pr a.val) 3 8 255 256 k.val rfl rfl rfl (fun _ => rfl)))
  refine (Cert.KernelFold.halve_apply 511 v26 _ _ _ _ pr (fun a k => Cert.TreeMath.fold 12 (levelP pr a) lr 2 k) hP
    (fun a k => ?_) a k).trans (congrArg _ (fold_step (levelP pr a.val) lr (pr a.val) 2 9 511 512 k.val rfl rfl rfl (fun _ => rfl)))
  refine (Cert.KernelFold.halve_apply 1023 v26 _ _ _ _ pr (fun a k => Cert.TreeMath.fold 12 (levelP pr a) lr 1 k) hP
    (fun a k => ?_) a k).trans (congrArg _ (fold_step (levelP pr a.val) lr (pr a.val) 1 10 1023 1024 k.val rfl rfl rfl (fun _ => rfl)))
  exact (Cert.KernelFold.halve_row_apply (by norm_num) 2047 v26 _ _ _ _ _ pr lr hP hL a k).trans
    (congrArg _ (fold_step (levelP pr a.val) lr (pr a.val) 0 11 2047 2048 k.val rfl rfl rfl (fun _ => rfl)))

/-- The sixth step (width 64), whose two products the body keeps apart. -/
theorem lvl6_apply (hP : ∀ (a : Fin 256) (c : Fin 4096), v26 (ix2 a c) = ((pr a.val c.val : ℝ) : EReal))
    (v30 : IVec S1x4096 1) (v34 v38 : FVec Ideal S1x4096 .f32)
    (hL : ∀ (q : Fin 4096), select v30 v38
        (divf v34 (addf (broadcast S1x4096 (Scalar.ofBits (F := Ideal) .f32 0x3F800000#32)) v34)) (ix2 (0 : Fin 1) q)
          = ((lr q.val : ℝ) : EReal))
    (a : Fin 256) (k : Fin 64) :
    addf (k0_pay8 v26 v30 v34 v38) (k0_pay9 v26 v30 v34 v38) (ix2 a k)
      = ((Cert.TreeMath.fold 12 (levelP pr a.val) lr 6 k.val : ℝ) : EReal) := by
  delta k0_pay8 k0_pay9 k0_pay7
  exact (Cert.KernelFold.halve_apply 63 v26 (k0_pay6 v26 v30 v34 v38) _ _ _ pr
    (fun a k => Cert.TreeMath.fold 12 (levelP pr a) lr 5 k) hP (fun a k => pay6_apply v26 pr lr hP v30 v34 v38 hL a k) a k).trans
    (congrArg _ (fold_step (levelP pr a.val) lr (pr a.val) 5 6 63 64 k.val rfl rfl rfl (fun _ => rfl)))

/-- The last six steps (widths 32, 16, 8, 4, 2, 1) and the final change of shape: the fold's last entry. -/
theorem pay10_apply (hP : ∀ (a : Fin 256) (c : Fin 4096), v26 (ix2 a c) = ((pr a.val c.val : ℝ) : EReal))
    (v88 v91 : FVec Ideal S256x64 .f32)
    (h6 : ∀ (a : Fin 256) (k : Fin 64), addf v88 v91 (ix2 a k) = ((Cert.TreeMath.fold 12 (levelP pr a.val) lr 6 k.val : ℝ) : EReal))
    (a : Fin 256) :
    k0_pay10 v26 v88 v91 (ix1 a) = ((Cert.TreeMath.fold 12 (levelP pr a.val) lr 12 0 : ℝ) : EReal) := by
  delta k0_pay10
  refine (shapeCast_apply _ shapeCasts_S256x1_S256 (ix1 a) (ix2 a (0 : Fin 1))
    (by rw [Shape.rowMajor_val_two, Shape.rowMajor_val_one]; show a.val * 1 + 0 = a.val; omega)).trans ?_
  refine (Cert.KernelFold.halve_apply 0 v26 _ _ _ _ pr (fun a k => Cert.TreeMath.fold 12 (levelP pr a) lr 11 k) hP
    (fun a k => ?_) a (0 : Fin 1)).trans (congrArg _ (fold_step (levelP pr a.val) lr (pr a.val) 11 0 0 1 0 rfl rfl rfl (fun _ => rfl)))
  refine (Cert.KernelFold.halve_apply 1 v26 _ _ _ _ pr (fun a k => Cert.TreeMath.fold 12 (levelP pr a) lr 10 k) hP
    (fun a k => ?_) a k).trans (congrArg _ (fold_step (levelP pr a.val) lr (pr a.val) 10 1 1 2 k.val rfl rfl rfl (fun _ => rfl)))
  refine (Cert.KernelFold.halve_apply 3 v26 _ _ _ _ pr (fun a k => Cert.TreeMath.fold 12 (levelP pr a) lr 9 k) hP
    (fun a k => ?_) a k).trans (congrArg _ (fold_step (levelP pr a.val) lr (pr a.val) 9 2 3 4 k.val rfl rfl rfl (fun _ => rfl)))
  refine (Cert.KernelFold.halve_apply 7 v26 _ _ _ _ pr (fun a k => Cert.TreeMath.fold 12 (levelP pr a) lr 8 k) hP
    (fun a k => ?_) a k).trans (congrArg _ (fold_step (levelP pr a.val) lr (pr a.val) 8 3 7 8 k.val rfl rfl rfl (fun _ => rfl)))
  refine (Cert.KernelFold.halve_apply 15 v26 _ _ _ _ pr (fun a k => Cert.TreeMath.fold 12 (levelP pr a) lr 7 k) hP
    (fun a k => ?_) a k).trans (congrArg _ (fold_step (levelP pr a.val) lr (pr a.val) 7 4 15 16 k.val rfl rfl rfl (fun _ => rfl)))
  exact (Cert.KernelFold.halve_apply 31 v26 (addf v88 v91) _ _ _ pr (fun a k => Cert.TreeMath.fold 12 (levelP pr a) lr 6 k) hP
    h6 a k).trans (congrArg _ (fold_step (levelP pr a.val) lr (pr a.val) 6 5 31 32 k.val rfl rfl rfl (fun _ => rfl)))

end Fold

end Cert.KernelIdeal.KPayload

end
-- ==== Proof.KBlock.lean ====
/-
  One grid point's output block is the specification's rows of that block.

  Grid point `t` sees the 256 batch rows `256 t … 256 t + 255` of `x` and the whole re-ordered, padded node and leaf
  arrays.  Its output at row `a` is the fold's last entry (`KPayload`), whose rows are the tree's levels in the order
  `Tables.rho`; by `TreeMath.fold_eq_sum` that entry is the leaf-weighted sum of path products of batch row
  `256 t + a`, which is what the specification `Spec.G` holds there.
-/
import proofs.«407249_j24060406792344_3_alg».proof.Proof.Gen.KernelIdeal.Frame
import proofs.«407249_j24060406792344_3_alg».proof.Proof.KPayload
import proofs.«407249_j24060406792344_3_alg».proof.Proof.Tables
import proofs.«407249_j24060406792344_3_alg».proof.Proof.Spec
import proofs.«407249_j24060406792344_3_alg».proof.Proof.TreeMath

noncomputable section

namespace Cert.KernelIdeal.KBlock

open Idealize.ShloMosaic Idealize.ShloMosaic.ValueIdx Cert.KernelIdeal Cert.KernelIdeal.Gen

theorem block_value (X : (⟨2, ![16384, 512]⟩ : Shape).Idx → EReal) (W : (⟨2, ![4095, 512]⟩ : Shape).Idx → EReal)
    (B S : (⟨1, ![4095]⟩ : Shape).Idx → EReal) (L : (⟨1, ![4096]⟩ : Shape).Idx → EReal)
    (hfin : Cert.Spec.Finite X W B S L) (t : ℕ) (ht : t < 64)
    (x0 : Vec Ideal S256x512 .bf16) (x1 : Vec Ideal S4096x512 .bf16) (x2 x3 x4 : Vec Ideal S1x4096 .f32)
    (h0 : ∀ (a : Fin 256) (k : Fin 512), x0 (ix2 a k) = X (ix2 ⟨256 * t + a.val, by omega⟩ k))
    (h1 : ∀ (n : Fin 4096) (k : Fin 512), x1 (ix2 n k)
        = if n.val < 4095 then W (ix2 ⟨Cert.Tables.rowPerm n.val, Cert.Tables.rowPerm_lt _⟩ k) else (0 : EReal))
    (h2 : ∀ (n : Fin 4096), x2 (ix2 (0 : Fin 1) n)
        = if n.val < 4095 then B (ix1 ⟨Cert.Tables.rowPerm n.val, Cert.Tables.rowPerm_lt _⟩) else (0 : EReal))
    (h3 : ∀ (n : Fin 4096), x3 (ix2 (0 : Fin 1) n)
        = if n.val < 4095 then S (ix1 ⟨Cert.Tables.rowPerm n.val, Cert.Tables.rowPerm_lt _⟩) else (1 : EReal))
    (h4 : ∀ (q : Fin 4096), x4 (ix2 (0 : Fin 1) q) = L (ix1 ⟨Cert.Tables.leafPerm q.val, Cert.Tables.leafPerm_lt _⟩))
    (a : Fin 256) :
    out0_5 (F := Ideal) x0 x1 x2 x3 x4 (ix1 a) = Cert.Spec.G X W B S L (ix1 ⟨256 * t + a.val, by omega⟩) := by
  -- the five blocks as tables of real numbers
  let xr : ℕ → ℕ → ℝ := fun a k => Cert.Spec.nat2 X (256 * t + a) k
  let wr : ℕ → ℕ → ℝ := fun c k => if c < 4095 then Cert.Spec.nat2 W (Cert.Tables.rowPerm c) k else 0
  let br : ℕ → ℝ := fun c => if c < 4095 then Cert.Spec.nat1 B (Cert.Tables.rowPerm c) else 0
  let sr : ℕ → ℝ := fun c => if c < 4095 then Cert.Spec.nat1 S (Cert.Tables.rowPerm c) else 1
  let lr : ℕ → ℝ := fun q => Cert.Spec.nat1 L (Cert.Tables.leafPerm q)
  have e0 : ∀ (a : Fin 256) (k : Fin 512), x0 (ix2 a k) = ((xr a.val k.val : ℝ) : EReal) := fun a k => by
    rw [h0, hfin.x]
    exact congrArg _ (Cert.Spec.nat2_of_lt X ⟨256 * t + a.val, by omega⟩ k).symm
  have e1 : ∀ (n : Fin 4096) (k : Fin 512), x1 (ix2 n k) = ((wr n.val k.val : ℝ) : EReal) := fun n k => by
    rw [h1]
    show _ = (((if n.val < 4095 then Cert.Spec.nat2 W (Cert.Tables.rowPerm n.val) k.val else 0 : ℝ)) : EReal)
    by_cases hn : n.val < 4095
    · rw [if_pos hn, if_pos hn, hfin.W]
      exact congrArg _ (Cert.Spec.nat2_of_lt W ⟨Cert.Tables.rowPerm n.val, Cert.Tables.rowPerm_lt _⟩ k).symm
    · rw [if_neg hn, if_neg hn, EReal.coe_zero]
  have e2 : ∀ (n : Fin 4096), x2 (ix2 (0 : Fin 1) n) = ((br n.val : ℝ) : EReal) := fun n => by
    rw [h2]
    show _ = (((if n.val < 4095 then Cert.Spec.nat1 B (Cert.Tables.rowPerm n.val) else 0 : ℝ)) : EReal)
    by_cases hn : n.val < 4095
    · rw [if_pos hn, if_pos hn, hfin.b]
      exact congrArg _ (Cert.Spec.nat1_of_lt B ⟨Cert.Tables.rowPerm n.val, Cert.Tables.rowPerm_lt _⟩).symm
    · rw [if_neg hn, if_neg hn, EReal.coe_zero]
  have e3 : ∀ (n : Fin 4096), x3 (ix2 (0 : Fin 1) n) = ((sr n.val : ℝ) : EReal) := fun n => by
    rw [h3]
    show _ = (((if n.val < 4095 then Cert.Spec.nat1 S (Cert.Tables.rowPerm n.val) else 1 : ℝ)) : EReal)
    by_cases hn : n.val < 4095
    · rw [if_pos hn, if_pos hn, hfin.s]
      exact congrArg _ (Cert.Spec.nat1_of_lt S ⟨Cert.Tables.rowPerm n.val, Cert.Tables.rowPerm_lt _⟩).symm
    · rw [if_neg hn, if_neg hn, EReal.coe_one]
  have e4 : ∀ (q : Fin 4096), x4 (ix2 (0 : Fin 1) q) = ((lr q.val : ℝ) : EReal) := fun q => by
    rw [h4, hfin.L]
    exact congrArg _ (Cert.Spec.nat1_of_lt L ⟨Cert.Tables.leafPerm q.val, Cert.Tables.leafPerm_lt _⟩).symm
  -- the block's node numbers and leaf numbers
  let pr : ℕ → ℕ → ℝ := fun a c => Cert.Spec.sig (((∑ k : Fin 512, xr a k.val * wr c k.val) + br c) * sr c)
  have hPr : ∀ (a : Fin 256) (c : Fin 4096), k0_pay1 x0 x1 x2 x3 (ix2 a c) = ((pr a.val c.val : ℝ) : EReal) :=
    fun a c => Cert.KernelIdeal.KPayload.ptable_apply x0 x1 x2 x3 xr wr br sr e0 e1 e2 e3 a c
  have hLr := Cert.KernelIdeal.KPayload.leafrow_apply x4 lr e4
  -- the output block is its one store's payload; every load reads a whole block
  have hz1 : (![0] : Fin 1 → Nat) = fun _ => 0 := funext fun a => by fin_cases a; rfl
  have hz2 : (![0, 0] : Fin 2 → Nat) = fun _ => 0 := funext fun a => by fin_cases a <;> rfl
  unfold out0_5
  rw [View.canon_unit_zero hz1]
  simp only [View.ld_unit_zero (S := S256x512) hz2, View.ld_unit_zero (S := S4096x512) hz2,
    View.ld_unit_zero (S := S1x4096) hz2]
  rw [Cert.KernelIdeal.KPayload.pay10_apply (k0_pay1 x0 x1 x2 x3) pr (fun q => Cert.Spec.sig (lr q)) hPr _ _
    (fun a k => Cert.KernelIdeal.KPayload.lvl6_apply (k0_pay1 x0 x1 x2 x3) pr (fun q => Cert.Spec.sig (lr q)) hPr _ _ _ hLr a k) a]
  -- the fold's rows are the tree's levels in the order `rho`
  show _ = (((∑ q ∈ Finset.range (2 ^ 12), Cert.Spec.leaf L q
      * Cert.TreeMath.pathProd (Cert.Spec.pnode X W B S (256 * t + a.val)) 12 q : ℝ)) : EReal)
  refine congrArg _ (Cert.TreeMath.fold_eq_sum 12 (Cert.Spec.pnode X W B S (256 * t + a.val)) (Cert.Spec.leaf L) Cert.Tables.rho
    Cert.Tables.rho_zero Cert.Tables.rho_left Cert.Tables.rho_right _ _ (fun d hd k hk => ?_) (fun k _ => ?_))
  · -- level `d`, position `k`: node row `rowPerm (2^d - 1 + k) = 2^d - 1 + rho d k`
    have hc : 2 ^ d - 1 + k < 4095 := by
      have h1 : 2 ^ d ≤ 2 ^ 11 := Nat.pow_le_pow_right (by norm_num) (by omega)
      have h2 : 0 < 2 ^ d := Nat.two_pow_pos d
      norm_num at h1; omega
    show Cert.Spec.sig (((∑ k' : Fin 512, xr a.val k'.val * wr (2 ^ d - 1 + k) k'.val) + br (2 ^ d - 1 + k)) * sr (2 ^ d - 1 + k))
      = Cert.Spec.sig (Cert.Spec.logit X W B S (256 * t + a.val) (2 ^ d - 1 + Cert.Tables.rho d k))
    unfold Cert.Spec.logit
    rw [← Cert.Tables.rowPerm_eq d hd k hk]
    show Cert.Spec.sig (((∑ k' : Fin 512, Cert.Spec.nat2 X (256 * t + a.val) k'.val
          * (if 2 ^ d - 1 + k < 4095 then Cert.Spec.nat2 W (Cert.Tables.rowPerm (2 ^ d - 1 + k)) k'.val else 0))
        + (if 2 ^ d - 1 + k < 4095 then Cert.Spec.nat1 B (Cert.Tables.rowPerm (2 ^ d - 1 + k)) else 0))
        * (if 2 ^ d - 1 + k < 4095 then Cert.Spec.nat1 S (Cert.Tables.rowPerm (2 ^ d - 1 + k)) else 1)) = _
    simp only [if_pos hc]
    rw [Fin.sum_univ_eq_sum_range (fun k' => Cert.Spec.nat2 X (256 * t + a.val) k'
      * Cert.Spec.nat2 W (Cert.Tables.rowPerm (2 ^ d - 1 + k)) k') 512]
  · show Cert.Spec.sig (Cert.Spec.nat1 L (Cert.Tables.leafPerm k)) = Cert.Spec.sig (Cert.Spec.nat1 L (Cert.Tables.rho 12 k))
    rw [Cert.Tables.rho_twelve]

end Cert.KernelIdeal.KBlock

end
-- ==== Proof.KValue.lean ====
/-
  The kernel's run, read: after every weakly fair execution the result array is the specification `Spec.G` of the five
  argument arrays, and the arguments are unchanged.

  Grid point `t` stages rows `256 t … 256 t + 255` of `x` and the whole of the four other arrays, and writes back rows
  `256 t … 256 t + 255` of the result; the 64 points' blocks tile the result array, and each block is the
  specification's (`KBlock.block_value`).
-/
import proofs.«407249_j24060406792344_3_alg».proof.Proof.Gen.KernelIdeal.Frame
import proofs.«407249_j24060406792344_3_alg».proof.Proof.KernelHost
import proofs.«407249_j24060406792344_3_alg».proof.Proof.KBlock
import Idealize.ShloMosaic.Lib.Pipeline.Value

noncomputable section

namespace Cert.KernelIdeal.KValue

open Idealize.ShloMosaic Idealize.ShloMosaic.TcCoe Idealize.ShloMosaic.ValueIdx Idealize.SL.Sem Cert.KernelIdeal Cert.KernelIdeal.Gen
open Cert.KernelIdeal.KHost
open Idealize.ShloMosaic.Pipeline (Dat)

variable (m : (ℓ : Loc nD τ sig) → Buf (Elt Ideal) ℓ) (ρ : Dev nD → PrngReg)

/-- The printed index maps over the 64 grid points: the window of `x` and the result's window move with the point, the
    four other windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

/-- The arrays the six windows stage. -/
theorem arr0 : Pipeline.arrRef spec0 0 = main_v26 := rfl
theorem arr1 : Pipeline.arrRef spec0 1 = main_v27 := rfl
theorem arr2 : Pipeline.arrRef spec0 2 = main_v28 := rfl
theorem arr3 : Pipeline.arrRef spec0 3 = main_v29 := rfl
theorem arr4 : Pipeline.arrRef spec0 4 = main_v30 := rfl
theorem arr5 : Pipeline.arrRef spec0 5 = main_v31 := rfl

/-- The grid has 64 points. -/
theorem t_lt (t : Fin cfg0.N) : t.val < 64 := t.isLt

/-- Point `t`'s block of `x`: rows `256 t … 256 t + 255`. -/
theorem blk0 (c : Dev nD) (t : Fin cfg0.N) (a : Fin 256) (k : Fin 512) :
    (iblk m c 0 t : Vec Ideal S256x512 .bf16) (ix2 a k)
      = argX m c (ix2 ⟨256 * t.val + a.val, by have := t_lt t; omega⟩ k) := by
  obtain ⟨e0, e1, -⟩ := idx_facts t
  show V m c main_v26 (((cfg0.win 0).blk t).view.emb (ix2 a k)) = _
  have hemb : ((cfg0.win 0).blk t).view.emb (ix2 a k)
      = ix2 (⟨256 * t.val + a.val, by have := t_lt t; omega⟩ : Fin 16384) k := by
    funext b; apply Fin.ext
    match b with
    | ⟨0, _⟩ => show win0_0.index t (0 : Fin 2) * 256 + 1 * a.val = 256 * t.val + a.val; omega
    | ⟨1, _⟩ => show win0_0.index t (1 : Fin 2) * 512 + 1 * k.val = k.val; omega
  rw [hemb]
  exact V_x m c _ k

/-- Point `t`'s block of the re-ordered, padded weights: the whole array. -/
theorem blk1 (c : Dev nD) (t : Fin cfg0.N) (n : Fin 4096) (k : Fin 512) :
    (iblk m c 1 t : Vec Ideal S4096x512 .bf16) (ix2 n k)
      = if n.val < 4095 then argW m c (ix2 ⟨Cert.Tables.rowPerm n.val, Cert.Tables.rowPerm_lt _⟩ k) else (0 : EReal) := by
  obtain ⟨-, -, e0, e1, -⟩ := idx_facts t
  show V m c main_v27 (((cfg0.win 1).blk t).view.emb (ix2 n k)) = _
  have hemb : ((cfg0.win 1).blk t).view.emb (ix2 n k) = ix2 n k := by
    funext b; apply Fin.ext
    match b with
    | ⟨0, _⟩ => show win0_1.index t (0 : Fin 2) * 4096 + 1 * n.val = n.val; omega
    | ⟨1, _⟩ => show win0_1.index t (1 : Fin 2) * 512 + 1 * k.val = k.val; omega
  rw [hemb]
  exact V_w m c n k

/-- Point `t`'s block of the re-ordered, padded biases: the whole row. -/
theorem blk2 (c : Dev nD) (t : Fin cfg0.N) (n : Fin 4096) :
    (iblk m c 2 t : Vec Ideal S1x4096 .f32) (ix2 (0 : Fin 1) n)
      = if n.val < 4095 then argB m c (ix1 ⟨Cert.Tables.rowPerm n.val, Cert.Tables.rowPerm_lt _⟩) else (0 : EReal) := by
  obtain ⟨-, -, -, -, e0, e1, -⟩ := idx_facts t
  show V m c main_v28 (((cfg0.win 2).blk t).view.emb (ix2 (0 : Fin 1) n)) = _
  have hemb : ((cfg0.win 2).blk t).view.emb (ix2 (0 : Fin 1) n) = ix2 (0 : Fin 1) n := by
    funext b; apply Fin.ext
    match b with
    | ⟨0, _⟩ => show win0_2.index t (0 : Fin 2) * 1 + 1 * 0 = 0; omega
    | ⟨1, _⟩ => show win0_2.index t (1 : Fin 2) * 4096 + 1 * n.val = n.val; omega
  rw [hemb]
  exact V_b m c n

/-- Point `t`'s block of the re-ordered, padded steepnesses: the whole row. -/
theorem blk3 (c : Dev nD) (t : Fin cfg0.N) (n : Fin 4096) :
    (iblk m c 3 t : Vec Ideal S1x4096 .f32) (ix2 (0 : Fin 1) n)
      = if n.val < 4095 then argS m c (ix1 ⟨Cert.Tables.rowPerm n.val, Cert.Tables.rowPerm_lt _⟩) else (1 : EReal) := by
  obtain ⟨-, -, -, -, -, -, e0, e1, -⟩ := idx_facts t
  show V m c main_v29 (((cfg0.win 3).blk t).view.emb (ix2 (0 : Fin 1) n)) = _
  have hemb : ((cfg0.win 3).blk t).view.emb (ix2 (0 : Fin 1) n) = ix2 (0 : Fin 1) n := by
    funext b; apply Fin.ext
    match b with
    | ⟨0, _⟩ => show win0_3.index t (0 : Fin 2) * 1 + 1 * 0 = 0; omega
    | ⟨1, _⟩ => show win0_3.index t (1 : Fin 2) * 4096 + 1 * n.val = n.val; omega
  rw [hemb]
  exact V_s m c n

/-- Point `t`'s block of the re-ordered leaves: the whole row. -/
theorem blk4 (c : Dev nD) (t : Fin cfg0.N) (q : Fin 4096) :
    (iblk m c 4 t : Vec Ideal S1x4096 .f32) (ix2 (0 : Fin 1) q)
      = argL m c (ix1 ⟨Cert.Tables.leafPerm q.val, Cert.Tables.leafPerm_lt _⟩) := by
  obtain ⟨-, -, -, -, -, -, -, -, e0, e1, -⟩ := idx_facts t
  show V m c main_v30 (((cfg0.win 4).blk t).view.emb (ix2 (0 : Fin 1) q)) = _
  have hemb : ((cfg0.win 4).blk t).view.emb (ix2 (0 : Fin 1) q) = ix2 (0 : Fin 1) q := by
    funext b; apply Fin.ext
    match b with
    | ⟨0, _⟩ => show win0_4.index t (0 : Fin 2) * 1 + 1 * 0 = 0; omega
    | ⟨1, _⟩ => show win0_4.index t (1 : Fin 2) * 4096 + 1 * q.val = q.val; omega
  rw [hemb]
  exact V_l m c q

/-- What the body leaves at point `t`, row `a` of the block: the specification at batch row `256 t + a`. -/
theorem out_blk (hfin : ∀ c : Dev nD, Cert.Spec.Finite (argX m c) (argW m c) (argB m c) (argS m c) (argL m c))
    (c : Dev nD) (t : Fin cfg0.N) (a : Fin 256) :
    out0_5 (F := Ideal) (iblk m c 0 t) (iblk m c 1 t) (iblk m c 2 t) (iblk m c 3 t) (iblk m c 4 t) (ix1 a)
      = Cert.Spec.G (argX m c) (argW m c) (argB m c) (argS m c) (argL m c)
          (ix1 ⟨256 * t.val + a.val, by have := t_lt t; omega⟩) :=
  Cert.KernelIdeal.KBlock.block_value _ _ _ _ _ (hfin c) t.val (t_lt t) (iblk m c 0 t) (iblk m c 1 t) (iblk m c 2 t)
    (iblk m c 3 t) (iblk m c 4 t) (blk0 m c t) (blk1 m c t) (blk2 m c t) (blk3 m c t) (blk4 m c t) a

/-- WHAT POINT `t` WRITES BACK is block `t` of the specification of the argument arrays. -/
theorem flushed5_eq (hfin : ∀ c : Dev nD, Cert.Spec.Finite (argX m c) (argW m c) (argB m c) (argS m c) (argL m c))
    (c : Dev nD) (t : Fin cfg0.N) :
    (dats m 0 c).flushed 5 t = ((cfg0.win 5).blk t).view.read (Elt Ideal)
      (Cert.Spec.G (argX m c) (argW m c) (argB m c) (argS m c) (argL m c)) := by
  show (cfg0.win 5).cut (grid0.coords t) ((dats m 0 c).after 5 t) = _
  rw [after0_5]
  funext y
  obtain ⟨a, rfl⟩ : ∃ a : Fin 256, y = ix1 a := ⟨y 0, eq_ix1 y⟩
  obtain ⟨-, -, -, -, -, -, -, -, -, -, e0⟩ := idx_facts t
  have hx : (cfg0.win 5).xinj (grid0.coords t) (ix1 a) = ix1 a := by
    funext b; apply Fin.ext
    match b with
    | ⟨0, _⟩ => rfl
  have hemb : ((cfg0.win 5).blk t).view.emb (ix1 a)
      = ix1 (⟨256 * t.val + a.val, by have := t_lt t; omega⟩ : Fin 16384) := by
    funext b; apply Fin.ext
    match b with
    | ⟨0, _⟩ => show win0_5.index t (0 : Fin 1) * 256 + 1 * a.val = 256 * t.val + a.val; omega
  show out0_5 (F := Ideal) (iblk m c 0 t) (iblk m c 1 t) (iblk m c 2 t) (iblk m c 3 t) (iblk m c 4 t)
      ((cfg0.win 5).xinj (grid0.coords t) (ix1 a))
    = Cert.Spec.G (argX m c) (argW m c) (argB m c) (argS m c) (argL m c) (((cfg0.win 5).blk t).view.emb (ix1 a))
  rw [hx, hemb]
  exact out_blk m hfin c t a

/-- An index of the result array is in point `t`'s block iff its coordinate is in the block's range of rows. -/
theorem mem_blk5 (t : Fin cfg0.N) (i : S16384.Idx) :
    i ∈ ((cfg0.win 5).blk t).view.set ↔ ∀ a : Fin 1, win0_5.index t a * S256.size a ≤ (i a).val
      ∧ (i a).val < win0_5.index t a * S256.size a + S256.size a := by
  show i ∈ ((View.whole main_v31).slice (win0_5.rect t)).set ↔ _
  rw [View.set_slice_whole, Rect.mem_set_unit]
  exact Iff.rfl

/-- THE COVER: row `r` of the result array is in the block of point `r / 256`, which writes back. -/
theorem cover5 (i : S16384.Idx) :
    ∃ t : Fin cfg0.N, (cfg0.win 5).flush t = true ∧ i ∈ ((cfg0.win 5).blk t).view.set := by
  have hi : (i 0).val < 16384 := (i 0).isLt
  have ht : (i 0).val / 256 < 64 := by omega
  obtain ⟨t, htv⟩ : ∃ t : Fin cfg0.N, t.val = (i 0).val / 256 := ⟨⟨(i 0).val / 256, ht⟩, rfl⟩
  refine ⟨t, flush0_5 t, ?_⟩
  rw [mem_blk5]
  obtain ⟨-, -, -, -, -, -, -, -, -, -, e0⟩ := idx_facts t
  intro a
  match a with
  | ⟨0, _⟩ =>
    show win0_5.index t (0 : Fin 1) * 256 ≤ (i 0).val ∧ (i 0).val < win0_5.index t (0 : Fin 1) * 256 + 256
    omega

/-- The result array after the run is the specification of the arguments. -/
theorem final5 (hfin : ∀ c : Dev nD, Cert.Spec.Finite (argX m c) (argW m c) (argB m c) (argS m c) (argL m c)) (c : Dev nD) :
    ((dats (F := Ideal) m 0 c).arrAt 5 cfg0.N : (⟨1, ![16384]⟩ : Shape).Idx → EReal)
      = Cert.Spec.G (argX m c) (argW m c) (argB m c) (argS m c) (argL m c) :=
  (dats m 0 c).arrAt_eq_of_cover 5 (Cert.Spec.G (argX m c) (argW m c) (argB m c) (argS m c) (argL m c))
    (fun t _ => flushed5_eq m hfin c t) cover5

/-- The run, read. -/
theorem run (hfin : ∀ c : Dev nD, Cert.Spec.Finite (argX m c) (argW m c) (argB m c) (argS m c) (argL m c)) :
    θ_run (defs (F := Ideal)) (onTc (τ := τ) (main (F := Ideal))) ⟨m, fun _ => 0, ρ⟩ fun r => ∀ c : Dev nD,
      r.2.mem ((c.tc : Thread nD τ).loc main_v31) = Cert.Spec.G (argX m c) (argW m c) (argB m c) (argS m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m hfin c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.RefOps.lean ====
import proofs.«407249_j24060406792344_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- 16 operations, the last writing `main_v13`. -/
abbrev segP : List (HloOp τ sig (Elt F)) :=
  [ StableHlo.unary main_arg1 main_v0 ((transpose S512x4095 [1, 0] · transposes_S4095x512_S512x4095_1_0) : (⟨S4095x512, .f32⟩ : BufTy).Contents (Elt F) → (⟨S512x4095, .f32⟩ : BufTy).Contents (Elt F)),
    StableHlo.binary main_arg0 main_v0 main_v1 ((fun l r => Host.dotGeneral dot_S16384x512_S512x4095_S16384x4095_1_0_0_1_n_n none l r) : (⟨S16384x512, .f32⟩ : BufTy).Contents (Elt F) → (⟨S512x4095, .f32⟩ : BufTy).Contents (Elt F) → (⟨S16384x4095, .f32⟩ : BufTy).Contents (Elt F)),
    StableHlo.unary main_arg2 main_v2 (broadcastInDim S1x4095 ![1] bcast_S4095_S1x4095_1 : (⟨S4095, .f32⟩ : BufTy).Contents (Elt F) → (⟨S1x4095, .f32⟩ : BufTy).Contents (Elt F)),
    StableHlo.unary main_v2 main_v3 (broadcastInDim S16384x4095 ![0, 1] bcast_S1x4095_S16384x4095_0_1 : (⟨S1x4095, .f32⟩ : BufTy).Contents (Elt F) → (⟨S16384x4095, .f32⟩ : BufTy).Contents (Elt F)),
    StableHlo.binary main_v1 main_v3 main_v4 (addf : (⟨S16384x4095, .f32⟩ : BufTy).Contents (Elt F) → (⟨S16384x4095, .f32⟩ : BufTy).Contents (Elt F) → (⟨S16384x4095, .f32⟩ : BufTy).Contents (Elt F)),
    StableHlo.unary main_arg3 main_v5 (broadcastInDim S1x4095 ![1] bcast_S4095_S1x4095_1 : (⟨S4095, .f32⟩ : BufTy).Contents (Elt F) → (⟨S1x4095, .f32⟩ : BufTy).Contents (Elt F)),
    StableHlo.unary main_v5 main_v6 (broadcastInDim S16384x4095 ![0, 1] bcast_S1x4095_S16384x4095_0_1 : (⟨S1x4095, .f32⟩ : BufTy).Contents (Elt F) → (⟨S16384x4095, .f32⟩ : BufTy).Contents (Elt F)),
    StableHlo.binary main_v4 main_v6 main_v7 (mulf : (⟨S16384x4095, .f32⟩ : BufTy).Contents (Elt F) → (⟨S16384x4095, .f32⟩ : BufTy).Contents (Elt F) → (⟨S16384x4095, .f32⟩ : BufTy).Contents (Elt F)),
    StableHlo.unary main_v7 main_v8 (Host.negf : (⟨S16384x4095, .f32⟩ : BufTy).Contents (Elt F) → (⟨S16384x4095, .f32⟩ : BufTy).Contents (Elt F)),
    StableHlo.unary main_v8 main_v9 (Host.exp : (⟨S16384x4095, .f32⟩ : BufTy).Contents (Elt F) → (⟨S16384x4095, .f32⟩ : BufTy).Contents (Elt F)),
    StableHlo.nullary main_cst (constant S_ .f32 0x3F800000#32),
    StableHlo.unary main_cst main_v10 (broadcastInDim S16384x4095 ![] bcast_S_S16384x4095 : (⟨S_, .f32⟩ : BufTy).Contents (Elt F) → (⟨S16384x4095, .f32⟩ : BufTy).Contents (Elt F)),
    StableHlo.binary main_v10 main_v9 main_v11 (addf : (⟨S16384x4095, .f32⟩ : BufTy).Contents (Elt F) → (⟨S16384x4095, .f32⟩ : BufTy).Contents (Elt F) → (⟨S16384x4095, .f32⟩ : BufTy).Contents (Elt F)),
    StableHlo.nullary main_cst_0 (constant S_ .f32 0x3F800000#32),
    StableHlo.unary main_cst_0 main_v12 (broadcastInDim S16384x4095 ![] bcast_S_S16384x4095 : (⟨S_, .f32⟩ : BufTy).Contents (Elt F) → (⟨S16384x4095, .f32⟩ : BufTy).Contents (Elt F)),
    StableHlo.binary main_v12 main_v11 main_v13 (Host.divf : (⟨S16384x4095, .f32⟩ : BufTy).Contents (Elt F) → (⟨S16384x4095, .f32⟩ : BufTy).Contents (Elt F) → (⟨S16384x4095, .f32⟩ : BufTy).Contents (Elt F)) ]
/-- Each touches TensorCore buffers only. -/
theorem segP_sub : (segP : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- 12 operations, the last writing `main_v23`. -/
abbrev segL0 : List (HloOp τ sig (Elt F)) :=
  [ StableHlo.nullary main_cst_1 (constant S_ .f32 0x3F800000#32),
    StableHlo.unary main_cst_1 main_v14 (broadcastInDim S16384x1 ![] bcast_S_S16384x1 : (⟨S_, .f32⟩ : BufTy).Contents (Elt F) → (⟨S16384x1, .f32⟩ : BufTy).Contents (Elt F)),
    StableHlo.unary main_v13 main_v15 ((extractStridedSlice S16384x1 ![0, 0] · slices_S16384x4095_S16384x1_0_0) : (⟨S16384x4095, .f32⟩ : BufTy).Contents (Elt F) → (⟨S16384x1, .f32⟩ : BufTy).Contents (Elt F)),
    StableHlo.binary main_v14 main_v15 main_v16 (mulf : (⟨S16384x1, .f32⟩ : BufTy).Contents (Elt F) → (⟨S16384x1, .f32⟩ : BufTy).Contents (Elt F) → (⟨S16384x1, .f32⟩ : BufTy).Contents (Elt F)),
    StableHlo.nullary main_cst_2 (constant S_ .f32 0x3F800000#32),
    StableHlo.unary main_cst_2 main_v17 (broadcastInDim S16384x1 ![] bcast_S_S16384x1 : (⟨S_, .f32⟩ : BufTy).Contents (Elt F) → (⟨S16384x1, .f32⟩ : BufTy).Contents (Elt F)),
    StableHlo.binary main_v17 main_v15 main_v18 (subf : (⟨S16384x1, .f32⟩ : BufTy).Contents (Elt F) → (⟨S16384x1, .f32⟩ : BufTy).Contents (Elt F) → (⟨S16384x1, .f32⟩ : BufTy).Contents (Elt F)),
    StableHlo.binary main_v14 main_v18 main_v19 (mulf : (⟨S16384x1, .f32⟩ : BufTy).Contents (Elt F) → (⟨S16384x1, .f32⟩ : BufTy).Contents (Elt F) → (⟨S16384x1, .f32⟩ : BufTy).Contents (Elt F)),
    StableHlo.unary main_v16 main_v20 (broadcastInDim S16384x1x1 ![0, 1] bcast_S16384x1_S16384x1x1_0_1 : (⟨S16384x1, .f32⟩ : BufTy).Contents (Elt F) → (⟨S16384x1x1, .f32⟩ : BufTy).Contents (Elt F)),
    StableHlo.unary main_v19 main_v21 (broadcastInDim S16384x1x1 ![0, 1] bcast_S16384x1_S16384x1x1_0_1 : (⟨S16384x1, .f32⟩ : BufTy).Contents (Elt F) → (⟨S16384x1x1, .f32⟩ : BufTy).Contents (Elt F)),
    StableHlo.binary main_v20 main_v21 main_v22 ((fun a b => concatenate S16384x1x2 2 [⟨S16384x1x1, a⟩, ⟨S16384x1x1, b⟩] concatenates_S16384x1x1_S16384x1x1_S16384x1x2_d2) : (⟨S16384x1x1, .f32⟩ : BufTy).Contents (Elt F) → (⟨S16384x1x1, .f32⟩ : BufTy).Contents (Elt F) → (⟨S16384x1x2, .f32⟩ : BufTy).Contents (Elt F)),
    StableHlo.reshape main_v22 main_v23 rfl shapeCasts_S16384x1x2_S16384x2 ]
/-- Each touches TensorCore buffers only. -/
theorem segL0_sub : (segL0 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v32`. -/
abbrev segL1 : List (HloOp τ sig (Elt F)) :=
  [ StableHlo.unary main_v13 main_v24 ((extractStridedSlice S16384x2 ![0, 1] · slices_S16384x4095_S16384x2_0_1) : (⟨S16384x4095, .f32⟩ : BufTy).Contents (Elt F) → (⟨S16384x2, .f32⟩ : BufTy).Contents (Elt F)),
    StableHlo.binary main_v23 main_v24 main_v25 (mulf : (⟨S16384x2, .f32⟩ : BufTy).Contents (Elt F) → (⟨S16384x2, .f32⟩ : BufTy).Contents (Elt F) → (⟨S16384x2, .f32⟩ : BufTy).Contents (Elt F)),
    StableHlo.nullary main_cst_3 (constant S_ .f32 0x3F800000#32),
    StableHlo.unary main_cst_3 main_v26 (broadcastInDim S16384x2 ![] bcast_S_S16384x2 : (⟨S_, .f32⟩ : BufTy).Contents (Elt F) → (⟨S16384x2, .f32⟩ : BufTy).Contents (Elt F)),
    StableHlo.binary main_v26 main_v24 main_v27 (subf : (⟨S16384x2, .f32⟩ : BufTy).Contents (Elt F) → (⟨S16384x2, .f32⟩ : BufTy).Contents (Elt F) → (⟨S16384x2, .f32⟩ : BufTy).Contents (Elt F)),
    StableHlo.binary main_v23 main_v27 main_v28 (mulf : (⟨S16384x2, .f32⟩ : BufTy).Contents (Elt F) → (⟨S16384x2, .f32⟩ : BufTy).Contents (Elt F) → (⟨S16384x2, .f32⟩ : BufTy).Contents (Elt F)),
    StableHlo.unary main_v25 main_v29 (broadcastInDim S16384x2x1 ![0, 1] bcast_S16384x2_S16384x2x1_0_1 : (⟨S16384x2, .f32⟩ : BufTy).Contents (Elt F) → (⟨S16384x2x1, .f32⟩ : BufTy).Contents (Elt F)),
    StableHlo.unary main_v28 main_v30 (broadcastInDim S16384x2x1 ![0, 1] bcast_S16384x2_S16384x2x1_0_1 : (⟨S16384x2, .f32⟩ : BufTy).Contents (Elt F) → (⟨S16384x2x1, .f32⟩ : BufTy).Contents (Elt F)),
    StableHlo.binary main_v29 main_v30 main_v31 ((fun a b => concatenate S16384x2x2 2 [⟨S16384x2x1, a⟩, ⟨S16384x2x1, b⟩] concatenates_S16384x2x1_S16384x2x1_S16384x2x2_d2) : (⟨S16384x2x1, .f32⟩ : BufTy).Contents (Elt F) → (⟨S16384x2x1, .f32⟩ : BufTy).Contents (Elt F) → (⟨S16384x2x2, .f32⟩ : BufTy).Contents (Elt F)),
    StableHlo.reshape main_v31 main_v32 rfl shapeCasts_S16384x2x2_S16384x4 ]
/-- Each touches TensorCore buffers only. -/
theorem segL1_sub : (segL1 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v41`. -/
abbrev segL2 : List (HloOp τ sig (Elt F)) :=
  [ StableHlo.unary main_v13 main_v33 ((extractStridedSlice S16384x4 ![0, 3] · slices_S16384x4095_S16384x4_0_3) : (⟨S16384x4095, .f32⟩ : BufTy).Contents (Elt F) → (⟨S16384x4, .f32⟩ : BufTy).Contents (Elt F)),
    StableHlo.binary main_v32 main_v33 main_v34 (mulf : (⟨S16384x4, .f32⟩ : BufTy).Contents (Elt F) → (⟨S16384x4, .f32⟩ : BufTy).Contents (Elt F) → (⟨S16384x4, .f32⟩ : BufTy).Contents (Elt F)),
    StableHlo.nullary main_cst_4 (constant S_ .f32 0x3F800000#32),
    StableHlo.unary main_cst_4 main_v35 (broadcastInDim S16384x4 ![] bcast_S_S16384x4 : (⟨S_, .f32⟩ : BufTy).Contents (Elt F) → (⟨S16384x4, .f32⟩ : BufTy).Contents (Elt F)),
    StableHlo.binary main_v35 main_v33 main_v36 (subf : (⟨S16384x4, .f32⟩ : BufTy).Contents (Elt F) → (⟨S16384x4, .f32⟩ : BufTy).Contents (Elt F) → (⟨S16384x4, .f32⟩ : BufTy).Contents (Elt F)),
    StableHlo.binary main_v32 main_v36 main_v37 (mulf : (⟨S16384x4, .f32⟩ : BufTy).Contents (Elt F) → (⟨S16384x4, .f32⟩ : BufTy).Contents (Elt F) → (⟨S16384x4, .f32⟩ : BufTy).Contents (Elt F)),
    StableHlo.unary main_v34 main_v38 (broadcastInDim S16384x4x1 ![0, 1] bcast_S16384x4_S16384x4x1_0_1 : (⟨S16384x4, .f32⟩ : BufTy).Contents (Elt F) → (⟨S16384x4x1, .f32⟩ : BufTy).Contents (Elt F)),
    StableHlo.unary main_v37 main_v39 (broadcastInDim S16384x4x1 ![0, 1] bcast_S16384x4_S16384x4x1_0_1 : (⟨S16384x4, .f32⟩ : BufTy).Contents (Elt F) → (⟨S16384x4x1, .f32⟩ : BufTy).Contents (Elt F)),
    StableHlo.binary main_v38 main_v39 main_v40 ((fun a b => concatenate S16384x4x2 2 [⟨S16384x4x1, a⟩, ⟨S16384x4x1, b⟩] concatenates_S16384x4x1_S16384x4x1_S16384x4x2_d2) : (⟨S16384x4x1, .f32⟩ : BufTy).Contents (Elt F) → (⟨S16384x4x1, .f32⟩ : BufTy).Contents (Elt F) → (⟨S16384x4x2, .f32⟩ : BufTy).Contents (Elt F)),
    StableHlo.reshape main_v40 main_v41 rfl shapeCasts_S16384x4x2_S16384x8 ]
/-- Each touches TensorCore buffers only. -/
theorem segL2_sub : (segL2 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v50`. -/
abbrev segL3 : List (HloOp τ sig (Elt F)) :=
  [ StableHlo.unary main_v13 main_v42 ((extractStridedSlice S16384x8 ![0, 7] · slices_S16384x4095_S16384x8_0_7) : (⟨S16384x4095, .f32⟩ : BufTy).Contents (Elt F) → (⟨S16384x8, .f32⟩ : BufTy).Contents (Elt F)),
    StableHlo.binary main_v41 main_v42 main_v43 (mulf : (⟨S16384x8, .f32⟩ : BufTy).Contents (Elt F) → (⟨S16384x8, .f32⟩ : BufTy).Contents (Elt F) → (⟨S16384x8, .f32⟩ : BufTy).Contents (Elt F)),
    StableHlo.nullary main_cst_5 (constant S_ .f32 0x3F800000#32),
    StableHlo.unary main_cst_5 main_v44 (broadcastInDim S16384x8 ![] bcast_S_S16384x8 : (⟨S_, .f32⟩ : BufTy).Contents (Elt F) → (⟨S16384x8, .f32⟩ : BufTy).Contents (Elt F)),
    StableHlo.binary main_v44 main_v42 main_v45 (subf : (⟨S16384x8, .f32⟩ : BufTy).Contents (Elt F) → (⟨S16384x8, .f32⟩ : BufTy).Contents (Elt F) → (⟨S16384x8, .f32⟩ : BufTy).Contents (Elt F)),
    StableHlo.binary main_v41 main_v45 main_v46 (mulf : (⟨S16384x8, .f32⟩ : BufTy).Contents (Elt F) → (⟨S16384x8, .f32⟩ : BufTy).Contents (Elt F) → (⟨S16384x8, .f32⟩ : BufTy).Contents (Elt F)),
    StableHlo.unary main_v43 main_v47 (broadcastInDim S16384x8x1 ![0, 1] bcast_S16384x8_S16384x8x1_0_1 : (⟨S16384x8, .f32⟩ : BufTy).Contents (Elt F) → (⟨S16384x8x1, .f32⟩ : BufTy).Contents (Elt F)),
    StableHlo.unary main_v46 main_v48 (broadcastInDim S16384x8x1 ![0, 1] bcast_S16384x8_S16384x8x1_0_1 : (⟨S16384x8, .f32⟩ : BufTy).Contents (Elt F) → (⟨S16384x8x1, .f32⟩ : BufTy).Contents (Elt F)),
    StableHlo.binary main_v47 main_v48 main_v49 ((fun a b => concatenate S16384x8x2 2 [⟨S16384x8x1, a⟩, ⟨S16384x8x1, b⟩] concatenates_S16384x8x1_S16384x8x1_S16384x8x2_d2) : (⟨S16384x8x1, .f32⟩ : BufTy).Contents (Elt F) → (⟨S16384x8x1, .f32⟩ : BufTy).Contents (Elt F) → (⟨S16384x8x2, .f32⟩ : BufTy).Contents (Elt F)),
    StableHlo.reshape main_v49 main_v50 rfl shapeCasts_S16384x8x2_S16384x16 ]
/-- Each touches TensorCore buffers only. -/
theorem segL3_sub : (segL3 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v59`. -/
abbrev segL4 : List (HloOp τ sig (Elt F)) :=
  [ StableHlo.unary main_v13 main_v51 ((extractStridedSlice S16384x16 ![0, 15] · slices_S16384x4095_S16384x16_0_15) : (⟨S16384x4095, .f32⟩ : BufTy).Contents (Elt F) → (⟨S16384x16, .f32⟩ : BufTy).Contents (Elt F)),
    StableHlo.binary main_v50 main_v51 main_v52 (mulf : (⟨S16384x16, .f32⟩ : BufTy).Contents (Elt F) → (⟨S16384x16, .f32⟩ : BufTy).Contents (Elt F) → (⟨S16384x16, .f32⟩ : BufTy).Contents (Elt F)),
    StableHlo.nullary main_cst_6 (constant S_ .f32 0x3F800000#32),
    StableHlo.unary main_cst_6 main_v53 (broadcastInDim S16384x16 ![] bcast_S_S16384x16 : (⟨S_, .f32⟩ : BufTy).Contents (Elt F) → (⟨S16384x16, .f32⟩ : BufTy).Contents (Elt F)),
    StableHlo.binary main_v53 main_v51 main_v54 (subf : (⟨S16384x16, .f32⟩ : BufTy).Contents (Elt F) → (⟨S16384x16, .f32⟩ : BufTy).Contents (Elt F) → (⟨S16384x16, .f32⟩ : BufTy).Contents (Elt F)),
    StableHlo.binary main_v50 main_v54 main_v55 (mulf : (⟨S16384x16, .f32⟩ : BufTy).Contents (Elt F) → (⟨S16384x16, .f32⟩ : BufTy).Contents (Elt F) → (⟨S16384x16, .f32⟩ : BufTy).Contents (Elt F)),
    StableHlo.unary main_v52 main_v56 (broadcastInDim S16384x16x1 ![0, 1] bcast_S16384x16_S16384x16x1_0_1 : (⟨S16384x16, .f32⟩ : BufTy).Contents (Elt F) → (⟨S16384x16x1, .f32⟩ : BufTy).Contents (Elt F)),
    StableHlo.unary main_v55 main_v57 (broadcastInDim S16384x16x1 ![0, 1] bcast_S16384x16_S16384x16x1_0_1 : (⟨S16384x16, .f32⟩ : BufTy).Contents (Elt F) → (⟨S16384x16x1, .f32⟩ : BufTy).Contents (Elt F)),
    StableHlo.binary main_v56 main_v57 main_v58 ((fun a b => concatenate S16384x16x2 2 [⟨S16384x16x1, a⟩, ⟨S16384x16x1, b⟩] concatenates_S16384x16x1_S16384x16x1_S16384x16x2_d2) : (⟨S16384x16x1, .f32⟩ : BufTy).Contents (Elt F) → (⟨S16384x16x1, .f32⟩ : BufTy).Contents (Elt F) → (⟨S16384x16x2, .f32⟩ : BufTy).Contents (Elt F)),
    StableHlo.reshape main_v58 main_v59 rfl shapeCasts_S16384x16x2_S16384x32 ]
/-- Each touches TensorCore buffers only. -/
theorem segL4_sub : (segL4 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v68`. -/
abbrev segL5 : List (HloOp τ sig (Elt F)) :=
  [ StableHlo.unary main_v13 main_v60 ((extractStridedSlice S16384x32 ![0, 31] · slices_S16384x4095_S16384x32_0_31) : (⟨S16384x4095, .f32⟩ : BufTy).Contents (Elt F) → (⟨S16384x32, .f32⟩ : BufTy).Contents (Elt F)),
    StableHlo.binary main_v59 main_v60 main_v61 (mulf : (⟨S16384x32, .f32⟩ : BufTy).Contents (Elt F) → (⟨S16384x32, .f32⟩ : BufTy).Contents (Elt F) → (⟨S16384x32, .f32⟩ : BufTy).Contents (Elt F)),
    StableHlo.nullary main_cst_7 (constant S_ .f32 0x3F800000#32),
    StableHlo.unary main_cst_7 main_v62 (broadcastInDim S16384x32 ![] bcast_S_S16384x32 : (⟨S_, .f32⟩ : BufTy).Contents (Elt F) → (⟨S16384x32, .f32⟩ : BufTy).Contents (Elt F)),
    StableHlo.binary main_v62 main_v60 main_v63 (subf : (⟨S16384x32, .f32⟩ : BufTy).Contents (Elt F) → (⟨S16384x32, .f32⟩ : BufTy).Contents (Elt F) → (⟨S16384x32, .f32⟩ : BufTy).Contents (Elt F)),
    StableHlo.binary main_v59 main_v63 main_v64 (mulf : (⟨S16384x32, .f32⟩ : BufTy).Contents (Elt F) → (⟨S16384x32, .f32⟩ : BufTy).Contents (Elt F) → (⟨S16384x32, .f32⟩ : BufTy).Contents (Elt F)),
    StableHlo.unary main_v61 main_v65 (broadcastInDim S16384x32x1 ![0, 1] bcast_S16384x32_S16384x32x1_0_1 : (⟨S16384x32, .f32⟩ : BufTy).Contents (Elt F) → (⟨S16384x32x1, .f32⟩ : BufTy).Contents (Elt F)),
    StableHlo.unary main_v64 main_v66 (broadcastInDim S16384x32x1 ![0, 1] bcast_S16384x32_S16384x32x1_0_1 : (⟨S16384x32, .f32⟩ : BufTy).Contents (Elt F) → (⟨S16384x32x1, .f32⟩ : BufTy).Contents (Elt F)),
    StableHlo.binary main_v65 main_v66 main_v67 ((fun a b => concatenate S16384x32x2 2 [⟨S16384x32x1, a⟩, ⟨S16384x32x1, b⟩] concatenates_S16384x32x1_S16384x32x1_S16384x32x2_d2) : (⟨S16384x32x1, .f32⟩ : BufTy).Contents (Elt F) → (⟨S16384x32x1, .f32⟩ : BufTy).Contents (Elt F) → (⟨S16384x32x2, .f32⟩ : BufTy).Contents (Elt F)),
    StableHlo.reshape main_v67 main_v68 rfl shapeCasts_S16384x32x2_S16384x64 ]
/-- Each touches TensorCore buffers only. -/
theorem segL5_sub : (segL5 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v77`. -/
abbrev segL6 : List (HloOp τ sig (Elt F)) :=
  [ StableHlo.unary main_v13 main_v69 ((extractStridedSlice S16384x64 ![0, 63] · slices_S16384x4095_S16384x64_0_63) : (⟨S16384x4095, .f32⟩ : BufTy).Contents (Elt F) → (⟨S16384x64, .f32⟩ : BufTy).Contents (Elt F)),
    StableHlo.binary main_v68 main_v69 main_v70 (mulf : (⟨S16384x64, .f32⟩ : BufTy).Contents (Elt F) → (⟨S16384x64, .f32⟩ : BufTy).Contents (Elt F) → (⟨S16384x64, .f32⟩ : BufTy).Contents (Elt F)),
    StableHlo.nullary main_cst_8 (constant S_ .f32 0x3F800000#32),
    StableHlo.unary main_cst_8 main_v71 (broadcastInDim S16384x64 ![] bcast_S_S16384x64 : (⟨S_, .f32⟩ : BufTy).Contents (Elt F) → (⟨S16384x64, .f32⟩ : BufTy).Contents (Elt F)),
    StableHlo.binary main_v71 main_v69 main_v72 (subf : (⟨S16384x64, .f32⟩ : BufTy).Contents (Elt F) → (⟨S16384x64, .f32⟩ : BufTy).Contents (Elt F) → (⟨S16384x64, .f32⟩ : BufTy).Contents (Elt F)),
    StableHlo.binary main_v68 main_v72 main_v73 (mulf : (⟨S16384x64, .f32⟩ : BufTy).Contents (Elt F) → (⟨S16384x64, .f32⟩ : BufTy).Contents (Elt F) → (⟨S16384x64, .f32⟩ : BufTy).Contents (Elt F)),
    StableHlo.unary main_v70 main_v74 (broadcastInDim S16384x64x1 ![0, 1] bcast_S16384x64_S16384x64x1_0_1 : (⟨S16384x64, .f32⟩ : BufTy).Contents (Elt F) → (⟨S16384x64x1, .f32⟩ : BufTy).Contents (Elt F)),
    StableHlo.unary main_v73 main_v75 (broadcastInDim S16384x64x1 ![0, 1] bcast_S16384x64_S16384x64x1_0_1 : (⟨S16384x64, .f32⟩ : BufTy).Contents (Elt F) → (⟨S16384x64x1, .f32⟩ : BufTy).Contents (Elt F)),
    StableHlo.binary main_v74 main_v75 main_v76 ((fun a b => concatenate S16384x64x2 2 [⟨S16384x64x1, a⟩, ⟨S16384x64x1, b⟩] concatenates_S16384x64x1_S16384x64x1_S16384x64x2_d2) : (⟨S16384x64x1, .f32⟩ : BufTy).Contents (Elt F) → (⟨S16384x64x1, .f32⟩ : BufTy).Contents (Elt F) → (⟨S16384x64x2, .f32⟩ : BufTy).Contents (Elt F)),
    StableHlo.reshape main_v76 main_v77 rfl shapeCasts_S16384x64x2_S16384x128 ]
/-- Each touches TensorCore buffers only. -/
theorem segL6_sub : (segL6 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v86`. -/
abbrev segL7 : List (HloOp τ sig (Elt F)) :=
  [ StableHlo.unary main_v13 main_v78 ((extractStridedSlice S16384x128 ![0, 127] · slices_S16384x4095_S16384x128_0_127) : (⟨S16384x4095, .f32⟩ : BufTy).Contents (Elt F) → (⟨S16384x128, .f32⟩ : BufTy).Contents (Elt F)),
    StableHlo.binary main_v77 main_v78 main_v79 (mulf : (⟨S16384x128, .f32⟩ : BufTy).Contents (Elt F) → (⟨S16384x128, .f32⟩ : BufTy).Contents (Elt F) → (⟨S16384x128, .f32⟩ : BufTy).Contents (Elt F)),
    StableHlo.nullary main_cst_9 (constant S_ .f32 0x3F800000#32),
    StableHlo.unary main_cst_9 main_v80 (broadcastInDim S16384x128 ![] bcast_S_S16384x128 : (⟨S_, .f32⟩ : BufTy).Contents (Elt F) → (⟨S16384x128, .f32⟩ : BufTy).Contents (Elt F)),
    StableHlo.binary main_v80 main_v78 main_v81 (subf : (⟨S16384x128, .f32⟩ : BufTy).Contents (Elt F) → (⟨S16384x128, .f32⟩ : BufTy).Contents (Elt F) → (⟨S16384x128, .f32⟩ : BufTy).Contents (Elt F)),
    StableHlo.binary main_v77 main_v81 main_v82 (mulf : (⟨S16384x128, .f32⟩ : BufTy).Contents (Elt F) → (⟨S16384x128, .f32⟩ : BufTy).Contents (Elt F) → (⟨S16384x128, .f32⟩ : BufTy).Contents (Elt F)),
    StableHlo.unary main_v79 main_v83 (broadcastInDim S16384x128x1 ![0, 1] bcast_S16384x128_S16384x128x1_0_1 : (⟨S16384x128, .f32⟩ : BufTy).Contents (Elt F) → (⟨S16384x128x1, .f32⟩ : BufTy).Contents (Elt F)),
    StableHlo.unary main_v82 main_v84 (broadcastInDim S16384x128x1 ![0, 1] bcast_S16384x128_S16384x128x1_0_1 : (⟨S16384x128, .f32⟩ : BufTy).Contents (Elt F) → (⟨S16384x128x1, .f32⟩ : BufTy).Contents (Elt F)),
    StableHlo.binary main_v83 main_v84 main_v85 ((fun a b => concatenate S16384x128x2 2 [⟨S16384x128x1, a⟩, ⟨S16384x128x1, b⟩] concatenates_S16384x128x1_S16384x128x1_S16384x128x2_d2) : (⟨S16384x128x1, .f32⟩ : BufTy).Contents (Elt F) → (⟨S16384x128x1, .f32⟩ : BufTy).Contents (Elt F) → (⟨S16384x128x2, .f32⟩ : BufTy).Contents (Elt F)),
    StableHlo.reshape main_v85 main_v86 rfl shapeCasts_S16384x128x2_S16384x256 ]
/-- Each touches TensorCore buffers only. -/
theorem segL7_sub : (segL7 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v95`. -/
abbrev segL8 : List (HloOp τ sig (Elt F)) :=
  [ StableHlo.unary main_v13 main_v87 ((extractStridedSlice S16384x256 ![0, 255] · slices_S16384x4095_S16384x256_0_255) : (⟨S16384x4095, .f32⟩ : BufTy).Contents (Elt F) → (⟨S16384x256, .f32⟩ : BufTy).Contents (Elt F)),
    StableHlo.binary main_v86 main_v87 main_v88 (mulf : (⟨S16384x256, .f32⟩ : BufTy).Contents (Elt F) → (⟨S16384x256, .f32⟩ : BufTy).Contents (Elt F) → (⟨S16384x256, .f32⟩ : BufTy).Contents (Elt F)),
    StableHlo.nullary main_cst_10 (constant S_ .f32 0x3F800000#32),
    StableHlo.unary main_cst_10 main_v89 (broadcastInDim S16384x256 ![] bcast_S_S16384x256 : (⟨S_, .f32⟩ : BufTy).Contents (Elt F) → (⟨S16384x256, .f32⟩ : BufTy).Contents (Elt F)),
    StableHlo.binary main_v89 main_v87 main_v90 (subf : (⟨S16384x256, .f32⟩ : BufTy).Contents (Elt F) → (⟨S16384x256, .f32⟩ : BufTy).Contents (Elt F) → (⟨S16384x256, .f32⟩ : BufTy).Contents (Elt F)),
    StableHlo.binary main_v86 main_v90 main_v91 (mulf : (⟨S16384x256, .f32⟩ : BufTy).Contents (Elt F) → (⟨S16384x256, .f32⟩ : BufTy).Contents (Elt F) → (⟨S16384x256, .f32⟩ : BufTy).Contents (Elt F)),
    StableHlo.unary main_v88 main_v92 (broadcastInDim S16384x256x1 ![0, 1] bcast_S16384x256_S16384x256x1_0_1 : (⟨S16384x256, .f32⟩ : BufTy).Contents (Elt F) → (⟨S16384x256x1, .f32⟩ : BufTy).Contents (Elt F)),
    StableHlo.unary main_v91 main_v93 (broadcastInDim S16384x256x1 ![0, 1] bcast_S16384x256_S16384x256x1_0_1 : (⟨S16384x256, .f32⟩ : BufTy).Contents (Elt F) → (⟨S16384x256x1, .f32⟩ : BufTy).Contents (Elt F)),
    StableHlo.binary main_v92 main_v93 main_v94 ((fun a b => concatenate S16384x256x2 2 [⟨S16384x256x1, a⟩, ⟨S16384x256x1, b⟩] concatenates_S16384x256x1_S16384x256x1_S16384x256x2_d2) : (⟨S16384x256x1, .f32⟩ : BufTy).Contents (Elt F) → (⟨S16384x256x1, .f32⟩ : BufTy).Contents (Elt F) → (⟨S16384x256x2, .f32⟩ : BufTy).Contents (Elt F)),
    StableHlo.reshape main_v94 main_v95 rfl shapeCasts_S16384x256x2_S16384x512 ]
/-- Each touches TensorCore buffers only. -/
theorem segL8_sub : (segL8 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v104`. -/
abbrev segL9 : List (HloOp τ sig (Elt F)) :=
  [ StableHlo.unary main_v13 main_v96 ((extractStridedSlice S16384x512 ![0, 511] · slices_S16384x4095_S16384x512_0_511) : (⟨S16384x4095, .f32⟩ : BufTy).Contents (Elt F) → (⟨S16384x512, .f32⟩ : BufTy).Contents (Elt F)),
    StableHlo.binary main_v95 main_v96 main_v97 (mulf : (⟨S16384x512, .f32⟩ : BufTy).Contents (Elt F) → (⟨S16384x512, .f32⟩ : BufTy).Contents (Elt F) → (⟨S16384x512, .f32⟩ : BufTy).Contents (Elt F)),
    StableHlo.nullary main_cst_11 (constant S_ .f32 0x3F800000#32),
    StableHlo.unary main_cst_11 main_v98 (broadcastInDim S16384x512 ![] bcast_S_S16384x512 : (⟨S_, .f32⟩ : BufTy).Contents (Elt F) → (⟨S16384x512, .f32⟩ : BufTy).Contents (Elt F)),
    StableHlo.binary main_v98 main_v96 main_v99 (subf : (⟨S16384x512, .f32⟩ : BufTy).Contents (Elt F) → (⟨S16384x512, .f32⟩ : BufTy).Contents (Elt F) → (⟨S16384x512, .f32⟩ : BufTy).Contents (Elt F)),
    StableHlo.binary main_v95 main_v99 main_v100 (mulf : (⟨S16384x512, .f32⟩ : BufTy).Contents (Elt F) → (⟨S16384x512, .f32⟩ : BufTy).Contents (Elt F) → (⟨S16384x512, .f32⟩ : BufTy).Contents (Elt F)),
    StableHlo.unary main_v97 main_v101 (broadcastInDim S16384x512x1 ![0, 1] bcast_S16384x512_S16384x512x1_0_1 : (⟨S16384x512, .f32⟩ : BufTy).Contents (Elt F) → (⟨S16384x512x1, .f32⟩ : BufTy).Contents (Elt F)),
    StableHlo.unary main_v100 main_v102 (broadcastInDim S16384x512x1 ![0, 1] bcast_S16384x512_S16384x512x1_0_1 : (⟨S16384x512, .f32⟩ : BufTy).Contents (Elt F) → (⟨S16384x512x1, .f32⟩ : BufTy).Contents (Elt F)),
    StableHlo.binary main_v101 main_v102 main_v103 ((fun a b => concatenate S16384x512x2 2 [⟨S16384x512x1, a⟩, ⟨S16384x512x1, b⟩] concatenates_S16384x512x1_S16384x512x1_S16384x512x2_d2) : (⟨S16384x512x1, .f32⟩ : BufTy).Contents (Elt F) → (⟨S16384x512x1, .f32⟩ : BufTy).Contents (Elt F) → (⟨S16384x512x2, .f32⟩ : BufTy).Contents (Elt F)),
    StableHlo.reshape main_v103 main_v104 rfl shapeCasts_S16384x512x2_S16384x1024 ]
/-- Each touches TensorCore buffers only. -/
theorem segL9_sub : (segL9 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v113`. -/
abbrev segL10 : List (HloOp τ sig (Elt F)) :=
  [ StableHlo.unary main_v13 main_v105 ((extractStridedSlice S16384x1024 ![0, 1023] · slices_S16384x4095_S16384x1024_0_1023) : (⟨S16384x4095, .f32⟩ : BufTy).Contents (Elt F) → (⟨S16384x1024, .f32⟩ : BufTy).Contents (Elt F)),
    StableHlo.binary main_v104 main_v105 main_v106 (mulf : (⟨S16384x1024, .f32⟩ : BufTy).Contents (Elt F) → (⟨S16384x1024, .f32⟩ : BufTy).Contents (Elt F) → (⟨S16384x1024, .f32⟩ : BufTy).Contents (Elt F)),
    StableHlo.nullary main_cst_12 (constant S_ .f32 0x3F800000#32),
    StableHlo.unary main_cst_12 main_v107 (broadcastInDim S16384x1024 ![] bcast_S_S16384x1024 : (⟨S_, .f32⟩ : BufTy).Contents (Elt F) → (⟨S16384x1024, .f32⟩ : BufTy).Contents (Elt F)),
    StableHlo.binary main_v107 main_v105 main_v108 (subf : (⟨S16384x1024, .f32⟩ : BufTy).Contents (Elt F) → (⟨S16384x1024, .f32⟩ : BufTy).Contents (Elt F) → (⟨S16384x1024, .f32⟩ : BufTy).Contents (Elt F)),
    StableHlo.binary main_v104 main_v108 main_v109 (mulf : (⟨S16384x1024, .f32⟩ : BufTy).Contents (Elt F) → (⟨S16384x1024, .f32⟩ : BufTy).Contents (Elt F) → (⟨S16384x1024, .f32⟩ : BufTy).Contents (Elt F)),
    StableHlo.unary main_v106 main_v110 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v109 main_v111 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.binary main_v110 main_v111 main_v112 ((fun a b => concatenate S16384x1024x2 2 [⟨S16384x1024x1, a⟩, ⟨S16384x1024x1, b⟩] concatenates_S16384x1024x1_S16384x1024x1_S16384x1024x2_d2) : (⟨S16384x1024x1, .f32⟩ : BufTy).Contents (Elt F) → (⟨S16384x1024x1, .f32⟩ : BufTy).Contents (Elt F) → (⟨S16384x1024x2, .f32⟩ : BufTy).Contents (Elt F)),
    StableHlo.reshape main_v112 main_v113 rfl shapeCasts_S16384x1024x2_S16384x2048 ]
/-- Each touches TensorCore buffers only. -/
theorem segL10_sub : (segL10 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 10 operations, the last writing `main_v122`. -/
abbrev segL11 : List (HloOp τ sig (Elt F)) :=
  [ StableHlo.unary main_v13 main_v114 ((extractStridedSlice S16384x2048 ![0, 2047] · slices_S16384x4095_S16384x2048_0_2047) : (⟨S16384x4095, .f32⟩ : BufTy).Contents (Elt F) → (⟨S16384x2048, .f32⟩ : BufTy).Contents (Elt F)),
    StableHlo.binary main_v113 main_v114 main_v115 (mulf : (⟨S16384x2048, .f32⟩ : BufTy).Contents (Elt F) → (⟨S16384x2048, .f32⟩ : BufTy).Contents (Elt F) → (⟨S16384x2048, .f32⟩ : BufTy).Contents (Elt F)),
    StableHlo.nullary main_cst_13 (constant S_ .f32 0x3F800000#32),
    StableHlo.unary main_cst_13 main_v116 (broadcastInDim S16384x2048 ![] bcast_S_S16384x2048 : (⟨S_, .f32⟩ : BufTy).Contents (Elt F) → (⟨S16384x2048, .f32⟩ : BufTy).Contents (Elt F)),
    StableHlo.binary main_v116 main_v114 main_v117 (subf : (⟨S16384x2048, .f32⟩ : BufTy).Contents (Elt F) → (⟨S16384x2048, .f32⟩ : BufTy).Contents (Elt F) → (⟨S16384x2048, .f32⟩ : BufTy).Contents (Elt F)),
    StableHlo.binary main_v113 main_v117 main_v118 (mulf : (⟨S16384x2048, .f32⟩ : BufTy).Contents (Elt F) → (⟨S16384x2048, .f32⟩ : BufTy).Contents (Elt F) → (⟨S16384x2048, .f32⟩ : BufTy).Contents (Elt F)),
    StableHlo.unary main_v115 main_v119 (broadcastInDim S16384x2048x1 ![0, 1] bcast_S16384x2048_S16384x2048x1_0_1 : (⟨S16384x2048, .f32⟩ : BufTy).Contents (Elt F) → (⟨S16384x2048x1, .f32⟩ : BufTy).Contents (Elt F)),
    StableHlo.unary main_v118 main_v120 (broadcastInDim S16384x2048x1 ![0, 1] bcast_S16384x2048_S16384x2048x1_0_1 : (⟨S16384x2048, .f32⟩ : BufTy).Contents (Elt F) → (⟨S16384x2048x1, .f32⟩ : BufTy).Contents (Elt F)),
    StableHlo.binary main_v119 main_v120 main_v121 ((fun a b => concatenate S16384x2048x2 2 [⟨S16384x2048x1, a⟩, ⟨S16384x2048x1, b⟩] concatenates_S16384x2048x1_S16384x2048x1_S16384x2048x2_d2) : (⟨S16384x2048x1, .f32⟩ : BufTy).Contents (Elt F) → (⟨S16384x2048x1, .f32⟩ : BufTy).Contents (Elt F) → (⟨S16384x2048x2, .f32⟩ : BufTy).Contents (Elt F)),
    StableHlo.reshape main_v121 main_v122 rfl shapeCasts_S16384x2048x2_S16384x4096 ]
/-- Each touches TensorCore buffers only. -/
theorem segL11_sub : (segL11 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., reshape_bufs_sub ..⟩

/-- 13 operations, the last writing `main_v132`. -/
abbrev segF : List (HloOp τ sig (Elt F)) :=
  [ StableHlo.unary main_arg4 main_v123 (Host.negf : (⟨S4096, .f32⟩ : BufTy).Contents (Elt F) → (⟨S4096, .f32⟩ : BufTy).Contents (Elt F)),
    StableHlo.unary main_v123 main_v124 (Host.exp : (⟨S4096, .f32⟩ : BufTy).Contents (Elt F) → (⟨S4096, .f32⟩ : BufTy).Contents (Elt F)),
    StableHlo.nullary main_cst_14 (constant S_ .f32 0x3F800000#32),
    StableHlo.unary main_cst_14 main_v125 (broadcastInDim S4096 ![] bcast_S_S4096 : (⟨S_, .f32⟩ : BufTy).Contents (Elt F) → (⟨S4096, .f32⟩ : BufTy).Contents (Elt F)),
    StableHlo.binary main_v125 main_v124 main_v126 (addf : (⟨S4096, .f32⟩ : BufTy).Contents (Elt F) → (⟨S4096, .f32⟩ : BufTy).Contents (Elt F) → (⟨S4096, .f32⟩ : BufTy).Contents (Elt F)),
    StableHlo.nullary main_cst_15 (constant S_ .f32 0x3F800000#32),
    StableHlo.unary main_cst_15 main_v127 (broadcastInDim S4096 ![] bcast_S_S4096 : (⟨S_, .f32⟩ : BufTy).Contents (Elt F) → (⟨S4096, .f32⟩ : BufTy).Contents (Elt F)),
    StableHlo.binary main_v127 main_v126 main_v128 (Host.divf : (⟨S4096, .f32⟩ : BufTy).Contents (Elt F) → (⟨S4096, .f32⟩ : BufTy).Contents (Elt F) → (⟨S4096, .f32⟩ : BufTy).Contents (Elt F)),
    StableHlo.unary main_v128 main_v129 (broadcastInDim S1x4096 ![1] bcast_S4096_S1x4096_1 : (⟨S4096, .f32⟩ : BufTy).Contents (Elt F) → (⟨S1x4096, .f32⟩ : BufTy).Contents (Elt F)),
    StableHlo.unary main_v129 main_v130 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v130 main_v122 main_v131 (mulf : (⟨S16384x4096, .f32⟩ : BufTy).Contents (Elt F) → (⟨S16384x4096, .f32⟩ : BufTy).Contents (Elt F) → (⟨S16384x4096, .f32⟩ : BufTy).Contents (Elt F)),
    StableHlo.nullary main_cst_16 (constant S_ .f32 0x00000000#32),
    StableHlo.binary main_v131 main_cst_16 main_v132 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)) ]
/-- Each touches TensorCore buffers only. -/
theorem segF_sub : (segF : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub ..⟩

/-- Every stretch, in order. -/
abbrev segs : List (List (HloOp τ sig (Elt F))) := [segP, segL0, segL1, segL2, segL3, segL4, segL5, segL6, segL7, segL8, segL9, segL10, segL11, segF]

/-- @main's operations, in order. -/
abbrev ops : List (HloOp τ sig (Elt F)) := segP ++ (segL0 ++ (segL1 ++ (segL2 ++ (segL3 ++ (segL4 ++ (segL5 ++ (segL6 ++ (segL7 ++ (segL8 ++ (segL9 ++ (segL10 ++ (segL11 ++ (segF)))))))))))))

end Cert.ReferenceIdeal.RefOps

end
-- ==== Proof.RefFold.lean ====
/-
  One level of the reference's top-down interleave, read at an index, and its last step, the leaf-weighted sum.

  Level `d` holds, per batch row, the `w = 2^d` path products down to that level.  The next level is built by
  multiplying each by its node's number `p` (left child) and by `1 - p` (right child), stacking the two on a new last
  axis and flattening: entry `j` of the new row is `old[j / 2]` times `p[j / 2]` if `j` is even and `1 - p[j / 2]` if
  odd — the recursion of `TreeMath.pathProd`.  The node numbers of the level sit in columns `o … o + w - 1` of the
  table of all node numbers.  When every entry involved is a real number the extended-real operations are the real ones.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal
import Idealize.ShloMosaic.PureOps.Ideal.Laws
import proofs.«407249_j24060406792344_3_alg».proof.Proof.Spec
import proofs.«407249_j24060406792344_3_alg».proof.Proof.Sigmoid

noncomputable section

namespace Cert.RefFold

open Idealize.ShloMosaic Idealize.ShloMosaic.ValueIdx

/-- The scalar one broadcast to any shape reads one everywhere. -/
theorem one_apply {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply, constant_apply, Ideal.ofBits_one_f32]

/-- A matrix given a trailing unit axis reads the matrix at the two leading coordinates. -/
theorem unit_axis_apply {w : ℕ} (hb : (⟨2, ![16384, w]⟩ : Shape).BroadcastsInDim ⟨3, ![16384, w, 1]⟩ ![0, 1])
    (Y : (⟨2, ![16384, w]⟩ : Shape).Idx → EReal) (i : Fin 16384) (q : Fin w) (z : Fin 1) :
    broadcastInDim ⟨3, ![16384, w, 1]⟩ ![0, 1] hb Y (ix3 i q z) = Y (ix2 i q) :=
  broadcastInDim_apply ![0, 1] hb Y (ix3 i q z) (ix2 i q) (fun a => by
    match a with
    | ⟨0, _⟩ =>
      have h1 : ¬ ((⟨2, ![16384, w]⟩ : Shape).size (0 : Fin 2) = 1) := by show ¬ ((16384 : ℕ) = 1); omega
      exact (if_neg h1).symm
    | ⟨1, _⟩ =>
      show q.val = if w = 1 then 0 else q.val
      have := q.isLt
      split <;> omega)

/-- One interleave level at entry `(i, j)`. -/
theorem interleave_apply {n w w2 : ℕ} (hw2 : w2 = 2 * w) (o : ℕ)
    (P : (⟨2, ![16384, n]⟩ : Shape).Idx → EReal) (O : (⟨2, ![16384, w]⟩ : Shape).Idx → EReal)
    (hP : (⟨2, ![16384, n]⟩ : Shape).Slices ![0, o] ⟨2, ![16384, w]⟩)
    (hb0 : (⟨0, ![]⟩ : Shape).BroadcastsInDim ⟨2, ![16384, w]⟩ ![])
    (hb : (⟨2, ![16384, w]⟩ : Shape).BroadcastsInDim ⟨3, ![16384, w, 1]⟩ ![0, 1])
    (hc : Shape.Concatenates [(⟨3, ![16384, w, 1]⟩ : Shape), ⟨3, ![16384, w, 1]⟩] ⟨3, ![16384, w, 2]⟩ 2)
    (hs : (⟨3, ![16384, w, 2]⟩ : Shape).ShapeCasts ⟨2, ![16384, w2]⟩)
    (pr vr : ℕ → ℕ → ℝ)
    (hPr : ∀ (i : Fin 16384) (c : Fin n), P (ix2 i c) = ((pr i.val c.val : ℝ) : EReal))
    (hOr : ∀ (i : Fin 16384) (k : Fin w), O (ix2 i k) = ((vr i.val k.val : ℝ) : EReal))
    (i : Fin 16384) (j : Fin w2) :
    shapeCast ⟨2, ![16384, w2]⟩
        (concatenate ⟨3, ![16384, w, 2]⟩ 2
          [⟨⟨3, ![16384, w, 1]⟩, broadcastInDim ⟨3, ![16384, w, 1]⟩ ![0, 1] hb
              (mulf (F := Ideal) (φ := .f32) O (extractStridedSlice ⟨2, ![16384, w]⟩ ![0, o] P hP))⟩,
           ⟨⟨3, ![16384, w, 1]⟩, broadcastInDim ⟨3, ![16384, w, 1]⟩ ![0, 1] hb
              (mulf (F := Ideal) (φ := .f32) O
                (subf (F := Ideal) (φ := .f32)
                  (broadcastInDim ⟨2, ![16384, w]⟩ ![] hb0 (constant (F := Ideal) ⟨0, ![]⟩ .f32 0x3F800000#32))
                  (extractStridedSlice ⟨2, ![16384, w]⟩ ![0, o] P hP)))⟩] hc) hs (ix2 i j)
      = ((vr i.val (j.val / 2) * (if j.val % 2 = 0 then pr i.val (o + j.val / 2) else 1 - pr i.val (o + j.val / 2)) : ℝ) : EReal) := by
  subst hw2
  have hj := j.isLt
  have hq : j.val / 2 < w := by omega
  have hm : j.val % 2 < 2 := by omega
  refine (shapeCast_apply _ hs (ix2 i j) (ix3 i (⟨j.val / 2, hq⟩ : Fin w) (⟨j.val % 2, hm⟩ : Fin 2)) ?_).trans ?_
  · rw [Shape.rowMajor_val_three, Shape.rowMajor_val_two]
    show (i.val * w + j.val / 2) * 2 + j.val % 2 = i.val * (2 * w) + j.val
    have e : i.val * (2 * w) = 2 * (i.val * w) := Nat.mul_left_comm _ _ _
    omega
  · rcases Nat.mod_two_eq_zero_or_one j.val with h0 | h1
    · refine (concatenate_pair_apply_left _ _ _ hc _ rfl (ix3 i (⟨j.val / 2, hq⟩ : Fin w) (0 : Fin 1)) (fun b => by
        match b with
        | ⟨0, _⟩ => rfl
        | ⟨1, _⟩ => rfl
        | ⟨2, _⟩ => exact h0.symm)).trans ?_
      rw [unit_axis_apply, mulf_apply, slice2_axis1_eq o P hP i ⟨j.val / 2, hq⟩, hPr, hOr, if_pos h0, EReal.coe_mul]
    · refine (concatenate_pair_apply_right _ _ _ hc _ rfl rfl (ix3 i (⟨j.val / 2, hq⟩ : Fin w) (0 : Fin 1)) (fun b hb => by
        match b, hb with
        | ⟨0, _⟩, _ => rfl
        | ⟨1, _⟩, _ => rfl
        | ⟨2, _⟩, hb => exact absurd rfl hb) ?_).trans ?_
      · show 0 + 1 = j.val % 2
        omega
      · have hne : ¬ (j.val % 2 = 0) := by omega
        rw [unit_axis_apply, mulf_apply, subf_apply, one_apply, slice2_axis1_eq o P hP i ⟨j.val / 2, hq⟩, hPr, hOr,
          if_neg hne, EReal.coe_mul, EReal.coe_sub, EReal.coe_one]

/-- Level 0 starts from the all-ones column. -/
theorem ones_apply (hb0 : (⟨0, ![]⟩ : Shape).BroadcastsInDim ⟨2, ![16384, 1]⟩ ![]) (i : Fin 16384) (k : Fin 1) :
    broadcastInDim ⟨2, ![16384, 1]⟩ ![] hb0 (constant (F := Ideal) ⟨0, ![]⟩ .f32 0x3F800000#32) (ix2 i k) = ((1 : ℝ) : EReal) := by
  rw [one_apply, EReal.coe_one]

/-- The reference's logistic function of a real entry: `1 / (1 + e^(-x))`, the constant broadcast from a scalar. -/
theorem ref_sig_apply {s : Shape} (hb0 : (⟨0, ![]⟩ : Shape).BroadcastsInDim s ![]) (X : s.Idx → EReal) (i : s.Idx) (r : ℝ)
    (hX : X i = ((r : ℝ) : EReal)) :
    Host.divf (F := Ideal) (φ := .f32) (broadcastInDim s ![] hb0 (constant (F := Ideal) ⟨0, ![]⟩ .f32 0x3F800000#32))
        (addf (F := Ideal) (φ := .f32) (broadcastInDim s ![] hb0 (constant (F := Ideal) ⟨0, ![]⟩ .f32 0x3F800000#32))
          (Host.exp (F := Ideal) (φ := .f32) (Host.negf (F := Ideal) (φ := .f32) X))) i
      = ((Cert.Spec.sig r : ℝ) : EReal) := by
  show Ideal.div (broadcastInDim s ![] hb0 (constant (F := Ideal) ⟨0, ![]⟩ .f32 0x3F800000#32) i)
      (broadcastInDim s ![] hb0 (constant (F := Ideal) ⟨0, ![]⟩ .f32 0x3F800000#32) i + Ideal.exp (-(X i))) = _
  rw [one_apply, hX]
  exact Cert.Sigmoid.ref_form r

end Cert.RefFold

end
-- ==== Proof.RefRun.lean ====
/-
  The reference's @main is a straight line of 151 host operations; its run ends with every buffer at the fold of the
  operations' results over the launch contents.  The line is read in fourteen stretches, so the fold over the whole
  line is the fold over the stretches in turn (`after_append`).
-/
import proofs.«407249_j24060406792344_3_alg».proof.Proof.RefOps
import Idealize.ShloMosaic.Lib.StableHlo.Run
import Mathlib.Data.List.Basic

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The fold over two lines in turn is the fold over their concatenation. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- @main is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.mpr ⟨segP_sub,
  List.forall_append.mpr ⟨segL0_sub,
  List.forall_append.mpr ⟨segL1_sub,
  List.forall_append.mpr ⟨segL2_sub,
  List.forall_append.mpr ⟨segL3_sub,
  List.forall_append.mpr ⟨segL4_sub,
  List.forall_append.mpr ⟨segL5_sub,
  List.forall_append.mpr ⟨segL6_sub,
  List.forall_append.mpr ⟨segL7_sub,
  List.forall_append.mpr ⟨segL8_sub,
  List.forall_append.mpr ⟨segL9_sub,
  List.forall_append.mpr ⟨segL10_sub,
  List.forall_append.mpr ⟨segL11_sub,
  segF_sub⟩⟩⟩⟩⟩⟩⟩⟩⟩⟩⟩⟩⟩

theorem segP_fresh : (segP : List (HloOp τ sig (Elt F))).Forall fun op => op.fresh = ∅ :=
  ⟨rfl, rfl, rfl, rfl, rfl, rfl, rfl, rfl, rfl, rfl, rfl, rfl, rfl, rfl, rfl, rfl⟩
theorem segL0_fresh : (segL0 : List (HloOp τ sig (Elt F))).Forall fun op => op.fresh = ∅ :=
  ⟨rfl, rfl, rfl, rfl, rfl, rfl, rfl, rfl, rfl, rfl, rfl, rfl⟩
theorem segL1_fresh : (segL1 : List (HloOp τ sig (Elt F))).Forall fun op => op.fresh = ∅ :=
  ⟨rfl, rfl, rfl, rfl, rfl, rfl, rfl, rfl, rfl, rfl⟩
theorem segL2_fresh : (segL2 : List (HloOp τ sig (Elt F))).Forall fun op => op.fresh = ∅ :=
  ⟨rfl, rfl, rfl, rfl, rfl, rfl, rfl, rfl, rfl, rfl⟩
theorem segL3_fresh : (segL3 : List (HloOp τ sig (Elt F))).Forall fun op => op.fresh = ∅ :=
  ⟨rfl, rfl, rfl, rfl, rfl, rfl, rfl, rfl, rfl, rfl⟩
theorem segL4_fresh : (segL4 : List (HloOp τ sig (Elt F))).Forall fun op => op.fresh = ∅ :=
  ⟨rfl, rfl, rfl, rfl, rfl, rfl, rfl, rfl, rfl, rfl⟩
theorem segL5_fresh : (segL5 : List (HloOp τ sig (Elt F))).Forall fun op => op.fresh = ∅ :=
  ⟨rfl, rfl, rfl, rfl, rfl, rfl, rfl, rfl, rfl, rfl⟩
theorem segL6_fresh : (segL6 : List (HloOp τ sig (Elt F))).Forall fun op => op.fresh = ∅ :=
  ⟨rfl, rfl, rfl, rfl, rfl, rfl, rfl, rfl, rfl, rfl⟩
theorem segL7_fresh : (segL7 : List (HloOp τ sig (Elt F))).Forall fun op => op.fresh = ∅ :=
  ⟨rfl, rfl, rfl, rfl, rfl, rfl, rfl, rfl, rfl, rfl⟩
theorem segL8_fresh : (segL8 : List (HloOp τ sig (Elt F))).Forall fun op => op.fresh = ∅ :=
  ⟨rfl, rfl, rfl, rfl, rfl, rfl, rfl, rfl, rfl, rfl⟩
theorem segL9_fresh : (segL9 : List (HloOp τ sig (Elt F))).Forall fun op => op.fresh = ∅ :=
  ⟨rfl, rfl, rfl, rfl, rfl, rfl, rfl, rfl, rfl, rfl⟩
theorem segL10_fresh : (segL10 : List (HloOp τ sig (Elt F))).Forall fun op => op.fresh = ∅ :=
  ⟨rfl, rfl, rfl, rfl, rfl, rfl, rfl, rfl, rfl, rfl⟩
theorem segL11_fresh : (segL11 : List (HloOp τ sig (Elt F))).Forall fun op => op.fresh = ∅ :=
  ⟨rfl, rfl, rfl, rfl, rfl, rfl, rfl, rfl, rfl, rfl⟩
theorem segF_fresh : (segF : List (HloOp τ sig (Elt F))).Forall fun op => op.fresh = ∅ :=
  ⟨rfl, rfl, rfl, rfl, rfl, rfl, rfl, rfl, rfl, rfl, rfl, rfl, rfl⟩

/-- Every operation determines its results. -/
theorem ops_fresh : (ops : List (HloOp τ sig (Elt F))).Forall fun op => op.fresh = ∅ :=
  List.forall_append.mpr ⟨segP_fresh,
  List.forall_append.mpr ⟨segL0_fresh,
  List.forall_append.mpr ⟨segL1_fresh,
  List.forall_append.mpr ⟨segL2_fresh,
  List.forall_append.mpr ⟨segL3_fresh,
  List.forall_append.mpr ⟨segL4_fresh,
  List.forall_append.mpr ⟨segL5_fresh,
  List.forall_append.mpr ⟨segL6_fresh,
  List.forall_append.mpr ⟨segL7_fresh,
  List.forall_append.mpr ⟨segL8_fresh,
  List.forall_append.mpr ⟨segL9_fresh,
  List.forall_append.mpr ⟨segL10_fresh,
  List.forall_append.mpr ⟨segL11_fresh,
  segF_fresh⟩⟩⟩⟩⟩⟩⟩⟩⟩⟩⟩⟩⟩

/-- Every weakly fair execution of @main terminates with each buffer at the fold of the operations over the launch
    contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefLeaves.lean ====
/-
  The reference's last stretch, read at an index: the leaves' numbers `σ(leaves_q)`, copied down the batch rows,
  multiply the last level's path products entrywise, and each batch row is summed over its 4096 entries from a zero
  initial value.  When the leaf array and the path products hold real numbers, entry `i` of the result is the real sum
  `∑ q < 4096, σ(leaves_q) · v(i, q)`.
-/
import proofs.«407249_j24060406792344_3_alg».proof.Proof.RefOps
import proofs.«407249_j24060406792344_3_alg».proof.Proof.RefFold
import proofs.«407249_j24060406792344_3_alg».proof.Proof.Spec
import Idealize.ShloMosaic.Lib.StableHlo.Run
import Idealize.ShloMosaic.Lib.Pipeline.Value
import Idealize.ShloMosaic.Lib.IdealHost
import Idealize.ShloMosaic.PureOps.Ideal.Laws

noncomputable section

namespace Cert.ReferenceIdeal.RefLeaves

open Cert.ReferenceIdeal Cert.ReferenceIdeal.Gen Cert.ReferenceIdeal.RefOps
open Idealize.ShloMosaic Idealize.ShloMosaic.TcCoe Idealize.ShloMosaic.ValueIdx Idealize.SL.Sem Idealize.ShloMosaic.StableHlo

/-- The cast of a finite sum of reals is the sum of the casts. -/
theorem coe_sum {ι : Type} (t : Finset ι) (f : ι → ℝ) : ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The leaves' numbers, copied down the batch rows, read at `(i, q)`: the logistic function of leaf `q`. -/
theorem leafrow_apply (L : (⟨1, ![4096]⟩ : Shape).Idx → EReal) (hLr : ∀ j, L j = ((L j).toReal : EReal))
    (i : Fin 16384) (q : Fin 4096) :
    broadcastInDim S16384x4096 ![0, 1] bcast_S1x4096_S16384x4096_0_1
        (broadcastInDim S1x4096 ![1] bcast_S4096_S1x4096_1
          (Host.divf (F := Ideal) (φ := .f32) (broadcastInDim S4096 ![] bcast_S_S4096 (constant (F := Ideal) S_ .f32 0x3F800000#32))
            (addf (F := Ideal) (φ := .f32) (broadcastInDim S4096 ![] bcast_S_S4096 (constant (F := Ideal) S_ .f32 0x3F800000#32))
              (Host.exp (F := Ideal) (φ := .f32) (Host.negf (F := Ideal) (φ := .f32) L))))) (ix2 i q)
      = ((Cert.Spec.leaf L q.val : ℝ) : EReal) := by
  refine (broadcastInDim_apply ![0, 1] bcast_S1x4096_S16384x4096_0_1 _ (ix2 i q) (ix2 (0 : Fin 1) q) (fun a => ?_)).trans ?_
  · match a with
    | ⟨0, _⟩ => exact (if_pos rfl).symm
    | ⟨1, _⟩ =>
      have h1 : ¬ (S1x4096.size (1 : Fin 2) = 1) := by decide
      exact (if_neg h1).symm
  refine (broadcastInDim_apply ![1] bcast_S4096_S1x4096_1 _ (ix2 (0 : Fin 1) q) (ix1 q) (fun a => ?_)).trans ?_
  · match a with
    | ⟨0, _⟩ =>
      have h1 : ¬ (S4096.size (0 : Fin 1) = 1) := by decide
      exact (if_neg h1).symm
  rw [Cert.RefFold.ref_sig_apply bcast_S_S4096 L (ix1 q) (L (ix1 q)).toReal (hLr _)]
  unfold Cert.Spec.leaf
  rw [Cert.Spec.nat1_of_lt]

/-- The last stretch's result at batch row `i`. -/
theorem segF_value (V : Valuation τ sig (Elt Ideal)) (L : (⟨1, ![4096]⟩ : Shape).Idx → EReal)
    (hL : V (Proc.devRef .tc main_arg4) = L) (hLr : ∀ j, L j = ((L j).toReal : EReal)) (vr : ℕ → ℕ → ℝ)
    (hO : ∀ (i : Fin 16384) (q : Fin 4096), V (Proc.devRef .tc main_v122) (ix2 i q) = ((vr i.val q.val : ℝ) : EReal))
    (i : Fin 16384) :
    after segF V (Proc.devRef .tc main_v132) (ix1 i)
      = ((∑ q ∈ Finset.range 4096, Cert.Spec.leaf L q * vr i.val q : ℝ) : EReal) := by
  after_results
  change (_ : EReal) = _
  have hR : S16384x4096.Reduces [1] S16384 := by decide
  rw [hL, hostReduceAdd_apply, Ideal.hostReduceAdd_single reducesTo_S16384x4096_S16384_d1 hR]
  rw [constant_apply, Ideal.ofBits_zero_f32, zero_add]
  rw [coe_sum, ← Fin.sum_univ_eq_sum_range (fun q => ((Cert.Spec.leaf L q * vr i.val q : ℝ) : EReal)) 4096]
  refine Finset.sum_congr rfl fun (k : Fin 4096) _ => ?_
  have hl : hR.lift (ix1 i) k = ix2 i k := funext fun a => Fin.ext (by
    match a with
    | ⟨0, _⟩ => rfl
    | ⟨1, _⟩ => rfl)
  rw [hl, mulf_apply, leafrow_apply L hLr i k, hO i k, EReal.coe_mul]

end Cert.ReferenceIdeal.RefLeaves

end
-- ==== Proof.RefValue.lean ====
/-
  The reference's run, read: after every weakly fair execution the result array is the specification `Spec.G` of the five
  argument arrays, and the arguments are unchanged.

  @main is a straight line of host operations, read here one stretch at a time: the table of all node numbers
  `σ((⟨x_i, W_n⟩ + b_n) · s_n)`; twelve interleave levels, each the previous level's path products times the level's node
  numbers or their complements (`RefFold.interleave_apply`, the recursion of `TreeMath.pathProd`); and the sum over the
  leaves of `σ(leaves_q)` times the last level's path products.
-/
import proofs.«407249_j24060406792344_3_alg».proof.Proof.RefOps
import proofs.«407249_j24060406792344_3_alg».proof.Proof.RefFold
import proofs.«407249_j24060406792344_3_alg».proof.Proof.Matmul
import proofs.«407249_j24060406792344_3_alg».proof.Proof.Spec
import proofs.«407249_j24060406792344_3_alg».proof.Proof.TreeMath
import Idealize.ShloMosaic.Lib.StableHlo.Run
import Idealize.ShloMosaic.Lib.Pipeline.Value
import Idealize.ShloMosaic.Lib.IdealHost
import proofs.«407249_j24060406792344_3_alg».proof.Proof.RefRun
import proofs.«407249_j24060406792344_3_alg».proof.Proof.RefLeaves

noncomputable section

namespace Cert.ReferenceIdeal.RefValue

open Cert.ReferenceIdeal Cert.ReferenceIdeal.Gen Cert.ReferenceIdeal.RefOps
open Idealize.ShloMosaic Idealize.ShloMosaic.TcCoe Idealize.ShloMosaic.ValueIdx Idealize.SL.Sem Idealize.ShloMosaic.StableHlo

section Stretches

variable (X : (⟨2, ![16384, 512]⟩ : Shape).Idx → EReal) (W : (⟨2, ![4095, 512]⟩ : Shape).Idx → EReal)
  (B S : (⟨1, ![4095]⟩ : Shape).Idx → EReal) (L : (⟨1, ![4096]⟩ : Shape).Idx → EReal)

/-! ## What a stretch leaves alone -/

/-- The five arguments and the table of node numbers are the same in `V'` as in `V`. -/
structure Keeps (V V' : Valuation τ sig (Elt Ideal)) : Prop where
  a0 : V' (Proc.devRef .tc main_arg0) = V (Proc.devRef .tc main_arg0)
  a1 : V' (Proc.devRef .tc main_arg1) = V (Proc.devRef .tc main_arg1)
  a2 : V' (Proc.devRef .tc main_arg2) = V (Proc.devRef .tc main_arg2)
  a3 : V' (Proc.devRef .tc main_arg3) = V (Proc.devRef .tc main_arg3)
  a4 : V' (Proc.devRef .tc main_arg4) = V (Proc.devRef .tc main_arg4)
  p : V' (Proc.devRef .tc main_v13) = V (Proc.devRef .tc main_v13)

/-- The five arguments hold the arrays `X W B S L`. -/
structure Args (V : Valuation τ sig (Elt Ideal)) : Prop where
  x : V (Proc.devRef .tc main_arg0) = X
  w : V (Proc.devRef .tc main_arg1) = W
  b : V (Proc.devRef .tc main_arg2) = B
  s : V (Proc.devRef .tc main_arg3) = S
  l : V (Proc.devRef .tc main_arg4) = L

/-- The table of node numbers holds the logistic function of every pre-activation. -/
abbrev Table (V : Valuation τ sig (Elt Ideal)) : Prop :=
  ∀ (i : Fin 16384) (c : Fin 4095),
    V (Proc.devRef .tc main_v13) (ix2 i c) = ((Cert.Spec.sig (Cert.Spec.logit X W B S i.val c.val) : ℝ) : EReal)

variable {X W B S L}

theorem Args.keep {V V' : Valuation τ sig (Elt Ideal)} (h : Args X W B S L V) (k : Keeps V V') : Args X W B S L V' :=
  ⟨k.a0.trans h.x, k.a1.trans h.w, k.a2.trans h.b, k.a3.trans h.s, k.a4.trans h.l⟩

theorem Table.keep {V V' : Valuation τ sig (Elt Ideal)} (h : Table X W B S V) (k : Keeps V V') : Table X W B S V' :=
  fun i c => (congrFun k.p (ix2 i c)).trans (h i c)

variable (X W B S L)

/-! ## The table of node numbers -/

/-- The cast of a finite sum of reals is the sum of the casts. -/
theorem coe_sum {ι : Type} (t : Finset ι) (f : ι → ℝ) : ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- A vector of node parameters, made a one-row matrix and copied down the batch rows, reads the vector at the column. -/
theorem row_bcast_apply (Y : S4095.Idx → EReal) (i : Fin 16384) (c : Fin 4095) :
    broadcastInDim S16384x4095 ![0, 1] bcast_S1x4095_S16384x4095_0_1 (broadcastInDim S1x4095 ![1] bcast_S4095_S1x4095_1 Y) (ix2 i c)
      = Y (ix1 c) := by
  refine (broadcastInDim_apply ![0, 1] bcast_S1x4095_S16384x4095_0_1 _ (ix2 i c) (ix2 (0 : Fin 1) c) (fun a => by
    match a with
    | ⟨0, _⟩ => exact (if_pos rfl).symm
    | ⟨1, _⟩ =>
      have h1 : ¬ (S1x4095.size (1 : Fin 2) = 1) := by show ¬ ((4095 : ℕ) = 1); omega
      exact (if_neg h1).symm)).trans ?_
  exact broadcastInDim_apply ![1] bcast_S4095_S1x4095_1 Y (ix2 (0 : Fin 1) c) (ix1 c) (fun a => by
    match a with
    | ⟨0, _⟩ =>
      have h1 : ¬ (S4095.size (0 : Fin 1) = 1) := by show ¬ ((4095 : ℕ) = 1); omega
      exact (if_neg h1).symm)

/-- The pre-activations `(x · Wᵀ + b) · s`, as the reference computes them from the four arrays. -/
def preact (x : FVec Ideal S16384x512 .f32) (w : FVec Ideal S4095x512 .f32) (b s : FVec Ideal S4095 .f32) : FVec Ideal S16384x4095 .f32 :=
  mulf (F := Ideal) (φ := .f32)
    (addf (F := Ideal) (φ := .f32)
      (Host.dotGeneral (F := Ideal) (φ₁ := .f32) (φ₂ := .f32) dot_S16384x512_S512x4095_S16384x4095_1_0_0_1_n_n none x
        (transpose S512x4095 [1, 0] w transposes_S4095x512_S512x4095_1_0))
      (broadcastInDim S16384x4095 ![0, 1] bcast_S1x4095_S16384x4095_0_1 (broadcastInDim S1x4095 ![1] bcast_S4095_S1x4095_1 b)))
    (broadcastInDim S16384x4095 ![0, 1] bcast_S1x4095_S16384x4095_0_1 (broadcastInDim S1x4095 ![1] bcast_S4095_S1x4095_1 s))

/-- At real arguments the pre-activation at `(i, c)` is the specification's. -/
theorem preact_apply (hfin : Cert.Spec.Finite X W B S L) (i : Fin 16384) (c : Fin 4095) :
    preact X W B S (ix2 i c) = ((Cert.Spec.logit X W B S i.val c.val : ℝ) : EReal) := by
  have hx : ∀ k : Fin 512, X (ix2 i k) = ((Cert.Spec.nat2 X i.val k.val : ℝ) : EReal) := fun k => by
    rw [Cert.Spec.nat2_of_lt]; exact hfin.x _
  have hw : ∀ k : Fin 512, W (ix2 c k) = ((Cert.Spec.nat2 W c.val k.val : ℝ) : EReal) := fun k => by
    rw [Cert.Spec.nat2_of_lt]; exact hfin.W _
  have hb : B (ix1 c) = ((Cert.Spec.nat1 B c.val : ℝ) : EReal) := by rw [Cert.Spec.nat1_of_lt]; exact hfin.b _
  have hs : S (ix1 c) = ((Cert.Spec.nat1 S c.val : ℝ) : EReal) := by rw [Cert.Spec.nat1_of_lt]; exact hfin.s _
  have ht : ∀ k : Fin 512, transpose S512x4095 [1, 0] W transposes_S4095x512_S512x4095_1_0 (ix2 k c) = W (ix2 c k) := fun k =>
    transpose_apply [1, 0] W transposes_S4095x512_S512x4095_1_0 (ix2 k c) (ix2 c k) (fun b => by
      match b with
      | ⟨0, _⟩ => rfl
      | ⟨1, _⟩ => rfl)
  unfold preact
  rw [mulf_apply, addf_apply, Cert.Matmul.ref_dot_apply, row_bcast_apply, row_bcast_apply, hb, hs]
  simp only [ht, hx, hw, ← EReal.coe_mul]
  rw [← coe_sum, Fin.sum_univ_eq_sum_range (fun k => Cert.Spec.nat2 X i.val k * Cert.Spec.nat2 W c.val k) 512,
    ← EReal.coe_add, ← EReal.coe_mul]
  rfl

/-- The first stretch's result: the reference's logistic function of the pre-activations. -/
theorem segP_out (V : Valuation τ sig (Elt Ideal)) :
    after segP V (Proc.devRef .tc main_v13)
      = Host.divf (F := Ideal) (φ := .f32) (broadcastInDim S16384x4095 ![] bcast_S_S16384x4095 (constant (F := Ideal) S_ .f32 0x3F800000#32))
          (addf (F := Ideal) (φ := .f32) (broadcastInDim S16384x4095 ![] bcast_S_S16384x4095 (constant (F := Ideal) S_ .f32 0x3F800000#32))
            (Host.exp (F := Ideal) (φ := .f32) (Host.negf (F := Ideal) (φ := .f32)
              (preact (V (Proc.devRef .tc main_arg0)) (V (Proc.devRef .tc main_arg1)) (V (Proc.devRef .tc main_arg2))
                (V (Proc.devRef .tc main_arg3)))))) := by
  after_results
  rfl

/-- The first stretch leaves the arguments alone. -/
theorem segP_args (V : Valuation τ sig (Elt Ideal)) (h : Args X W B S L V) : Args X W B S L (after segP V) := by
  refine ⟨Eq.trans ?_ h.x, Eq.trans ?_ h.w, Eq.trans ?_ h.b, Eq.trans ?_ h.s, Eq.trans ?_ h.l⟩ <;> after_results_simp

/-- After the first stretch the table holds the node numbers. -/
theorem segP_table (V : Valuation τ sig (Elt Ideal)) (h : Args X W B S L V) (hfin : Cert.Spec.Finite X W B S L) :
    Table X W B S (after segP V) := fun i c => by
  rw [segP_out, h.x, h.w, h.b, h.s]
  exact Cert.RefFold.ref_sig_apply bcast_S_S16384x4095 _ (ix2 i c) _ (preact_apply X W B S L hfin i c)

/-! ## The twelve levels -/

/-- The recursion of the path products, with the level's node numbers read from the table at offset `o = 2^d - 1`. -/
theorem pathProd_step (i d o j : ℕ) (ho : o = 2 ^ d - 1) :
    Cert.TreeMath.pathProd (Cert.Spec.pnode X W B S i) d (j / 2)
        * (if j % 2 = 0 then Cert.Spec.sig (Cert.Spec.logit X W B S i (o + j / 2))
            else 1 - Cert.Spec.sig (Cert.Spec.logit X W B S i (o + j / 2)))
      = Cert.TreeMath.pathProd (Cert.Spec.pnode X W B S i) (d + 1) j := by
  subst ho; rfl

/-- Level 0 starts from the all-ones column: its result holds the path products of depth 1. -/
theorem level0 (V : Valuation τ sig (Elt Ideal)) (hT : Table X W B S V) (i : Fin 16384) (j : Fin 2) :
    after segL0 V (Proc.devRef .tc main_v23) (ix2 i j)
      = ((Cert.TreeMath.pathProd (Cert.Spec.pnode X W B S i.val) 1 j.val : ℝ) : EReal) := by
  refine Eq.trans ?_ ((Cert.RefFold.interleave_apply (n := 4095) (w := 1) rfl 0 (V (Proc.devRef .tc main_v13))
    (broadcastInDim S16384x1 ![] bcast_S_S16384x1 (constant (F := Ideal) S_ .f32 0x3F800000#32))
    slices_S16384x4095_S16384x1_0_0 bcast_S_S16384x1 bcast_S16384x1_S16384x1x1_0_1
    concatenates_S16384x1x1_S16384x1x1_S16384x1x2_d2 shapeCasts_S16384x1x2_S16384x2
    (fun a c => Cert.Spec.sig (Cert.Spec.logit X W B S a c)) (fun a k => Cert.TreeMath.pathProd (Cert.Spec.pnode X W B S a) 0 k)
    hT (fun a k => Cert.RefFold.ones_apply bcast_S_S16384x1 a k) i j).trans
      (congrArg (fun t : ℝ => (t : EReal)) (pathProd_step X W B S i.val 0 0 j.val (by norm_num))))
  after_results
  rfl

/-- Level 1: from the path products of depth 1 to those of depth 2. -/
theorem level1 (V : Valuation τ sig (Elt Ideal)) (hT : Table X W B S V)
    (hO : ∀ (i : Fin 16384) (k : Fin 2), V (Proc.devRef .tc main_v23) (ix2 i k)
      = ((Cert.TreeMath.pathProd (Cert.Spec.pnode X W B S i.val) 1 k.val : ℝ) : EReal))
    (i : Fin 16384) (j : Fin 4) :
    after segL1 V (Proc.devRef .tc main_v32) (ix2 i j)
      = ((Cert.TreeMath.pathProd (Cert.Spec.pnode X W B S i.val) 2 j.val : ℝ) : EReal) := by
  refine Eq.trans ?_ ((Cert.RefFold.interleave_apply (n := 4095) (w := 2) rfl 1 (V (Proc.devRef .tc main_v13))
    (V (Proc.devRef .tc main_v23)) slices_S16384x4095_S16384x2_0_1 bcast_S_S16384x2 bcast_S16384x2_S16384x2x1_0_1
    concatenates_S16384x2x1_S16384x2x1_S16384x2x2_d2 shapeCasts_S16384x2x2_S16384x4
    (fun a c => Cert.Spec.sig (Cert.Spec.logit X W B S a c)) (fun a k => Cert.TreeMath.pathProd (Cert.Spec.pnode X W B S a) 1 k)
    hT hO i j).trans
      (congrArg (fun t : ℝ => (t : EReal)) (pathProd_step X W B S i.val 1 1 j.val (by norm_num))))
  after_results
  rfl

/-- Level 2: from the path products of depth 2 to those of depth 3. -/
theorem level2 (V : Valuation τ sig (Elt Ideal)) (hT : Table X W B S V)
    (hO : ∀ (i : Fin 16384) (k : Fin 4), V (Proc.devRef .tc main_v32) (ix2 i k)
      = ((Cert.TreeMath.pathProd (Cert.Spec.pnode X W B S i.val) 2 k.val : ℝ) : EReal))
    (i : Fin 16384) (j : Fin 8) :
    after segL2 V (Proc.devRef .tc main_v41) (ix2 i j)
      = ((Cert.TreeMath.pathProd (Cert.Spec.pnode X W B S i.val) 3 j.val : ℝ) : EReal) := by
  refine Eq.trans ?_ ((Cert.RefFold.interleave_apply (n := 4095) (w := 4) rfl 3 (V (Proc.devRef .tc main_v13))
    (V (Proc.devRef .tc main_v32)) slices_S16384x4095_S16384x4_0_3 bcast_S_S16384x4 bcast_S16384x4_S16384x4x1_0_1
    concatenates_S16384x4x1_S16384x4x1_S16384x4x2_d2 shapeCasts_S16384x4x2_S16384x8
    (fun a c => Cert.Spec.sig (Cert.Spec.logit X W B S a c)) (fun a k => Cert.TreeMath.pathProd (Cert.Spec.pnode X W B S a) 2 k)
    hT hO i j).trans
      (congrArg (fun t : ℝ => (t : EReal)) (pathProd_step X W B S i.val 2 3 j.val (by norm_num))))
  after_results
  rfl

/-- Level 3: from the path products of depth 3 to those of depth 4. -/
theorem level3 (V : Valuation τ sig (Elt Ideal)) (hT : Table X W B S V)
    (hO : ∀ (i : Fin 16384) (k : Fin 8), V (Proc.devRef .tc main_v41) (ix2 i k)
      = ((Cert.TreeMath.pathProd (Cert.Spec.pnode X W B S i.val) 3 k.val : ℝ) : EReal))
    (i : Fin 16384) (j : Fin 16) :
    after segL3 V (Proc.devRef .tc main_v50) (ix2 i j)
      = ((Cert.TreeMath.pathProd (Cert.Spec.pnode X W B S i.val) 4 j.val : ℝ) : EReal) := by
  refine Eq.trans ?_ ((Cert.RefFold.interleave_apply (n := 4095) (w := 8) rfl 7 (V (Proc.devRef .tc main_v13))
    (V (Proc.devRef .tc main_v41)) slices_S16384x4095_S16384x8_0_7 bcast_S_S16384x8 bcast_S16384x8_S16384x8x1_0_1
    concatenates_S16384x8x1_S16384x8x1_S16384x8x2_d2 shapeCasts_S16384x8x2_S16384x16
    (fun a c => Cert.Spec.sig (Cert.Spec.logit X W B S a c)) (fun a k => Cert.TreeMath.pathProd (Cert.Spec.pnode X W B S a) 3 k)
    hT hO i j).trans
      (congrArg (fun t : ℝ => (t : EReal)) (pathProd_step X W B S i.val 3 7 j.val (by norm_num))))
  after_results
  rfl

/-- Level 4: from the path products of depth 4 to those of depth 5. -/
theorem level4 (V : Valuation τ sig (Elt Ideal)) (hT : Table X W B S V)
    (hO : ∀ (i : Fin 16384) (k : Fin 16), V (Proc.devRef .tc main_v50) (ix2 i k)
      = ((Cert.TreeMath.pathProd (Cert.Spec.pnode X W B S i.val) 4 k.val : ℝ) : EReal))
    (i : Fin 16384) (j : Fin 32) :
    after segL4 V (Proc.devRef .tc main_v59) (ix2 i j)
      = ((Cert.TreeMath.pathProd (Cert.Spec.pnode X W B S i.val) 5 j.val : ℝ) : EReal) := by
  refine Eq.trans ?_ ((Cert.RefFold.interleave_apply (n := 4095) (w := 16) rfl 15 (V (Proc.devRef .tc main_v13))
    (V (Proc.devRef .tc main_v50)) slices_S16384x4095_S16384x16_0_15 bcast_S_S16384x16 bcast_S16384x16_S16384x16x1_0_1
    concatenates_S16384x16x1_S16384x16x1_S16384x16x2_d2 shapeCasts_S16384x16x2_S16384x32
    (fun a c => Cert.Spec.sig (Cert.Spec.logit X W B S a c)) (fun a k => Cert.TreeMath.pathProd (Cert.Spec.pnode X W B S a) 4 k)
    hT hO i j).trans
      (congrArg (fun t : ℝ => (t : EReal)) (pathProd_step X W B S i.val 4 15 j.val (by norm_num))))
  after_results
  rfl

/-- Level 5: from the path products of depth 5 to those of depth 6. -/
theorem level5 (V : Valuation τ sig (Elt Ideal)) (hT : Table X W B S V)
    (hO : ∀ (i : Fin 16384) (k : Fin 32), V (Proc.devRef .tc main_v59) (ix2 i k)
      = ((Cert.TreeMath.pathProd (Cert.Spec.pnode X W B S i.val) 5 k.val : ℝ) : EReal))
    (i : Fin 16384) (j : Fin 64) :
    after segL5 V (Proc.devRef .tc main_v68) (ix2 i j)
      = ((Cert.TreeMath.pathProd (Cert.Spec.pnode X W B S i.val) 6 j.val : ℝ) : EReal) := by
  refine Eq.trans ?_ ((Cert.RefFold.interleave_apply (n := 4095) (w := 32) rfl 31 (V (Proc.devRef .tc main_v13))
    (V (Proc.devRef .tc main_v59)) slices_S16384x4095_S16384x32_0_31 bcast_S_S16384x32 bcast_S16384x32_S16384x32x1_0_1
    concatenates_S16384x32x1_S16384x32x1_S16384x32x2_d2 shapeCasts_S16384x32x2_S16384x64
    (fun a c => Cert.Spec.sig (Cert.Spec.logit X W B S a c)) (fun a k => Cert.TreeMath.pathProd (Cert.Spec.pnode X W B S a) 5 k)
    hT hO i j).trans
      (congrArg (fun t : ℝ => (t : EReal)) (pathProd_step X W B S i.val 5 31 j.val (by norm_num))))
  after_results
  rfl

/-- Level 6: from the path products of depth 6 to those of depth 7. -/
theorem level6 (V : Valuation τ sig (Elt Ideal)) (hT : Table X W B S V)
    (hO : ∀ (i : Fin 16384) (k : Fin 64), V (Proc.devRef .tc main_v68) (ix2 i k)
      = ((Cert.TreeMath.pathProd (Cert.Spec.pnode X W B S i.val) 6 k.val : ℝ) : EReal))
    (i : Fin 16384) (j : Fin 128) :
    after segL6 V (Proc.devRef .tc main_v77) (ix2 i j)
      = ((Cert.TreeMath.pathProd (Cert.Spec.pnode X W B S i.val) 7 j.val : ℝ) : EReal) := by
  refine Eq.trans ?_ ((Cert.RefFold.interleave_apply (n := 4095) (w := 64) rfl 63 (V (Proc.devRef .tc main_v13))
    (V (Proc.devRef .tc main_v68)) slices_S16384x4095_S16384x64_0_63 bcast_S_S16384x64 bcast_S16384x64_S16384x64x1_0_1
    concatenates_S16384x64x1_S16384x64x1_S16384x64x2_d2 shapeCasts_S16384x64x2_S16384x128
    (fun a c => Cert.Spec.sig (Cert.Spec.logit X W B S a c)) (fun a k => Cert.TreeMath.pathProd (Cert.Spec.pnode X W B S a) 6 k)
    hT hO i j).trans
      (congrArg (fun t : ℝ => (t : EReal)) (pathProd_step X W B S i.val 6 63 j.val (by norm_num))))
  after_results
  rfl

/-- Level 7: from the path products of depth 7 to those of depth 8. -/
theorem level7 (V : Valuation τ sig (Elt Ideal)) (hT : Table X W B S V)
    (hO : ∀ (i : Fin 16384) (k : Fin 128), V (Proc.devRef .tc main_v77) (ix2 i k)
      = ((Cert.TreeMath.pathProd (Cert.Spec.pnode X W B S i.val) 7 k.val : ℝ) : EReal))
    (i : Fin 16384) (j : Fin 256) :
    after segL7 V (Proc.devRef .tc main_v86) (ix2 i j)
      = ((Cert.TreeMath.pathProd (Cert.Spec.pnode X W B S i.val) 8 j.val : ℝ) : EReal) := by
  refine Eq.trans ?_ ((Cert.RefFold.interleave_apply (n := 4095) (w := 128) rfl 127 (V (Proc.devRef .tc main_v13))
    (V (Proc.devRef .tc main_v77)) slices_S16384x4095_S16384x128_0_127 bcast_S_S16384x128 bcast_S16384x128_S16384x128x1_0_1
    concatenates_S16384x128x1_S16384x128x1_S16384x128x2_d2 shapeCasts_S16384x128x2_S16384x256
    (fun a c => Cert.Spec.sig (Cert.Spec.logit X W B S a c)) (fun a k => Cert.TreeMath.pathProd (Cert.Spec.pnode X W B S a) 7 k)
    hT hO i j).trans
      (congrArg (fun t : ℝ => (t : EReal)) (pathProd_step X W B S i.val 7 127 j.val (by norm_num))))
  after_results
  rfl

/-- Level 8: from the path products of depth 8 to those of depth 9. -/
theorem level8 (V : Valuation τ sig (Elt Ideal)) (hT : Table X W B S V)
    (hO : ∀ (i : Fin 16384) (k : Fin 256), V (Proc.devRef .tc main_v86) (ix2 i k)
      = ((Cert.TreeMath.pathProd (Cert.Spec.pnode X W B S i.val) 8 k.val : ℝ) : EReal))
    (i : Fin 16384) (j : Fin 512) :
    after segL8 V (Proc.devRef .tc main_v95) (ix2 i j)
      = ((Cert.TreeMath.pathProd (Cert.Spec.pnode X W B S i.val) 9 j.val : ℝ) : EReal) := by
  refine Eq.trans ?_ ((Cert.RefFold.interleave_apply (n := 4095) (w := 256) rfl 255 (V (Proc.devRef .tc main_v13))
    (V (Proc.devRef .tc main_v86)) slices_S16384x4095_S16384x256_0_255 bcast_S_S16384x256 bcast_S16384x256_S16384x256x1_0_1
    concatenates_S16384x256x1_S16384x256x1_S16384x256x2_d2 shapeCasts_S16384x256x2_S16384x512
    (fun a c => Cert.Spec.sig (Cert.Spec.logit X W B S a c)) (fun a k => Cert.TreeMath.pathProd (Cert.Spec.pnode X W B S a) 8 k)
    hT hO i j).trans
      (congrArg (fun t : ℝ => (t : EReal)) (pathProd_step X W B S i.val 8 255 j.val (by norm_num))))
  after_results
  rfl

/-- Level 9: from the path products of depth 9 to those of depth 10. -/
theorem level9 (V : Valuation τ sig (Elt Ideal)) (hT : Table X W B S V)
    (hO : ∀ (i : Fin 16384) (k : Fin 512), V (Proc.devRef .tc main_v95) (ix2 i k)
      = ((Cert.TreeMath.pathProd (Cert.Spec.pnode X W B S i.val) 9 k.val : ℝ) : EReal))
    (i : Fin 16384) (j : Fin 1024) :
    after segL9 V (Proc.devRef .tc main_v104) (ix2 i j)
      = ((Cert.TreeMath.pathProd (Cert.Spec.pnode X W B S i.val) 10 j.val : ℝ) : EReal) := by
  refine Eq.trans ?_ ((Cert.RefFold.interleave_apply (n := 4095) (w := 512) rfl 511 (V (Proc.devRef .tc main_v13))
    (V (Proc.devRef .tc main_v95)) slices_S16384x4095_S16384x512_0_511 bcast_S_S16384x512 bcast_S16384x512_S16384x512x1_0_1
    concatenates_S16384x512x1_S16384x512x1_S16384x512x2_d2 shapeCasts_S16384x512x2_S16384x1024
    (fun a c => Cert.Spec.sig (Cert.Spec.logit X W B S a c)) (fun a k => Cert.TreeMath.pathProd (Cert.Spec.pnode X W B S a) 9 k)
    hT hO i j).trans
      (congrArg (fun t : ℝ => (t : EReal)) (pathProd_step X W B S i.val 9 511 j.val (by norm_num))))
  after_results
  rfl

/-- Level 10: from the path products of depth 10 to those of depth 11. -/
theorem level10 (V : Valuation τ sig (Elt Ideal)) (hT : Table X W B S V)
    (hO : ∀ (i : Fin 16384) (k : Fin 1024), V (Proc.devRef .tc main_v104) (ix2 i k)
      = ((Cert.TreeMath.pathProd (Cert.Spec.pnode X W B S i.val) 10 k.val : ℝ) : EReal))
    (i : Fin 16384) (j : Fin 2048) :
    after segL10 V (Proc.devRef .tc main_v113) (ix2 i j)
      = ((Cert.TreeMath.pathProd (Cert.Spec.pnode X W B S i.val) 11 j.val : ℝ) : EReal) := by
  refine Eq.trans ?_ ((Cert.RefFold.interleave_apply (n := 4095) (w := 1024) rfl 1023 (V (Proc.devRef .tc main_v13))
    (V (Proc.devRef .tc main_v104)) slices_S16384x4095_S16384x1024_0_1023 bcast_S_S16384x1024 bcast_S16384x1024_S16384x1024x1_0_1
    concatenates_S16384x1024x1_S16384x1024x1_S16384x1024x2_d2 shapeCasts_S16384x1024x2_S16384x2048
    (fun a c => Cert.Spec.sig (Cert.Spec.logit X W B S a c)) (fun a k => Cert.TreeMath.pathProd (Cert.Spec.pnode X W B S a) 10 k)
    hT hO i j).trans
      (congrArg (fun t : ℝ => (t : EReal)) (pathProd_step X W B S i.val 10 1023 j.val (by norm_num))))
  after_results
  rfl

/-- Level 11: from the path products of depth 11 to those of depth 12. -/
theorem level11 (V : Valuation τ sig (Elt Ideal)) (hT : Table X W B S V)
    (hO : ∀ (i : Fin 16384) (k : Fin 2048), V (Proc.devRef .tc main_v113) (ix2 i k)
      = ((Cert.TreeMath.pathProd (Cert.Spec.pnode X W B S i.val) 11 k.val : ℝ) : EReal))
    (i : Fin 16384) (j : Fin 4096) :
    after segL11 V (Proc.devRef .tc main_v122) (ix2 i j)
      = ((Cert.TreeMath.pathProd (Cert.Spec.pnode X W B S i.val) 12 j.val : ℝ) : EReal) := by
  refine Eq.trans ?_ ((Cert.RefFold.interleave_apply (n := 4095) (w := 2048) rfl 2047 (V (Proc.devRef .tc main_v13))
    (V (Proc.devRef .tc main_v113)) slices_S16384x4095_S16384x2048_0_2047 bcast_S_S16384x2048 bcast_S16384x2048_S16384x2048x1_0_1
    concatenates_S16384x2048x1_S16384x2048x1_S16384x2048x2_d2 shapeCasts_S16384x2048x2_S16384x4096
    (fun a c => Cert.Spec.sig (Cert.Spec.logit X W B S a c)) (fun a k => Cert.TreeMath.pathProd (Cert.Spec.pnode X W B S a) 11 k)
    hT hO i j).trans
      (congrArg (fun t : ℝ => (t : EReal)) (pathProd_step X W B S i.val 11 2047 j.val (by norm_num))))
  after_results
  rfl

/-! ## The stretches after the first leave the arguments and the table alone -/

theorem keeps_segL0 (V : Valuation τ sig (Elt Ideal)) : Keeps V (after segL0 V) := by
  constructor <;> after_results_simp

theorem keeps_segL1 (V : Valuation τ sig (Elt Ideal)) : Keeps V (after segL1 V) := by
  constructor <;> after_results_simp

theorem keeps_segL2 (V : Valuation τ sig (Elt Ideal)) : Keeps V (after segL2 V) := by
  constructor <;> after_results_simp

theorem keeps_segL3 (V : Valuation τ sig (Elt Ideal)) : Keeps V (after segL3 V) := by
  constructor <;> after_results_simp

theorem keeps_segL4 (V : Valuation τ sig (Elt Ideal)) : Keeps V (after segL4 V) := by
  constructor <;> after_results_simp

theorem keeps_segL5 (V : Valuation τ sig (Elt Ideal)) : Keeps V (after segL5 V) := by
  constructor <;> after_results_simp

theorem keeps_segL6 (V : Valuation τ sig (Elt Ideal)) : Keeps V (after segL6 V) := by
  constructor <;> after_results_simp

theorem keeps_segL7 (V : Valuation τ sig (Elt Ideal)) : Keeps V (after segL7 V) := by
  constructor <;> after_results_simp

theorem keeps_segL8 (V : Valuation τ sig (Elt Ideal)) : Keeps V (after segL8 V) := by
  constructor <;> after_results_simp

theorem keeps_segL9 (V : Valuation τ sig (Elt Ideal)) : Keeps V (after segL9 V) := by
  constructor <;> after_results_simp

theorem keeps_segL10 (V : Valuation τ sig (Elt Ideal)) : Keeps V (after segL10 V) := by
  constructor <;> after_results_simp

theorem keeps_segL11 (V : Valuation τ sig (Elt Ideal)) : Keeps V (after segL11 V) := by
  constructor <;> after_results_simp

theorem keeps_segF (V : Valuation τ sig (Elt Ideal)) : Keeps V (after segF V) := by
  constructor <;> after_results_simp

/-! ## The whole line, stretch by stretch -/

/-- The fold over the whole line is the fold over the fourteen stretches in turn. -/
theorem after_ops (V : Valuation τ sig (Elt Ideal)) :
    after (ops (F := Ideal)) V
      = after segF (after segL11 (after segL10 (after segL9 (after segL8 (after segL7 (after segL6 (after segL5
          (after segL4 (after segL3 (after segL2 (after segL1 (after segL0 (after segP V))))))))))))) := by
  simp only [ops, Cert.ReferenceIdeal.RefRun.after_append]

/-- From arguments holding real arrays, the line ends with the result buffer at the specification and the arguments
    unchanged. -/
theorem value (V : Valuation τ sig (Elt Ideal)) (hA : Args X W B S L V) (hfin : Cert.Spec.Finite X W B S L) :
    after (ops (F := Ideal)) V (Proc.devRef .tc main_v132) = Cert.Spec.G X W B S L
      ∧ Args X W B S L (after (ops (F := Ideal)) V) := by
  rw [after_ops]
  have hT := segP_table X W B S L V hA hfin
  replace hA := segP_args X W B S L V hA
  generalize after segP V = V1 at hT hA ⊢
  have h := level0 X W B S V1 hT
  replace hT := hT.keep (keeps_segL0 V1); replace hA := hA.keep (keeps_segL0 V1)
  generalize after segL0 V1 = V2 at h hT hA ⊢
  replace h := level1 X W B S V2 hT h
  replace hT := hT.keep (keeps_segL1 V2); replace hA := hA.keep (keeps_segL1 V2)
  generalize after segL1 V2 = V3 at h hT hA ⊢
  replace h := level2 X W B S V3 hT h
  replace hT := hT.keep (keeps_segL2 V3); replace hA := hA.keep (keeps_segL2 V3)
  generalize after segL2 V3 = V4 at h hT hA ⊢
  replace h := level3 X W B S V4 hT h
  replace hT := hT.keep (keeps_segL3 V4); replace hA := hA.keep (keeps_segL3 V4)
  generalize after segL3 V4 = V5 at h hT hA ⊢
  replace h := level4 X W B S V5 hT h
  replace hT := hT.keep (keeps_segL4 V5); replace hA := hA.keep (keeps_segL4 V5)
  generalize after segL4 V5 = V6 at h hT hA ⊢
  replace h := level5 X W B S V6 hT h
  replace hT := hT.keep (keeps_segL5 V6); replace hA := hA.keep (keeps_segL5 V6)
  generalize after segL5 V6 = V7 at h hT hA ⊢
  replace h := level6 X W B S V7 hT h
  replace hT := hT.keep (keeps_segL6 V7); replace hA := hA.keep (keeps_segL6 V7)
  generalize after segL6 V7 = V8 at h hT hA ⊢
  replace h := level7 X W B S V8 hT h
  replace hT := hT.keep (keeps_segL7 V8); replace hA := hA.keep (keeps_segL7 V8)
  generalize after segL7 V8 = V9 at h hT hA ⊢
  replace h := level8 X W B S V9 hT h
  replace hT := hT.keep (keeps_segL8 V9); replace hA := hA.keep (keeps_segL8 V9)
  generalize after segL8 V9 = V10 at h hT hA ⊢
  replace h := level9 X W B S V10 hT h
  replace hT := hT.keep (keeps_segL9 V10); replace hA := hA.keep (keeps_segL9 V10)
  generalize after segL9 V10 = V11 at h hT hA ⊢
  replace h := level10 X W B S V11 hT h
  replace hT := hT.keep (keeps_segL10 V11); replace hA := hA.keep (keeps_segL10 V11)
  generalize after segL10 V11 = V12 at h hT hA ⊢
  replace h := level11 X W B S V12 hT h
  replace hT := hT.keep (keeps_segL11 V12); replace hA := hA.keep (keeps_segL11 V12)
  generalize after segL11 V12 = V13 at h hT hA ⊢
  refine ⟨?_, hA.keep (keeps_segF V13)⟩
  funext j
  obtain ⟨a, rfl⟩ : ∃ a, j = ix1 a := ⟨j 0, eq_ix1 j⟩
  exact Cert.ReferenceIdeal.RefLeaves.segF_value V13 L hA.l hfin.L
    (fun a q => Cert.TreeMath.pathProd (Cert.Spec.pnode X W B S a) 12 q) h a

end Stretches

variable (m : (ℓ : Loc nD τ sig) → Buf (Elt Ideal) ℓ) (ρ : Dev nD → PrngReg)

/-- The five argument arrays of core `c`, at their literal types. -/
abbrev argX (c : Dev nD) : (⟨2, ![16384, 512]⟩ : Shape).Idx → EReal := m ((c.tc : Thread nD τ).loc main_arg0)
abbrev argW (c : Dev nD) : (⟨2, ![4095, 512]⟩ : Shape).Idx → EReal := m ((c.tc : Thread nD τ).loc main_arg1)
abbrev argB (c : Dev nD) : (⟨1, ![4095]⟩ : Shape).Idx → EReal := m ((c.tc : Thread nD τ).loc main_arg2)
abbrev argS (c : Dev nD) : (⟨1, ![4095]⟩ : Shape).Idx → EReal := m ((c.tc : Thread nD τ).loc main_arg3)
abbrev argL (c : Dev nD) : (⟨1, ![4096]⟩ : Shape).Idx → EReal := m ((c.tc : Thread nD τ).loc main_arg4)

/-- The run, read. -/
theorem run (hfin : ∀ c : Dev nD, Cert.Spec.Finite (argX m c) (argW m c) (argB m c) (argS m c) (argL m c)) :
    θ_run (defs (F := Ideal)) (onTc (τ := τ) (main (F := Ideal))) ⟨m, fun _ => 0, ρ⟩ fun r => ∀ c : Dev nD,
      r.2.mem ((c.tc : Thread nD τ).loc main_v132) = Cert.Spec.G (argX m c) (argW m c) (argB m c) (argS m c) (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => by
      have hv := value (argX m c) (argW m c) (argB m c) (argS m c) (argL m c) (launchContents m c) ⟨rfl, rfl, rfl, rfl, rfl⟩ (hfin c)
      exact ⟨(h c main_v132).trans hv.1, (h c main_arg0).trans hv.2.x, (h c main_arg1).trans hv.2.w,
        (h c main_arg2).trans hv.2.b, (h c main_arg3).trans hv.2.s, (h c main_arg4).trans hv.2.l⟩)
    (Cert.ReferenceIdeal.RefRun.run_after m ρ)

end Cert.ReferenceIdeal.RefValue

end
-- ==== Proof.lean ====
/-
  A depth-12 tree of logistic gates, evaluated for 16384 batch rows: the kernel against its reference, over the
  extended reals.

  For a batch row `i`, node `n` of a complete binary tree (4095 internal nodes, level `d` at positions
  `2^d - 1 … 2^(d+1) - 2`) carries `p = σ((⟨x_i, W_n⟩ + b_n) · s_n)`, `σ` the logistic function, and leaf `q` carries
  `σ(leaves_q)`.  The result at `i` is the sum over the 4096 leaves of the leaf's number times the product along its
  root path of `p` (going left) or `1 - p` (going right): `Spec.G`.

  The reference builds the 4096 path products top-down, level by level, and sums (`RefValue`).  The kernel re-orders
  the node rows within each level, and the leaves, by bit reversal (two constant tables), and then folds bottom-up by
  contiguous halves, `v ← p · v[: w] + (1 - p) · v[w : 2w]` for `w = 2048, …, 1` (`KPayload`, `KBlock`, `KValue`).
  The two agree because bit reversal sends the two halves of a level to the two children of the level above
  (`Tables`), so the fold's rows are the subtree values, and distributing the products over the sums level by level
  turns the leaf-weighted sum into the value of the whole tree (`TreeMath`).  Distributivity is where the
  precondition is used: every input is a real number (`Finite`), so every node and leaf number is one, and the two
  spellings of the logistic function (sign-split in the kernel, `1 / (1 + e^(-x))` in the reference) agree
  (`Sigmoid`).  The kernel's idealization rewrote nothing, so `preserves` is trivial; the kernel's two frames are the
  generated ones, the reference's is its run.
-/
import proofs.«407249_j24060406792344_3_alg».proof.Defs
import proofs.«407249_j24060406792344_3_alg».proof.Proof.Gen.Kernel
import proofs.«407249_j24060406792344_3_alg».proof.Proof.Gen.Kernel.Skeleton
import proofs.«407249_j24060406792344_3_alg».proof.Proof.Gen.Kernel.Launch
import proofs.«407249_j24060406792344_3_alg».proof.Proof.Gen.Kernel.Points
import proofs.«407249_j24060406792344_3_alg».proof.Proof.Gen.Kernel.Frame
import proofs.«407249_j24060406792344_3_alg».proof.Proof.Gen.KernelIdeal
import proofs.«407249_j24060406792344_3_alg».proof.Proof.Gen.KernelIdeal.Skeleton
import proofs.«407249_j24060406792344_3_alg».proof.Proof.Gen.KernelIdeal.Launch
import proofs.«407249_j24060406792344_3_alg».proof.Proof.Gen.KernelIdeal.Points
import proofs.«407249_j24060406792344_3_alg».proof.Proof.Gen.KernelIdeal.Frame
import proofs.«407249_j24060406792344_3_alg».proof.Proof.Gen.ReferenceIdeal
import proofs.«407249_j24060406792344_3_alg».proof.Proof.Gen.Pre_finite_inputs
import proofs.«407249_j24060406792344_3_alg».proof.Proof.Finite
import proofs.«407249_j24060406792344_3_alg».proof.Proof.KValue
import proofs.«407249_j24060406792344_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- Under the precondition the reference's five argument arrays hold real numbers. -/
theorem finite_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.Finite (Cert.ReferenceIdeal.RefValue.argX m c) (Cert.ReferenceIdeal.RefValue.argW m c)
      (Cert.ReferenceIdeal.RefValue.argB m c) (Cert.ReferenceIdeal.RefValue.argS m c) (Cert.ReferenceIdeal.RefValue.argL m c) :=
  Cert.FiniteInputs.finite_of_pre _ _ _ _ _ (h c)

/-- Under the precondition the kernel's five argument arrays hold real numbers. -/
theorem finite_kernel (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite (Cert.KernelIdeal.KHost.argX m c) (Cert.KernelIdeal.KHost.argW m c)
      (Cert.KernelIdeal.KHost.argB m c) (Cert.KernelIdeal.KHost.argS m c) (Cert.KernelIdeal.KHost.argL m c) :=
  Cert.FiniteInputs.finite_of_pre _ _ _ _ _ (h c)

/-- The reference's frame is its run with the result dropped. -/
theorem frame_referenceIdeal : Cert.frame_ReferenceIdeal := fun m ρ hpre =>
  (θ_run Cert.ReferenceIdeal.defs _ _).mono (fun _ h c => (h c).2)
    (Cert.ReferenceIdeal.RefValue.run m ρ (finite_reference m hpre))

/-- The idealization rewrote no operation. -/
theorem preserves : Cert.preserves_Kernel_KernelIdeal := trivial

/-- Both programs end with the specification `Spec.G` of the (agreeing) argument arrays. -/
theorem algebraic : Cert.algebraic_KernelIdeal_ReferenceIdeal := by
  intro m ρ m' ρ' hpre hagree
  have hfin := finite_kernel m hpre
  have hfin' : ∀ c : Dev Cert.ReferenceIdeal.nD,
      Cert.Spec.Finite (Cert.ReferenceIdeal.RefValue.argX m' c) (Cert.ReferenceIdeal.RefValue.argW m' c)
        (Cert.ReferenceIdeal.RefValue.argB m' c) (Cert.ReferenceIdeal.RefValue.argS m' c)
        (Cert.ReferenceIdeal.RefValue.argL m' c) := fun c => by
    obtain ⟨h0, h1, h2, h3, h4⟩ := hagree c
    dsimp only [Cert.ReferenceIdeal.RefValue.argX, Cert.ReferenceIdeal.RefValue.argW, Cert.ReferenceIdeal.RefValue.argB,
      Cert.ReferenceIdeal.RefValue.argS, Cert.ReferenceIdeal.RefValue.argL]
    rw [h0, h1, h2, h3, h4]
    exact hfin c
  refine ⟨_, Cert.KernelIdeal.KValue.run m ρ hfin, ?_⟩
  refine (θ_run Cert.ReferenceIdeal.defs _ _).mono (fun _ h c => ⟨(h c).1.trans ?_, (h c).2⟩)
    (Cert.ReferenceIdeal.RefValue.run m' ρ' hfin')
  obtain ⟨h0, h1, h2, h3, h4⟩ := hagree c
  dsimp only [Cert.ReferenceIdeal.RefValue.argX, Cert.ReferenceIdeal.RefValue.argW, Cert.ReferenceIdeal.RefValue.argB,
    Cert.ReferenceIdeal.RefValue.argS, Cert.ReferenceIdeal.RefValue.argL]
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
